-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S2x640000 : Shape := ⟨2, ![2, 640000]⟩
abbrev S100000x128 : Shape := ⟨2, ![100000, 128]⟩
abbrev S10000x128 : Shape := ⟨2, ![10000, 128]⟩
abbrev S2x128x128 : Shape := ⟨3, ![2, 128, 128]⟩
abbrev S2x128 : Shape := ⟨2, ![2, 128]⟩
abbrev S256x10000 : Shape := ⟨2, ![256, 10000]⟩
abbrev S10000 : Shape := ⟨1, ![10000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S256x10000 : S_.BroadcastsInDim S256x10000 (![] : Fin 0 → Fin S256x10000.rank)
  reducesTo_S256x10000_S_d0_1 : S256x10000.ReducesTo [0, 1] S_
  bcast_S_S10000 : S_.BroadcastsInDim S10000 (![] : Fin 0 → Fin S10000.rank)
  reducesTo_S10000_S_d0 : S10000.ReducesTo [0] S_

variable [Facts]

def fn_part2 {F : FTy → Type} [FloatOps F] (main_arg11 : FVec F S10000 .f32) (main_v33 : IVec S_ 1) : IVec S_ 1 :=
  let main_v34 : FVec F S10000 .f32 := Host.absf main_arg11
  let main_cst_12 : FVec F S_ .f32 := constant S_ .f32 0x7F800000#32
  let main_v35 : FVec F S10000 .f32 := broadcastInDim S10000 ![] bcast_S_S10000 main_cst_12
  let main_v36 : IVec S10000 1 := cmpf .olt main_v34 main_v35
  let main_c_13 : IVec S_ 1 := constantI S_ 1 1#1
  let main_v37 : IVec S_ 1 := (fun x v => Host.reduce IntOp.andi x v reducesTo_S10000_S_d0 h_S_) main_v36 main_c_13
  let main_v38 : IVec S_ 1 := andi main_v33 main_v37
  main_v38

def fn_part1 {F : FTy → Type} [FloatOps F] (main_arg8 : FVec F S2x128x128 .f32) (main_arg9 : FVec F S2x128 .f32) (main_arg10 : FVec F S256x10000 .f32) (main_arg11 : FVec F S10000 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg8
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg9
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S256x10000 .f32 := Host.absf main_arg10
  let main_cst_10 : FVec F S_ .f32 := constant S_ .f32 0x7F800000#32
  let main_v30 : FVec F S256x10000 .f32 := broadcastInDim S256x10000 ![] bcast_S_S256x10000 main_cst_10
  let main_v31 : IVec S256x10000 1 := cmpf .olt main_v29 main_v30
  let main_c_11 : IVec S_ 1 := constantI S_ 1 1#1
  let main_v32 : IVec S_ 1 := (fun x v => Host.reduce IntOp.andi x v reducesTo_S256x10000_S_d0_1 h_S_) main_v31 main_c_11
  let main_v33 : IVec S_ 1 := andi main_v28 main_v32
  fn_part2 (F := F) main_arg11 main_v33

def fn {F : FTy → Type} [FloatOps F] (main_arg0 : IVec S20000 32) (main_arg1 : IVec S20000 32) (main_arg2 : IVec S2x640000 32) (main_arg3 : IVec S2x640000 32) (main_arg4 : FVec F S100000x128 .f32) (main_arg5 : FVec F S10000x128 .f32) (main_arg6 : FVec F S2x128x128 .f32) (main_arg7 : FVec F S2x128 .f32) (main_arg8 : FVec F S2x128x128 .f32) (main_arg9 : FVec F S2x128 .f32) (main_arg10 : FVec F S256x10000 .f32) (main_arg11 : FVec F S10000 .f32) : IVec S_ 1 :=
  let main_v0 : FVec F S100000x128 .f32 := Host.absf main_arg4
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg5
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S2x128x128 .f32 := Host.absf main_arg6
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg7
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg8 main_arg9 main_arg10 main_arg11 main_v13 main_v16
-- ==== Kernel.lean ====
abbrev S20000 : Shape := ⟨1, ![20000]⟩
abbrev S2x640000 : Shape := ⟨2, ![2, 640000]⟩
abbrev S100000x128 : Shape := ⟨2, ![100000, 128]⟩
abbrev S10000x128 : Shape := ⟨2, ![10000, 128]⟩
abbrev S2x128x128 : Shape := ⟨3, ![2, 128, 128]⟩
abbrev S2x128 : Shape := ⟨2, ![2, 128]⟩
abbrev S256x10000 : Shape := ⟨2, ![256, 10000]⟩
abbrev S10000 : Shape := ⟨1, ![10000]⟩
abbrev S_ : Shape := ⟨0, ![]⟩
abbrev S20000x1 : Shape := ⟨2, ![20000, 1]⟩
abbrev S20000x128 : Shape := ⟨2, ![20000, 128]⟩
abbrev S1x640000 : Shape := ⟨2, ![1, 640000]⟩
abbrev S640000 : Shape := ⟨1, ![640000]⟩
abbrev S660000 : Shape := ⟨1, ![660000]⟩
abbrev S660000x1 : Shape := ⟨2, ![660000, 1]⟩
abbrev S1x128x128 : Shape := ⟨3, ![1, 128, 128]⟩
abbrev S128x128 : Shape := ⟨2, ![128, 128]⟩
abbrev S2000x128 : Shape := ⟨2, ![2000, 128]⟩
abbrev S660000x128 : Shape := ⟨2, ![660000, 128]⟩
abbrev S1x128 : Shape := ⟨2, ![1, 128]⟩
abbrev S128 : Shape := ⟨1, ![128]⟩
abbrev S128x10000 : Shape := ⟨2, ![128, 10000]⟩
abbrev S20000x10000 : Shape := ⟨2, ![20000, 10000]⟩
abbrev S200x128 : Shape := ⟨2, ![200, 128]⟩
abbrev S200x10000 : Shape := ⟨2, ![200, 10000]⟩
abbrev S1x10000 : Shape := ⟨2, ![1, 10000]⟩
abbrev S200 : Shape := ⟨1, ![200]⟩
abbrev S200x1 : Shape := ⟨2, ![200, 1]⟩

abbrev nBuf : Space → Nat
  | .hbm => 185
  | .vmem => 29
  | .smem => 0
  | _ => 0

abbrev hbmTy0_0 (i : Nat) : BufTy := match i % 128 with
  | 0 => ⟨S20000, .i32⟩
  | 1 => ⟨S20000, .i32⟩
  | 2 => ⟨S2x640000, .i32⟩
  | 3 => ⟨S2x640000, .i32⟩
  | 4 => ⟨S100000x128, .f32⟩
  | 5 => ⟨S10000x128, .f32⟩
  | 6 => ⟨S2x128x128, .f32⟩
  | 7 => ⟨S2x128, .f32⟩
  | 8 => ⟨S2x128x128, .f32⟩
  | 9 => ⟨S2x128, .f32⟩
  | 10 => ⟨S256x10000, .f32⟩
  | 11 => ⟨S10000, .f32⟩
  | 12 => ⟨S_, .i32⟩
  | 13 => ⟨S20000, .i32⟩
  | 14 => ⟨S20000, .i1⟩
  | 15 => ⟨S_, .i32⟩
  | 16 => ⟨S20000, .i32⟩
  | 17 => ⟨S20000, .i32⟩
  | 18 => ⟨S20000, .i32⟩
  | 19 => ⟨S20000x1, .i32⟩
  | 20 => ⟨S20000x128, .f32⟩
  | 21 => ⟨S_, .i32⟩
  | 22 => ⟨S20000, .i32⟩
  | 23 => ⟨S20000, .i1⟩
  | 24 => ⟨S_, .i32⟩
  | 25 => ⟨S20000, .i32⟩
  | 26 => ⟨S20000, .i32⟩
  | 27 => ⟨S20000, .i32⟩
  | 28 => ⟨S20000x1, .i32⟩
  | 29 => ⟨S20000x128, .f32⟩
  | 30 => ⟨S1x640000, .i32⟩
  | 31 => ⟨S640000, .i32⟩
  | 32 => ⟨S1x640000, .i32⟩
  | 33 => ⟨S640000, .i32⟩
  | 34 => ⟨S20000, .i32⟩
  | 35 => ⟨S660000, .i32⟩
  | 36 => ⟨S660000, .i32⟩
  | 37 => ⟨S_, .f32⟩
  | 38 => ⟨S660000, .f32⟩
  | 39 => ⟨S_, .f32⟩
  | 40 => ⟨S20000, .f32⟩
  | 41 => ⟨S660000x1, .i32⟩
  | 42 => ⟨S20000, .f32⟩
  | 43 => ⟨S_, .f32⟩
  | 44 => ⟨S20000, .f32⟩
  | 45 => ⟨S20000, .i1⟩
  | 46 => ⟨S20000, .f32⟩
  | 47 => ⟨S_, .f32⟩
  | 48 => ⟨S_, .f32⟩
  | 49 => ⟨S20000, .f32⟩
  | 50 => ⟨S20000, .f32⟩
  | 51 => ⟨S1x640000, .i32⟩
  | 52 => ⟨S640000, .i32⟩
  | 53 => ⟨S1x640000, .i32⟩
  | 54 => ⟨S640000, .i32⟩
  | 55 => ⟨S20000, .i32⟩
  | 56 => ⟨S660000, .i32⟩
  | 57 => ⟨S660000, .i32⟩
  | 58 => ⟨S_, .f32⟩
  | 59 => ⟨S660000, .f32⟩
  | 60 => ⟨S_, .f32⟩
  | 61 => ⟨S20000, .f32⟩
  | 62 => ⟨S660000x1, .i32⟩
  | 63 => ⟨S20000, .f32⟩
  | 64 => ⟨S_, .f32⟩
  | 65 => ⟨S20000, .f32⟩
  | 66 => ⟨S20000, .i1⟩
  | 67 => ⟨S20000, .f32⟩
  | 68 => ⟨S_, .f32⟩
  | 69 => ⟨S_, .f32⟩
  | 70 => ⟨S20000, .f32⟩
  | 71 => ⟨S20000, .f32⟩
  | 72 => ⟨S1x128x128, .f32⟩
  | 73 => ⟨S128x128, .f32⟩
  | 74 => ⟨S20000x128, .f32⟩
  | 75 => ⟨S20000x1, .f32⟩
  | 76 => ⟨S20000x128, .f32⟩
  | 77 => ⟨S20000x128, .f32⟩
  | 78 => ⟨S_, .i32⟩
  | 79 => ⟨S660000, .i32⟩
  | 80 => ⟨S660000, .i1⟩
  | 81 => ⟨S_, .i32⟩
  | 82 => ⟨S660000, .i32⟩
  | 83 => ⟨S660000, .i32⟩
  | 84 => ⟨S660000, .i32⟩
  | 85 => ⟨S660000x1, .i32⟩
  | 86 => ⟨S660000x128, .f32⟩
  | 87 => ⟨S_, .f32⟩
  | 88 => ⟨S20000x128, .f32⟩
  | 89 => ⟨S660000x1, .i32⟩
  | 90 => ⟨S20000x128, .f32⟩
  | 91 => ⟨S20000x1, .f32⟩
  | 92 => ⟨S20000x128, .f32⟩
  | 93 => ⟨S20000x128, .f32⟩
  | 94 => ⟨S1x128, .f32⟩
  | 95 => ⟨S128, .f32⟩
  | 96 => ⟨S1x128, .f32⟩
  | 97 => ⟨S20000x128, .f32⟩
  | 98 => ⟨S20000x128, .f32⟩
  | 99 => ⟨S1x128x128, .f32⟩
  | 100 => ⟨S128x128, .f32⟩
  | 101 => ⟨S20000x128, .f32⟩
  | 102 => ⟨S20000x1, .f32⟩
  | 103 => ⟨S20000x128, .f32⟩
  | 104 => ⟨S20000x128, .f32⟩
  | 105 => ⟨S_, .i32⟩
  | 106 => ⟨S660000, .i32⟩
  | 107 => ⟨S660000, .i1⟩
  | 108 => ⟨S_, .i32⟩
  | 109 => ⟨S660000, .i32⟩
  | 110 => ⟨S660000, .i32⟩
  | 111 => ⟨S660000, .i32⟩
  | 112 => ⟨S660000x1, .i32⟩
  | 113 => ⟨S660000x128, .f32⟩
  | 114 => ⟨S_, .f32⟩
  | 115 => ⟨S20000x128, .f32⟩
  | 116 => ⟨S660000x1, .i32⟩
  | 117 => ⟨S20000x128, .f32⟩
  | 118 => ⟨S20000x1, .f32⟩
  | 119 => ⟨S20000x128, .f32⟩
  | 120 => ⟨S20000x128, .f32⟩
  | 121 => ⟨S1x128, .f32⟩
  | 122 => ⟨S128, .f32⟩
  | 123 => ⟨S1x128, .f32⟩
  | 124 => ⟨S20000x128, .f32⟩
  | 125 => ⟨S20000x128, .f32⟩
  | 126 => ⟨S1x128x128, .f32⟩
  | 127 => ⟨S128x128, .f32⟩
  | _ => ⟨S20000, .i32⟩

abbrev hbmTy0_1 (i : Nat) : BufTy := match i % 128 with
  | 0 => ⟨S20000x128, .f32⟩
  | 1 => ⟨S20000x1, .f32⟩
  | 2 => ⟨S20000x128, .f32⟩
  | 3 => ⟨S20000x128, .f32⟩
  | 4 => ⟨S_, .i32⟩
  | 5 => ⟨S660000, .i32⟩
  | 6 => ⟨S660000, .i1⟩
  | 7 => ⟨S_, .i32⟩
  | 8 => ⟨S660000, .i32⟩
  | 9 => ⟨S660000, .i32⟩
  | 10 => ⟨S660000, .i32⟩
  | 11 => ⟨S660000x1, .i32⟩
  | 12 => ⟨S660000x128, .f32⟩
  | 13 => ⟨S_, .f32⟩
  | 14 => ⟨S20000x128, .f32⟩
  | 15 => ⟨S660000x1, .i32⟩
  | 16 => ⟨S20000x128, .f32⟩
  | 17 => ⟨S20000x1, .f32⟩
  | 18 => ⟨S20000x128, .f32⟩
  | 19 => ⟨S20000x128, .f32⟩
  | 20 => ⟨S1x128, .f32⟩
  | 21 => ⟨S128, .f32⟩
  | 22 => ⟨S1x128, .f32⟩
  | 23 => ⟨S20000x128, .f32⟩
  | 24 => ⟨S20000x128, .f32⟩
  | 25 => ⟨S1x128x128, .f32⟩
  | 26 => ⟨S128x128, .f32⟩
  | 27 => ⟨S20000x128, .f32⟩
  | 28 => ⟨S20000x1, .f32⟩
  | 29 => ⟨S20000x128, .f32⟩
  | 30 => ⟨S20000x128, .f32⟩
  | 31 => ⟨S_, .i32⟩
  | 32 => ⟨S660000, .i32⟩
  | 33 => ⟨S660000, .i1⟩
  | 34 => ⟨S_, .i32⟩
  | 35 => ⟨S660000, .i32⟩
  | 36 => ⟨S660000, .i32⟩
  | 37 => ⟨S660000, .i32⟩
  | 38 => ⟨S660000x1, .i32⟩
  | 39 => ⟨S660000x128, .f32⟩
  | 40 => ⟨S_, .f32⟩
  | 41 => ⟨S20000x128, .f32⟩
  | 42 => ⟨S660000x1, .i32⟩
  | 43 => ⟨S20000x128, .f32⟩
  | 44 => ⟨S20000x1, .f32⟩
  | 45 => ⟨S20000x128, .f32⟩
  | 46 => ⟨S20000x128, .f32⟩
  | 47 => ⟨S1x128, .f32⟩
  | 48 => ⟨S128, .f32⟩
  | 49 => ⟨S1x128, .f32⟩
  | 50 => ⟨S20000x128, .f32⟩
  | 51 => ⟨S20000x128, .f32⟩
  | 52 => ⟨S128x10000, .f32⟩
  | 53 => ⟨S128x10000, .bf16⟩
  | 54 => ⟨S128x10000, .f32⟩
  | 55 => ⟨S128x10000, .bf16⟩
  | 56 => ⟨S20000x10000, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S200x128, .f32⟩
  | .local _ .vmem, ⟨21, _⟩ => ⟨S200x128, .f32⟩
  | .local _ .vmem, ⟨22, _⟩ => ⟨S200x128, .f32⟩
  | .local _ .vmem, ⟨23, _⟩ => ⟨S200x128, .f32⟩
  | .local _ .vmem, ⟨24, _⟩ => ⟨S128x10000, .bf16⟩
  | .local _ .vmem, ⟨25, _⟩ => ⟨S128x10000, .bf16⟩
  | .local _ .vmem, ⟨26, _⟩ => ⟨S10000, .f32⟩
  | .local _ .vmem, ⟨27, _⟩ => ⟨S200x10000, .f32⟩
  | .local _ .vmem, ⟨28, _⟩ => ⟨S200x10000, .f32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_16 : Ref sig .tc := ⟨.hbm, 132, rfl⟩
abbrev main_v98 : Ref sig .tc := ⟨.hbm, 133, rfl⟩
abbrev main_v99 : Ref sig .tc := ⟨.hbm, 134, rfl⟩
abbrev main_c_17 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_18 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_19 : Ref sig .tc := ⟨.hbm, 159, rfl⟩
abbrev main_v122 : Ref sig .tc := ⟨.hbm, 160, rfl⟩
abbrev main_v123 : Ref sig .tc := ⟨.hbm, 161, rfl⟩
abbrev main_c_20 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_21 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem5_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S200x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x10000 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x10000 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S10000 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S200x10000 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S20000_S660000_d0 : Shape.Concatenates [S640000, S20000] S660000 0
  bcast_S_S660000 : S_.BroadcastsInDim S660000 (![] : Fin 0 → Fin S660000.rank)
  bcast_S660000_S660000x1_0 : S660000.BroadcastsInDim S660000x1 (![0] : Fin 1 → Fin S660000x1.rank)
  slices_S2x128x128_S1x128x128_0_0_0 : S2x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S20000x1_S20000x128_0_1 : S20000x1.BroadcastsInDim S20000x128 (![0, 1] : Fin 2 → Fin S20000x128.rank)
  bcast_S_S20000x128 : S_.BroadcastsInDim S20000x128 (![] : Fin 0 → Fin S20000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S2x128x128_S1x128x128_1_0_0 : S2x128x128.Slices ![1, 0, 0] S1x128x128
  slices_S2x128_S1x128_1_0 : S2x128.Slices ![1, 0] S1x128
  slices_S256x10000_S128x10000_0_0 : S256x10000.Slices ![0, 0] S128x10000
  slices_S256x10000_S128x10000_128_0 : S256x10000.Slices ![128, 0] S128x10000
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  inb_S10000_S10000_0 : ∀ a, (![0] : Fin 1 → Nat) a + S10000.size a ≤ S10000.size a
  h_S10000 : 0 < S10000.numel
  shapeCasts_S10000_S1x10000 : S10000.ShapeCasts S1x10000
  broadcasts_S1x10000_S200x10000 : S1x10000.Broadcasts S200x10000
  reduces_S200x10000_S200 : S200x10000.Reduces [1] S200
  shapeCasts_S200_S200x1 : S200.ShapeCasts S200x1
  broadcasts_S200x1_S200x10000 : S200x1.Broadcasts S200x10000
  inb_S200x10000_S200x10000_0_0 : ∀ a, (![0, 0] : Fin 2 → Nat) a + S200x10000.size a ≤ S200x10000.size a
  h_S200x10000 : 0 < S200x10000.numel
  gather_S100000x128_S20000x1_S20000x128_1_0_n_n_0_1_1128_wf : GatherDims.WF S100000x128 S20000x1 S20000x128 [1] [0] [] [0] [] 1 ![1, 128]
  gather_S10000x128_S20000x1_S20000x128_1_0_n_n_0_1_1128_wf : GatherDims.WF S10000x128 S20000x1 S20000x128 [1] [0] [] [0] [] 1 ![1, 128]
  scatter_S20000_S660000x1_S660000_n_0_0_1_wf : ScatterDims.WF S20000 S660000x1 S660000 [] [0] [0] 1
  dot_S2000x128_S128x128_S2000x128_1_0_0_1_n_n_wf : DotDims.WF S2000x128 S128x128 S2000x128 [1] [0] [0] [1] [] []
  gather_S20000x128_S660000x1_S660000x128_1_0_n_n_0_1_1128_wf : GatherDims.WF S20000x128 S660000x1 S660000x128 [1] [0] [] [0] [] 1 ![1, 128]
  scatter_S20000x128_S660000x1_S660000x128_1_0_0_1_wf : ScatterDims.WF S20000x128 S660000x1 S660000x128 [1] [0] [0] 1
  dot_S200x128_S128x10000_S200x10000_1_0_0_1_n_n_wf : DotDims.WF S200x128 S128x10000 S200x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S20000x128.size a
  hwx1_2 : ∀ i : grid1.Coords, EltTy.bits .f32 = 32 ∨ (Rect.block (s := S20000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S20000x128.size a
  hwx2_2 : ∀ i : grid2.Coords, EltTy.bits .f32 = 32 ∨ (Rect.block (s := S20000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S20000x128.size a
  hwx3_2 : ∀ i : grid3.Coords, EltTy.bits .f32 = 32 ∨ (Rect.block (s := S20000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x128.size a ≤ S20000x128.size a
  hwx4_0 : ∀ i : grid4.Coords, EltTy.bits .f32 = 32 ∨ (Rect.block (s := S20000x128) S200x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S200x128.size a ≤ S20000x128.size a
  hwx4_1 : ∀ i : grid4.Coords, EltTy.bits .f32 = 32 ∨ (Rect.block (s := S20000x128) S200x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x10000.size a ≤ S128x10000.size a
  hwx4_2 : ∀ i : grid4.Coords, EltTy.bits .bf16 = 32 ∨ (Rect.block (s := S128x10000) S128x10000.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10000.size a ≤ S128x10000.size a
  hwx4_3 : ∀ i : grid4.Coords, EltTy.bits .bf16 = 32 ∨ (Rect.block (s := S128x10000) S128x10000.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S10000.size a ≤ S10000.size a
  hwx4_4 : ∀ i : grid4.Coords, EltTy.bits .f32 = 32 ∨ (Rect.block (s := S10000) S10000.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S200x10000.size a ≤ S20000x10000.size a
  hwx4_5 : ∀ i : grid4.Coords, EltTy.bits .f32 = 32 ∨ (Rect.block (s := S20000x10000) S200x10000.size (cc4_transform_5 i) (hinb4_5 i)).WholeWords (EltTy.packing .f32)

variable [Facts₀]

def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def gather_S10000x128_S20000x1_S20000x128_1_0_n_n_0_1_1128 : GatherDims S10000x128 S20000x1 S20000x128 where
  offsetDims := [1]
  collapsedSliceDims := [0]
  operandBatchingDims := []
  startIndicesBatchingDims := []
  startIndexMap := [0]
  indexVectorDim := 1
  sliceSizes := ![1, 128]
  wf := gather_S10000x128_S20000x1_S20000x128_1_0_n_n_0_1_1128_wf
def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S660000x1_S660000x128_1_0_n_n_0_1_1128 : GatherDims S20000x128 S660000x1 S660000x128 where
  offsetDims := [1]
  collapsedSliceDims := [0]
  operandBatchingDims := []
  startIndicesBatchingDims := []
  startIndexMap := [0]
  indexVectorDim := 1
  sliceSizes := ![1, 128]
  wf := gather_S20000x128_S660000x1_S660000x128_1_0_n_n_0_1_1128_wf
def scatter_S20000x128_S660000x1_S660000x128_1_0_0_1 : ScatterDims S20000x128 S660000x1 S660000x128 where
  updateWindowDims := [1]
  insertedWindowDims := [0]
  scatterDimsToOperandDims := [0]
  indexVectorDim := 1
  wf := scatter_S20000x128_S660000x1_S660000x128_1_0_0_1_wf
def dot_S200x128_S128x10000_S200x10000_1_0_0_1_n_n : DotDims S200x128 S128x10000 S200x10000 where
  lhsContracting := [1]
  rhsContracting := [0]
  lhsNonContracting := [0]
  rhsNonContracting := [1]
  lhsBatch := []
  rhsBatch := []
  wf := dot_S200x128_S128x10000_S200x10000_1_0_0_1_n_n_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v94) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v91) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v117) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v115) S200x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v139) S200x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v141) S128x10000.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v143) S128x10000.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S10000.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v144) S200x10000.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S20000 : Shape := ⟨1, ![20000]⟩
abbrev S2x640000 : Shape := ⟨2, ![2, 640000]⟩
abbrev S100000x128 : Shape := ⟨2, ![100000, 128]⟩
abbrev S10000x128 : Shape := ⟨2, ![10000, 128]⟩
abbrev S2x128x128 : Shape := ⟨3, ![2, 128, 128]⟩
abbrev S2x128 : Shape := ⟨2, ![2, 128]⟩
abbrev S256x10000 : Shape := ⟨2, ![256, 10000]⟩
abbrev S10000 : Shape := ⟨1, ![10000]⟩
abbrev S_ : Shape := ⟨0, ![]⟩
abbrev S20000x1 : Shape := ⟨2, ![20000, 1]⟩
abbrev S20000x128 : Shape := ⟨2, ![20000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x640000 : Shape := ⟨2, ![1, 640000]⟩
abbrev S640000 : Shape := ⟨1, ![640000]⟩
abbrev S660000 : Shape := ⟨1, ![660000]⟩
abbrev S660000x1 : Shape := ⟨2, ![660000, 1]⟩
abbrev S660000x128 : Shape := ⟨2, ![660000, 128]⟩
abbrev S20000x256 : Shape := ⟨2, ![20000, 256]⟩
abbrev S20000x10000 : Shape := ⟨2, ![20000, 10000]⟩
abbrev S1x10000 : Shape := ⟨2, ![1, 10000]⟩

abbrev nBuf : Space → Nat
  | .hbm => 305
  | .vmem => 0
  | .smem => 0
  | _ => 0

abbrev hbmTy0_0 (i : Nat) : BufTy := match i % 128 with
  | 0 => ⟨S20000, .i32⟩
  | 1 => ⟨S20000, .i32⟩
  | 2 => ⟨S2x640000, .i32⟩
  | 3 => ⟨S2x640000, .i32⟩
  | 4 => ⟨S100000x128, .f32⟩
  | 5 => ⟨S10000x128, .f32⟩
  | 6 => ⟨S2x128x128, .f32⟩
  | 7 => ⟨S2x128, .f32⟩
  | 8 => ⟨S2x128x128, .f32⟩
  | 9 => ⟨S2x128, .f32⟩
  | 10 => ⟨S256x10000, .f32⟩
  | 11 => ⟨S10000, .f32⟩
  | 12 => ⟨S_, .i32⟩
  | 13 => ⟨S20000, .i32⟩
  | 14 => ⟨S20000, .i1⟩
  | 15 => ⟨S_, .i32⟩
  | 16 => ⟨S20000, .i32⟩
  | 17 => ⟨S20000, .i32⟩
  | 18 => ⟨S20000, .i32⟩
  | 19 => ⟨S20000x1, .i32⟩
  | 20 => ⟨S20000x128, .f32⟩
  | 21 => ⟨S_, .i32⟩
  | 22 => ⟨S20000, .i32⟩
  | 23 => ⟨S20000, .i1⟩
  | 24 => ⟨S_, .i32⟩
  | 25 => ⟨S20000, .i32⟩
  | 26 => ⟨S20000, .i32⟩
  | 27 => ⟨S20000, .i32⟩
  | 28 => ⟨S20000x1, .i32⟩
  | 29 => ⟨S20000x128, .f32⟩
  | 30 => ⟨S1x128x128, .f32⟩
  | 31 => ⟨S128x128, .f32⟩
  | 32 => ⟨S1x128, .f32⟩
  | 33 => ⟨S128, .f32⟩
  | 34 => ⟨S20000x128, .f32⟩
  | 35 => ⟨S20000, .i32⟩
  | 36 => ⟨S1x640000, .i32⟩
  | 37 => ⟨S640000, .i32⟩
  | 38 => ⟨S660000, .i32⟩
  | 39 => ⟨S1x640000, .i32⟩
  | 40 => ⟨S640000, .i32⟩
  | 41 => ⟨S660000, .i32⟩
  | 42 => ⟨S_, .f32⟩
  | 43 => ⟨S660000, .f32⟩
  | 44 => ⟨S_, .f32⟩
  | 45 => ⟨S20000, .f32⟩
  | 46 => ⟨S660000x1, .i32⟩
  | 47 => ⟨S20000, .f32⟩
  | 48 => ⟨S_, .f32⟩
  | 49 => ⟨S20000, .f32⟩
  | 50 => ⟨S20000, .i1⟩
  | 51 => ⟨S20000, .f32⟩
  | 52 => ⟨S_, .f32⟩
  | 53 => ⟨S_, .f32⟩
  | 54 => ⟨S20000, .f32⟩
  | 55 => ⟨S20000, .f32⟩
  | 56 => ⟨S_, .i32⟩
  | 57 => ⟨S660000, .i32⟩
  | 58 => ⟨S660000, .i1⟩
  | 59 => ⟨S_, .i32⟩
  | 60 => ⟨S660000, .i32⟩
  | 61 => ⟨S660000, .i32⟩
  | 62 => ⟨S660000, .i32⟩
  | 63 => ⟨S660000x1, .i32⟩
  | 64 => ⟨S660000, .f32⟩
  | 65 => ⟨S_, .i32⟩
  | 66 => ⟨S660000, .i32⟩
  | 67 => ⟨S660000, .i1⟩
  | 68 => ⟨S_, .i32⟩
  | 69 => ⟨S660000, .i32⟩
  | 70 => ⟨S660000, .i32⟩
  | 71 => ⟨S660000, .i32⟩
  | 72 => ⟨S660000x1, .i32⟩
  | 73 => ⟨S660000, .f32⟩
  | 74 => ⟨S660000, .f32⟩
  | 75 => ⟨S660000x1, .f32⟩
  | 76 => ⟨S_, .i32⟩
  | 77 => ⟨S660000, .i32⟩
  | 78 => ⟨S660000, .i1⟩
  | 79 => ⟨S_, .i32⟩
  | 80 => ⟨S660000, .i32⟩
  | 81 => ⟨S660000, .i32⟩
  | 82 => ⟨S660000, .i32⟩
  | 83 => ⟨S660000x1, .i32⟩
  | 84 => ⟨S660000x128, .f32⟩
  | 85 => ⟨S660000x128, .f32⟩
  | 86 => ⟨S660000x128, .f32⟩
  | 87 => ⟨S_, .f32⟩
  | 88 => ⟨S20000x128, .f32⟩
  | 89 => ⟨S660000x1, .i32⟩
  | 90 => ⟨S20000x128, .f32⟩
  | 91 => ⟨S1x128, .f32⟩
  | 92 => ⟨S20000x128, .f32⟩
  | 93 => ⟨S20000x128, .f32⟩
  | 94 => ⟨S1x128x128, .f32⟩
  | 95 => ⟨S128x128, .f32⟩
  | 96 => ⟨S1x128, .f32⟩
  | 97 => ⟨S128, .f32⟩
  | 98 => ⟨S20000x128, .f32⟩
  | 99 => ⟨S20000, .i32⟩
  | 100 => ⟨S1x640000, .i32⟩
  | 101 => ⟨S640000, .i32⟩
  | 102 => ⟨S660000, .i32⟩
  | 103 => ⟨S1x640000, .i32⟩
  | 104 => ⟨S640000, .i32⟩
  | 105 => ⟨S660000, .i32⟩
  | 106 => ⟨S_, .f32⟩
  | 107 => ⟨S660000, .f32⟩
  | 108 => ⟨S_, .f32⟩
  | 109 => ⟨S20000, .f32⟩
  | 110 => ⟨S660000x1, .i32⟩
  | 111 => ⟨S20000, .f32⟩
  | 112 => ⟨S_, .f32⟩
  | 113 => ⟨S20000, .f32⟩
  | 114 => ⟨S20000, .i1⟩
  | 115 => ⟨S20000, .f32⟩
  | 116 => ⟨S_, .f32⟩
  | 117 => ⟨S_, .f32⟩
  | 118 => ⟨S20000, .f32⟩
  | 119 => ⟨S20000, .f32⟩
  | 120 => ⟨S_, .i32⟩
  | 121 => ⟨S660000, .i32⟩
  | 122 => ⟨S660000, .i1⟩
  | 123 => ⟨S_, .i32⟩
  | 124 => ⟨S660000, .i32⟩
  | 125 => ⟨S660000, .i32⟩
  | 126 => ⟨S660000, .i32⟩
  | 127 => ⟨S660000x1, .i32⟩
  | _ => ⟨S20000, .i32⟩

abbrev hbmTy0_1 (i : Nat) : BufTy := match i % 128 with
  | 0 => ⟨S660000, .f32⟩
  | 1 => ⟨S_, .i32⟩
  | 2 => ⟨S660000, .i32⟩
  | 3 => ⟨S660000, .i1⟩
  | 4 => ⟨S_, .i32⟩
  | 5 => ⟨S660000, .i32⟩
  | 6 => ⟨S660000, .i32⟩
  | 7 => ⟨S660000, .i32⟩
  | 8 => ⟨S660000x1, .i32⟩
  | 9 => ⟨S660000, .f32⟩
  | 10 => ⟨S660000, .f32⟩
  | 11 => ⟨S660000x1, .f32⟩
  | 12 => ⟨S_, .i32⟩
  | 13 => ⟨S660000, .i32⟩
  | 14 => ⟨S660000, .i1⟩
  | 15 => ⟨S_, .i32⟩
  | 16 => ⟨S660000, .i32⟩
  | 17 => ⟨S660000, .i32⟩
  | 18 => ⟨S660000, .i32⟩
  | 19 => ⟨S660000x1, .i32⟩
  | 20 => ⟨S660000x128, .f32⟩
  | 21 => ⟨S660000x128, .f32⟩
  | 22 => ⟨S660000x128, .f32⟩
  | 23 => ⟨S_, .f32⟩
  | 24 => ⟨S20000x128, .f32⟩
  | 25 => ⟨S660000x1, .i32⟩
  | 26 => ⟨S20000x128, .f32⟩
  | 27 => ⟨S1x128, .f32⟩
  | 28 => ⟨S20000x128, .f32⟩
  | 29 => ⟨S20000x128, .f32⟩
  | 30 => ⟨S1x128x128, .f32⟩
  | 31 => ⟨S128x128, .f32⟩
  | 32 => ⟨S1x128, .f32⟩
  | 33 => ⟨S128, .f32⟩
  | 34 => ⟨S20000x128, .f32⟩
  | 35 => ⟨S20000, .i32⟩
  | 36 => ⟨S1x640000, .i32⟩
  | 37 => ⟨S640000, .i32⟩
  | 38 => ⟨S660000, .i32⟩
  | 39 => ⟨S1x640000, .i32⟩
  | 40 => ⟨S640000, .i32⟩
  | 41 => ⟨S660000, .i32⟩
  | 42 => ⟨S_, .f32⟩
  | 43 => ⟨S660000, .f32⟩
  | 44 => ⟨S_, .f32⟩
  | 45 => ⟨S20000, .f32⟩
  | 46 => ⟨S660000x1, .i32⟩
  | 47 => ⟨S20000, .f32⟩
  | 48 => ⟨S_, .f32⟩
  | 49 => ⟨S20000, .f32⟩
  | 50 => ⟨S20000, .i1⟩
  | 51 => ⟨S20000, .f32⟩
  | 52 => ⟨S_, .f32⟩
  | 53 => ⟨S_, .f32⟩
  | 54 => ⟨S20000, .f32⟩
  | 55 => ⟨S20000, .f32⟩
  | 56 => ⟨S_, .i32⟩
  | 57 => ⟨S660000, .i32⟩
  | 58 => ⟨S660000, .i1⟩
  | 59 => ⟨S_, .i32⟩
  | 60 => ⟨S660000, .i32⟩
  | 61 => ⟨S660000, .i32⟩
  | 62 => ⟨S660000, .i32⟩
  | 63 => ⟨S660000x1, .i32⟩
  | 64 => ⟨S660000, .f32⟩
  | 65 => ⟨S_, .i32⟩
  | 66 => ⟨S660000, .i32⟩
  | 67 => ⟨S660000, .i1⟩
  | 68 => ⟨S_, .i32⟩
  | 69 => ⟨S660000, .i32⟩
  | 70 => ⟨S660000, .i32⟩
  | 71 => ⟨S660000, .i32⟩
  | 72 => ⟨S660000x1, .i32⟩
  | 73 => ⟨S660000, .f32⟩
  | 74 => ⟨S660000, .f32⟩
  | 75 => ⟨S660000x1, .f32⟩
  | 76 => ⟨S_, .i32⟩
  | 77 => ⟨S660000, .i32⟩
  | 78 => ⟨S660000, .i1⟩
  | 79 => ⟨S_, .i32⟩
  | 80 => ⟨S660000, .i32⟩
  | 81 => ⟨S660000, .i32⟩
  | 82 => ⟨S660000, .i32⟩
  | 83 => ⟨S660000x1, .i32⟩
  | 84 => ⟨S660000x128, .f32⟩
  | 85 => ⟨S660000x128, .f32⟩
  | 86 => ⟨S660000x128, .f32⟩
  | 87 => ⟨S_, .f32⟩
  | 88 => ⟨S20000x128, .f32⟩
  | 89 => ⟨S660000x1, .i32⟩
  | 90 => ⟨S20000x128, .f32⟩
  | 91 => ⟨S1x128, .f32⟩
  | 92 => ⟨S20000x128, .f32⟩
  | 93 => ⟨S20000x128, .f32⟩
  | 94 => ⟨S1x128x128, .f32⟩
  | 95 => ⟨S128x128, .f32⟩
  | 96 => ⟨S1x128, .f32⟩
  | 97 => ⟨S128, .f32⟩
  | 98 => ⟨S20000x128, .f32⟩
  | 99 => ⟨S20000, .i32⟩
  | 100 => ⟨S1x640000, .i32⟩
  | 101 => ⟨S640000, .i32⟩
  | 102 => ⟨S660000, .i32⟩
  | 103 => ⟨S1x640000, .i32⟩
  | 104 => ⟨S640000, .i32⟩
  | 105 => ⟨S660000, .i32⟩
  | 106 => ⟨S_, .f32⟩
  | 107 => ⟨S660000, .f32⟩
  | 108 => ⟨S_, .f32⟩
  | 109 => ⟨S20000, .f32⟩
  | 110 => ⟨S660000x1, .i32⟩
  | 111 => ⟨S20000, .f32⟩
  | 112 => ⟨S_, .f32⟩
  | 113 => ⟨S20000, .f32⟩
  | 114 => ⟨S20000, .i1⟩
  | 115 => ⟨S20000, .f32⟩
  | 116 => ⟨S_, .f32⟩
  | 117 => ⟨S_, .f32⟩
  | 118 => ⟨S20000, .f32⟩
  | 119 => ⟨S20000, .f32⟩
  | 120 => ⟨S_, .i32⟩
  | 121 => ⟨S660000, .i32⟩
  | 122 => ⟨S660000, .i1⟩
  | 123 => ⟨S_, .i32⟩
  | 124 => ⟨S660000, .i32⟩
  | 125 => ⟨S660000, .i32⟩
  | 126 => ⟨S660000, .i32⟩
  | 127 => ⟨S660000x1, .i32⟩
  | _ => ⟨S20000, .i32⟩

abbrev hbmTy0_2 (i : Nat) : BufTy := match i % 128 with
  | 0 => ⟨S660000, .f32⟩
  | 1 => ⟨S_, .i32⟩
  | 2 => ⟨S660000, .i32⟩
  | 3 => ⟨S660000, .i1⟩
  | 4 => ⟨S_, .i32⟩
  | 5 => ⟨S660000, .i32⟩
  | 6 => ⟨S660000, .i32⟩
  | 7 => ⟨S660000, .i32⟩
  | 8 => ⟨S660000x1, .i32⟩
  | 9 => ⟨S660000, .f32⟩
  | 10 => ⟨S660000, .f32⟩
  | 11 => ⟨S660000x1, .f32⟩
  | 12 => ⟨S_, .i32⟩
  | 13 => ⟨S660000, .i32⟩
  | 14 => ⟨S660000, .i1⟩
  | 15 => ⟨S_, .i32⟩
  | 16 => ⟨S660000, .i32⟩
  | 17 => ⟨S660000, .i32⟩
  | 18 => ⟨S660000, .i32⟩
  | 19 => ⟨S660000x1, .i32⟩
  | 20 => ⟨S660000x128, .f32⟩
  | 21 => ⟨S660000x128, .f32⟩
  | 22 => ⟨S660000x128, .f32⟩
  | 23 => ⟨S_, .f32⟩
  | 24 => ⟨S20000x128, .f32⟩
  | 25 => ⟨S660000x1, .i32⟩
  | 26 => ⟨S20000x128, .f32⟩
  | 27 => ⟨S1x128, .f32⟩
  | 28 => ⟨S20000x128, .f32⟩
  | 29 => ⟨S20000x128, .f32⟩
  | 30 => ⟨S20000x256, .f32⟩
  | 31 => ⟨S20000x10000, .f32⟩
  | 32 => ⟨S1x10000, .f32⟩
  | 33 => ⟨S20000x10000, .f32⟩
  | 34 => ⟨S20000x10000, .f32⟩
  | 35 => ⟨S_, .f32⟩
  | 36 => ⟨S20000, .f32⟩
  | 37 => ⟨S_, .f32⟩
  | 38 => ⟨S20000, .f32⟩
  | 39 => ⟨S20000, .f32⟩
  | 40 => ⟨S20000x1, .f32⟩
  | 41 => ⟨S20000x10000, .f32⟩
  | 42 => ⟨S20000x10000, .f32⟩
  | 43 => ⟨S20000x10000, .f32⟩
  | 44 => ⟨S_, .f32⟩
  | 45 => ⟨S20000, .f32⟩
  | 46 => ⟨S20000x1, .f32⟩
  | 47 => ⟨S20000x10000, .f32⟩
  | 48 => ⟨S20000x10000, .f32⟩
  | _ => ⟨S20000, .i32⟩

abbrev hbmTy (i : Nat) : BufTy := match i / 128 with
  | 0 => hbmTy0_0 i
  | 1 => hbmTy0_1 i
  | 2 => hbmTy0_2 i
  | _ => ⟨S20000, .i32⟩

abbrev bufTy : (tb : Table) → Fin (tcTables nBuf tb) → BufTy
  | .hbm, ⟨i, _⟩ => hbmTy i
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_call1_v0 : Ref sig .tc := ⟨.hbm, 117, rfl⟩
abbrev main_call1_v1 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_c_18 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_19 : Ref sig .tc := ⟨.hbm, 129, rfl⟩
abbrev main_v92 : Ref sig .tc := ⟨.hbm, 130, rfl⟩
abbrev main_v93 : Ref sig .tc := ⟨.hbm, 131, rfl⟩
abbrev main_c_20 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_21 : Ref sig .tc := ⟨.hbm, 140, rfl⟩
abbrev main_v101 : Ref sig .tc := ⟨.hbm, 141, rfl⟩
abbrev main_v102 : Ref sig .tc := ⟨.hbm, 142, rfl⟩
abbrev main_c_22 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_23 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_24 : Ref sig .tc := ⟨.hbm, 170, rfl⟩
abbrev main_v128 : Ref sig .tc := ⟨.hbm, 171, rfl⟩
abbrev main_cst_25 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_26 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_27 : Ref sig .tc := ⟨.hbm, 180, rfl⟩
abbrev main_call2_v0 : Ref sig .tc := ⟨.hbm, 181, rfl⟩
abbrev main_call2_v1 : Ref sig .tc := ⟨.hbm, 182, rfl⟩
abbrev main_v135 : Ref sig .tc := ⟨.hbm, 183, rfl⟩
abbrev main_c_28 : Ref sig .tc := ⟨.hbm, 184, rfl⟩
abbrev main_v136 : Ref sig .tc := ⟨.hbm, 185, rfl⟩
abbrev main_v137 : Ref sig .tc := ⟨.hbm, 186, rfl⟩
abbrev main_c_29 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_30 : Ref sig .tc := ⟨.hbm, 193, rfl⟩
abbrev main_v143 : Ref sig .tc := ⟨.hbm, 194, rfl⟩
abbrev main_v144 : Ref sig .tc := ⟨.hbm, 195, rfl⟩
abbrev main_c_31 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_c_32 : Ref sig .tc := ⟨.hbm, 204, rfl⟩
abbrev main_v152 : Ref sig .tc := ⟨.hbm, 205, rfl⟩
abbrev main_v153 : Ref sig .tc := ⟨.hbm, 206, rfl⟩
abbrev main_c_33 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_34 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_35 : Ref sig .tc := ⟨.hbm, 234, rfl⟩
abbrev main_v179 : Ref sig .tc := ⟨.hbm, 235, rfl⟩
abbrev main_cst_36 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_cst_37 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_38 : Ref sig .tc := ⟨.hbm, 244, rfl⟩
abbrev main_call3_v0 : Ref sig .tc := ⟨.hbm, 245, rfl⟩
abbrev main_call3_v1 : Ref sig .tc := ⟨.hbm, 246, rfl⟩
abbrev main_v186 : Ref sig .tc := ⟨.hbm, 247, rfl⟩
abbrev main_c_39 : Ref sig .tc := ⟨.hbm, 248, rfl⟩
abbrev main_v187 : Ref sig .tc := ⟨.hbm, 249, rfl⟩
abbrev main_v188 : Ref sig .tc := ⟨.hbm, 250, rfl⟩
abbrev main_c_40 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_c_41 : Ref sig .tc := ⟨.hbm, 257, rfl⟩
abbrev main_v194 : Ref sig .tc := ⟨.hbm, 258, rfl⟩
abbrev main_v195 : Ref sig .tc := ⟨.hbm, 259, rfl⟩
abbrev main_c_42 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_c_43 : Ref sig .tc := ⟨.hbm, 268, rfl⟩
abbrev main_v203 : Ref sig .tc := ⟨.hbm, 269, rfl⟩
abbrev main_v204 : Ref sig .tc := ⟨.hbm, 270, rfl⟩
abbrev main_c_44 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_45 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_cst_46 : Ref sig .tc := ⟨.hbm, 291, rfl⟩
abbrev main_v223 : Ref sig .tc := ⟨.hbm, 292, rfl⟩
abbrev main_cst_47 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_cst_48 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x640000_S1x640000_0_0 : S2x640000.Slices ![0, 0] S1x640000
  shapeCasts_S1x640000_S640000 : S1x640000.ShapeCasts S640000
  concatenates_S640000_S20000_S660000_d0 : Shape.Concatenates [S640000, S20000] S660000 0
  slices_S2x640000_S1x640000_1_0 : S2x640000.Slices ![1, 0] S1x640000
  bcast_S_S660000 : S_.BroadcastsInDim S660000 (![] : Fin 0 → Fin S660000.rank)
  bcast_S660000_S660000x1_0 : S660000.BroadcastsInDim S660000x1 (![0] : Fin 1 → Fin S660000x1.rank)
  bcast_S660000x1_S660000x128_0_1 : S660000x1.BroadcastsInDim S660000x128 (![0, 1] : Fin 2 → Fin S660000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S2x128x128_S1x128x128_1_0_0 : S2x128x128.Slices ![1, 0, 0] S1x128x128
  slices_S2x128_S1x128_1_0 : S2x128.Slices ![1, 0] S1x128
  concatenates_S20000x128_S20000x128_S20000x256_d1 : Shape.Concatenates [S20000x128, S20000x128] S20000x256 1
  bcast_S10000_S1x10000_1 : S10000.BroadcastsInDim S1x10000 (![1] : Fin 1 → Fin S1x10000.rank)
  bcast_S1x10000_S20000x10000_0_1 : S1x10000.BroadcastsInDim S20000x10000 (![0, 1] : Fin 2 → Fin S20000x10000.rank)
  reducesTo_S20000x10000_S20000_d1 : S20000x10000.ReducesTo [1] S20000
  h_S_ : 0 < S_.numel
  bcast_S20000x1_S20000x10000_0_1 : S20000x1.BroadcastsInDim S20000x10000 (![0, 1] : Fin 2 → Fin S20000x10000.rank)
  gather_S100000x128_S20000x1_S20000x128_1_0_n_n_0_1_1128_wf : GatherDims.WF S100000x128 S20000x1 S20000x128 [1] [0] [] [0] [] 1 ![1, 128]
  gather_S10000x128_S20000x1_S20000x128_1_0_n_n_0_1_1128_wf : GatherDims.WF S10000x128 S20000x1 S20000x128 [1] [0] [] [0] [] 1 ![1, 128]
  dot_S20000x128_S128x128_S20000x128_1_0_0_1_n_n_wf : DotDims.WF S20000x128 S128x128 S20000x128 [1] [0] [0] [1] [] []
  scatter_S20000_S660000x1_S660000_n_0_0_1_wf : ScatterDims.WF S20000 S660000x1 S660000 [] [0] [0] 1
  gather_S20000_S660000x1_S660000_n_0_n_n_0_1_1_wf : GatherDims.WF S20000 S660000x1 S660000 [] [0] [] [0] [] 1 ![1]
  gather_S20000x128_S660000x1_S660000x128_1_0_n_n_0_1_1128_wf : GatherDims.WF S20000x128 S660000x1 S660000x128 [1] [0] [] [0] [] 1 ![1, 128]
  scatter_S20000x128_S660000x1_S660000x128_1_0_0_1_wf : ScatterDims.WF S20000x128 S660000x1 S660000x128 [1] [0] [0] 1
  dot_S20000x256_S256x10000_S20000x10000_1_0_0_1_n_n_wf : DotDims.WF S20000x256 S256x10000 S20000x10000 [1] [0] [0] [1] [] []

variable [Facts₀]

def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def gather_S10000x128_S20000x1_S20000x128_1_0_n_n_0_1_1128 : GatherDims S10000x128 S20000x1 S20000x128 where
  offsetDims := [1]
  collapsedSliceDims := [0]
  operandBatchingDims := []
  startIndicesBatchingDims := []
  startIndexMap := [0]
  indexVectorDim := 1
  sliceSizes := ![1, 128]
  wf := gather_S10000x128_S20000x1_S20000x128_1_0_n_n_0_1_1128_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def gather_S20000_S660000x1_S660000_n_0_n_n_0_1_1 : GatherDims S20000 S660000x1 S660000 where
  offsetDims := []
  collapsedSliceDims := [0]
  operandBatchingDims := []
  startIndicesBatchingDims := []
  startIndexMap := [0]
  indexVectorDim := 1
  sliceSizes := ![1]
  wf := gather_S20000_S660000x1_S660000_n_0_n_n_0_1_1_wf
def gather_S20000x128_S660000x1_S660000x128_1_0_n_n_0_1_1128 : GatherDims S20000x128 S660000x1 S660000x128 where
  offsetDims := [1]
  collapsedSliceDims := [0]
  operandBatchingDims := []
  startIndicesBatchingDims := []
  startIndexMap := [0]
  indexVectorDim := 1
  sliceSizes := ![1, 128]
  wf := gather_S20000x128_S660000x1_S660000x128_1_0_n_n_0_1_1128_wf
def scatter_S20000x128_S660000x1_S660000x128_1_0_0_1 : ScatterDims S20000x128 S660000x1 S660000x128 where
  updateWindowDims := [1]
  insertedWindowDims := [0]
  scatterDimsToOperandDims := [0]
  indexVectorDim := 1
  wf := scatter_S20000x128_S660000x1_S660000x128_1_0_0_1_wf
def dot_S20000x256_S256x10000_S20000x10000_1_0_0_1_n_n : DotDims S20000x256 S256x10000 S20000x10000 where
  lhsContracting := [1]
  rhsContracting := [0]
  lhsNonContracting := [0]
  rhsNonContracting := [1]
  lhsBatch := []
  rhsBatch := []
  wf := dot_S20000x256_S256x10000_S20000x10000_1_0_0_1_n_n_wf

class Facts : Prop extends Facts₀ where

variable [Facts]
-- ==== Proof.KDefs.lean ====
/-
  The host side of the kernel's program, as named functions of whole arrays.

  Around its five matrix-product launches the kernel's program looks up the two embedding tables, builds each graph's edge
  lists with the self-loops appended (`kSrc`, `kDst`), the degrees and the normalisation factor `1/√deg` (`kDeg`, `kDinv`), and
  after each product aggregates along the edges: rows scaled by the factor, gathered at the edges' sources, summed at their
  destinations, scaled again, plus the layer's bias (`kLayer0`, `kLayer1`). The last launch takes the two halves of the
  projection matrix (`kWu`, `kWp`).
-/
import proofs.«402708_j47854525612559_3_alg».proof.Proof.Gen.KernelIdeal.Frame

noncomputable section

namespace Cert.KernelIdeal.KVal

open Idealize.ShloMosaic Idealize.ShloMosaic.TcCoe Idealize.SL.Sem Idealize.ShloMosaic.StableHlo
open Cert.KernelIdeal Cert.KernelIdeal.Gen

/-- What one pass over a stretch of host operations leaves unread inside the operand list of a concatenation: read
    there, one operation at a time. -/
macro "after_rest" : tactic =>
  `(tactic| (repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide))))

variable {F : FTy → Type} [FloatOps F]

/-- The contents of a buffer of a given shape and element type. -/
abbrev Bf (F : FTy → Type) (s : Shape) (e : EltTy) : Type := (⟨s, e⟩ : BufTy).Contents (Elt F)

/-- Rows of the user table at the ids (a negative id wraps by the table's length). -/
def kEmbU (ids : Bf F S20000 .i32) (tbl : Bf F S100000x128 .f32) : Bf F S20000x128 .f32 :=
  Host.gather gather_S100000x128_S20000x1_S20000x128_1_0_n_n_0_1_1128 tbl
    (broadcastInDim S20000x1 ![0] bcast_S20000_S20000x1_0
      (select (cmpi .slt ids (broadcastInDim S20000 ![] bcast_S_S20000 (constantI S_ 32 0#32)))
        (addi ids (broadcastInDim S20000 ![] bcast_S_S20000 (constantI S_ 32 100000#32))) ids))

/-- Rows of the product table at the ids. -/
def kEmbP (ids : Bf F S20000 .i32) (tbl : Bf F S10000x128 .f32) : Bf F S20000x128 .f32 :=
  Host.gather gather_S10000x128_S20000x1_S20000x128_1_0_n_n_0_1_1128 tbl
    (broadcastInDim S20000x1 ![0] bcast_S20000_S20000x1_0
      (select (cmpi .slt ids (broadcastInDim S20000 ![] bcast_S_S20000 (constantI S_ 32 0#32)))
        (addi ids (broadcastInDim S20000 ![] bcast_S_S20000 (constantI S_ 32 10000#32))) ids))

/-- The edges' sources, the self-loops appended. -/
def kSrc (ei : Bf F S2x640000 .i32) : Bf F S660000 .i32 :=
  concatenate S660000 0 [⟨S640000, shapeCast _ (extractStridedSlice S1x640000 ![0, 0] ei slices_S2x640000_S1x640000_0_0) shapeCasts_S1x640000_S640000⟩,
    ⟨S20000, iotaInDim S20000 32 0⟩] concatenates_S640000_S20000_S660000_d0

/-- The edges' destinations, the self-loops appended. -/
def kDst (ei : Bf F S2x640000 .i32) : Bf F S660000 .i32 :=
  concatenate S660000 0 [⟨S640000, shapeCast _ (extractStridedSlice S1x640000 ![1, 0] ei slices_S2x640000_S1x640000_1_0) shapeCasts_S1x640000_S640000⟩,
    ⟨S20000, iotaInDim S20000 32 0⟩] concatenates_S640000_S20000_S660000_d0

/-- Each node's degree: one per edge arriving at it. -/
def kDeg (ei : Bf F S2x640000 .i32) : Bf F S20000 .f32 :=
  Host.scatterAdd scatter_S20000_S660000x1_S660000_n_0_0_1 (broadcastInDim S20000 ![] bcast_S_S20000 (constant S_ .f32 0x00000000#32))
    (broadcastInDim S660000x1 ![0] bcast_S660000_S660000x1_0 (kDst (F := F) ei)) (broadcastInDim S660000 ![] bcast_S_S660000 (constant S_ .f32 0x3F800000#32))

/-- The normalisation factor: `1/√deg` where the degree is positive, `0` elsewhere. -/
def kDinv (ei : Bf F S2x640000 .i32) : Bf F S20000 .f32 :=
  select (cmpf .ogt (kDeg (F := F) ei) (broadcastInDim S20000 ![] bcast_S_S20000 (constant S_ .f32 0x00000000#32))) (Host.rsqrt (kDeg (F := F) ei))
    (broadcastInDim S20000 ![] bcast_S_S20000 (id (constant S_ .f32 0x00000000#32)))

/-- The first layer's weight matrix. -/
def kW0 (w : Bf F S2x128x128 .f32) : Bf F S128x128 .f32 :=
  shapeCast _ (extractStridedSlice S1x128x128 ![0, 0, 0] w slices_S2x128x128_S1x128x128_0_0_0) shapeCasts_S1x128x128_S128x128
/-- The second layer's weight matrix. -/
def kW1 (w : Bf F S2x128x128 .f32) : Bf F S128x128 .f32 :=
  shapeCast _ (extractStridedSlice S1x128x128 ![1, 0, 0] w slices_S2x128x128_S1x128x128_1_0_0) shapeCasts_S1x128x128_S128x128

/-- The first layer's bias, a copy per node. -/
def kBias0 (b : Bf F S2x128 .f32) : Bf F S20000x128 .f32 :=
  broadcastInDim S20000x128 ![0, 1] bcast_S1x128_S20000x128_0_1 (broadcastInDim S1x128 ![1] bcast_S128_S1x128_1
    (shapeCast _ (extractStridedSlice S1x128 ![0, 0] b slices_S2x128_S1x128_0_0) shapeCasts_S1x128_S128))
/-- The second layer's bias, a copy per node. -/
def kBias1 (b : Bf F S2x128 .f32) : Bf F S20000x128 .f32 :=
  broadcastInDim S20000x128 ![0, 1] bcast_S1x128_S20000x128_0_1 (broadcastInDim S1x128 ![1] bcast_S128_S1x128_1
    (shapeCast _ (extractStridedSlice S1x128 ![1, 0] b slices_S2x128_S1x128_1_0) shapeCasts_S1x128_S128))

/-- Edge endpoints as gather indices: a negative word wraps by the number of nodes. -/
def kWrap (s : Bf F S660000 .i32) : Bf F S660000x1 .i32 :=
  broadcastInDim S660000x1 ![0] bcast_S660000_S660000x1_0
    (select (cmpi .slt s (broadcastInDim S660000 ![] bcast_S_S660000 (constantI S_ 32 0#32)))
      (addi s (broadcastInDim S660000 ![] bcast_S_S660000 (constantI S_ 32 20000#32))) s)

/-- Row `d` of `x` scaled by `dinv d`. -/
def kScale (dinv : Bf F S20000 .f32) (x : Bf F S20000x128 .f32) : Bf F S20000x128 .f32 :=
  mulf (broadcastInDim S20000x128 ![0, 1] bcast_S20000x1_S20000x128_0_1 (broadcastInDim S20000x1 ![0] bcast_S20000_S20000x1_0 dinv)) x

/-- The aggregation as the kernel's program does it: scale, gather at the sources, sum at the destinations, scale. -/
def kAgg (dinv : Bf F S20000 .f32) (h : Bf F S20000x128 .f32) (src dst : Bf F S660000 .i32) : Bf F S20000x128 .f32 :=
  kScale (F := F) dinv (Host.scatterAdd scatter_S20000x128_S660000x1_S660000x128_1_0_0_1
    (broadcastInDim S20000x128 ![] bcast_S_S20000x128 (constant S_ .f32 0x00000000#32))
    (broadcastInDim S660000x1 ![0] bcast_S660000_S660000x1_0 dst)
    (Host.gather gather_S20000x128_S660000x1_S660000x128_1_0_n_n_0_1_1128 (kScale (F := F) dinv h) (kWrap (F := F) src)))

/-- A first-layer step after its product. -/
def kLayer0 (dinv : Bf F S20000 .f32) (h : Bf F S20000x128 .f32) (src dst : Bf F S660000 .i32) (b : Bf F S2x128 .f32) : Bf F S20000x128 .f32 :=
  addf (kAgg (F := F) dinv h src dst) (kBias0 (F := F) b)
/-- A second-layer step after its product. -/
def kLayer1 (dinv : Bf F S20000 .f32) (h : Bf F S20000x128 .f32) (src dst : Bf F S660000 .i32) (b : Bf F S2x128 .f32) : Bf F S20000x128 .f32 :=
  addf (kAgg (F := F) dinv h src dst) (kBias1 (F := F) b)

/-- The projection's rows 0 to 127. -/
def kWu (w : Bf F S256x10000 .f32) : Bf F S128x10000 .bf16 :=
  truncf .bf16 (extractStridedSlice S128x10000 ![0, 0] w slices_S256x10000_S128x10000_0_0) bitsLt_bf16_f32
/-- The projection's rows 128 to 255. -/
def kWp (w : Bf F S256x10000 .f32) : Bf F S128x10000 .bf16 :=
  truncf .bf16 (extractStridedSlice S128x10000 ![128, 0] w slices_S256x10000_S128x10000_128_0) bitsLt_bf16_f32

end Cert.KernelIdeal.KVal

end
-- ==== Proof.KWritten.lean ====
import proofs.«402708_j47854525612559_3_alg».proof.Proof.Gen.KernelIdeal.Launch

namespace Cert.KernelIdeal.KVal

open Idealize.ShloMosaic Cert.KernelIdeal

/-- The buffers `hostOps1` writes, in order. -/
abbrev writtenH1 : List (Ref sig .tc) := [main_v47, main_v48, main_v49, main_c_10, main_v50, main_v51, main_c_11, main_v52, main_v53, main_v54, main_v55, main_v56, main_cst_12, main_v57, main_v58, main_v59, main_v60, main_v61, main_v62, main_v63, main_v64, main_v65, main_v66, main_v67, main_v68, main_v69]

/-- The buffers `hostOps2` writes, in order. -/
abbrev writtenH2 : List (Ref sig .tc) := [main_v71, main_v72, main_v73, main_c_13, main_v74, main_v75, main_c_14, main_v76, main_v77, main_v78, main_v79, main_v80, main_cst_15, main_v81, main_v82, main_v83, main_v84, main_v85, main_v86, main_v87, main_v88, main_v89, main_v90, main_v91, main_v92, main_v93]

/-- The buffers `hostOps3` writes, in order. -/
abbrev writtenH3 : List (Ref sig .tc) := [main_v95, main_v96, main_v97, main_c_16, main_v98, main_v99, main_c_17, main_v100, main_v101, main_v102, main_v103, main_v104, main_cst_18, main_v105, main_v106, main_v107, main_v108, main_v109, main_v110, main_v111, main_v112, main_v113, main_v114, main_v115, main_v116, main_v117]

/-- The buffers `hostOps4` writes, in order. -/
abbrev writtenH4 : List (Ref sig .tc) := [main_v119, main_v120, main_v121, main_c_19, main_v122, main_v123, main_c_20, main_v124, main_v125, main_v126, main_v127, main_v128, main_cst_21, main_v129, main_v130, main_v131, main_v132, main_v133, main_v134, main_v135, main_v136, main_v137, main_v138, main_v139, main_v140, main_v141, main_v142, main_v143]

end Cert.KernelIdeal.KVal
-- ==== Proof.KKeep.lean ====
/-
  What the later host stretches and the launches leave alone. Each stretch writes only its own results, and a launch only
  its result array, so a buffer computed early (an embedding, an edge list, a normalisation factor, an argument) is still
  there, unchanged, when a later stretch or launch reads it.
-/
import proofs.«402708_j47854525612559_3_alg».proof.Proof.Gen.KernelIdeal.Frame
import proofs.«402708_j47854525612559_3_alg».proof.Proof.KWritten

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

/-- Every operation of `hostOps1` writes a buffer of its list. -/
theorem hostOps1_writes : (hostOps1 : List (HloOp τ sig (Elt F))).Forall fun op => op.writes ⊆ ((writtenH1).map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- Every operation of `hostOps2` writes a buffer of its list. -/
theorem hostOps2_writes : (hostOps2 : List (HloOp τ sig (Elt F))).Forall fun op => op.writes ⊆ ((writtenH2).map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- Every operation of `hostOps3` writes a buffer of its list. -/
theorem hostOps3_writes : (hostOps3 : List (HloOp τ sig (Elt F))).Forall fun op => op.writes ⊆ ((writtenH3).map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- Every operation of `hostOps4` writes a buffer of its list. -/
theorem hostOps4_writes : (hostOps4 : List (HloOp τ sig (Elt F))).Forall fun op => op.writes ⊆ ((writtenH4).map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer `hostOps1` does not write holds after it what it held before. -/
theorem keepW7 (c : Dev nD) (r : Ref sig .tc) (hr : r ∉ writtenH1) :
    W7 m ρ c (Proc.devRef .tc r) = W6 m ρ c (Proc.devRef .tc r) :=
  StableHlo.after_of_writes_sub hostOps1 _ hostOps1_writes hr
/-- A buffer `hostOps2` does not write holds after it what it held before. -/
theorem keepW9 (c : Dev nD) (r : Ref sig .tc) (hr : r ∉ writtenH2) :
    W9 m ρ c (Proc.devRef .tc r) = W8 m ρ c (Proc.devRef .tc r) :=
  StableHlo.after_of_writes_sub hostOps2 _ hostOps2_writes hr
/-- A buffer `hostOps3` does not write holds after it what it held before. -/
theorem keepW11 (c : Dev nD) (r : Ref sig .tc) (hr : r ∉ writtenH3) :
    W11 m ρ c (Proc.devRef .tc r) = W10 m ρ c (Proc.devRef .tc r) :=
  StableHlo.after_of_writes_sub hostOps3 _ hostOps3_writes hr
/-- A buffer `hostOps4` does not write holds after it what it held before. -/
theorem keepW13 (c : Dev nD) (r : Ref sig .tc) (hr : r ∉ writtenH4) :
    W13 m ρ c (Proc.devRef .tc r) = W12 m ρ c (Proc.devRef .tc r) :=
  StableHlo.after_of_writes_sub hostOps4 _ hostOps4_writes hr

/-- From the first launch's entry to the third stretch's entry (through two launches and two stretches): a buffer none of
    them writes. -/
theorem keep_5_10 (c : Dev nD) (r : Ref sig .tc) (h0 : ∀ w, Pipeline.arrRef spec0 w ≠ r) (h1 : r ∉ writtenH1)
    (h2 : ∀ w, Pipeline.arrRef spec1 w ≠ r) (h3 : r ∉ writtenH2) (h4 : ∀ w, Pipeline.arrRef spec2 w ≠ r) :
    W10 m ρ c (Proc.devRef .tc r) = W5 m ρ c (Proc.devRef .tc r) :=
  (W10_of_ne m ρ c r h4).trans ((keepW9 m ρ c r h3).trans ((W8_of_ne m ρ c r h2).trans ((keepW7 m ρ c r h1).trans (W6_of_ne m ρ c r h0))))

/-- From the first launch's entry to the second stretch's entry. -/
theorem keep_5_8 (c : Dev nD) (r : Ref sig .tc) (h0 : ∀ w, Pipeline.arrRef spec0 w ≠ r) (h1 : r ∉ writtenH1)
    (h2 : ∀ w, Pipeline.arrRef spec1 w ≠ r) :
    W8 m ρ c (Proc.devRef .tc r) = W5 m ρ c (Proc.devRef .tc r) :=
  (W8_of_ne m ρ c r h2).trans ((keepW7 m ρ c r h1).trans (W6_of_ne m ρ c r h0))

/-- From the first launch's entry to the fourth stretch's entry. -/
theorem keep_5_12 (c : Dev nD) (r : Ref sig .tc) (h0 : ∀ w, Pipeline.arrRef spec0 w ≠ r) (h1 : r ∉ writtenH1)
    (h2 : ∀ w, Pipeline.arrRef spec1 w ≠ r) (h3 : r ∉ writtenH2) (h4 : ∀ w, Pipeline.arrRef spec2 w ≠ r) (h5 : r ∉ writtenH3)
    (h6 : ∀ w, Pipeline.arrRef spec3 w ≠ r) :
    W12 m ρ c (Proc.devRef .tc r) = W5 m ρ c (Proc.devRef .tc r) :=
  (W12_of_ne m ρ c r h6).trans ((keepW11 m ρ c r h5).trans (keep_5_10 m ρ c r h0 h1 h2 h3 h4))

/-- From the first launch's entry to the last launch's entry. -/
theorem keep_5_13 (c : Dev nD) (r : Ref sig .tc) (h0 : ∀ w, Pipeline.arrRef spec0 w ≠ r) (h1 : r ∉ writtenH1)
    (h2 : ∀ w, Pipeline.arrRef spec1 w ≠ r) (h3 : r ∉ writtenH2) (h4 : ∀ w, Pipeline.arrRef spec2 w ≠ r) (h5 : r ∉ writtenH3)
    (h6 : ∀ w, Pipeline.arrRef spec3 w ≠ r) (h7 : r ∉ writtenH4) :
    W13 m ρ c (Proc.devRef .tc r) = W5 m ρ c (Proc.devRef .tc r) :=
  (keepW13 m ρ c r h7).trans (keep_5_12 m ρ c r h0 h1 h2 h3 h4 h5 h6)

end Cert.KernelIdeal.KVal

end
-- ==== Proof.KStages.lean ====
/-
  The host stretches between the kernel's launches, read: from ANY buffer contents `V` at a stretch's entry, the buffers
  the next launch and the later stretches read hold the aggregation step (or the weight slice) of the entry contents.
-/
import proofs.«402708_j47854525612559_3_alg».proof.Proof.KDefs

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

variable {F : FTy → Type} [FloatOps F]

/-! ## After the first launch: the user tower's first layer, and the product tower's first weight matrix -/

theorem h1_u1 (V : Valuation τ sig (Elt F)) :
    StableHlo.after hostOps1 V (Proc.devRef .tc main_v67) = kLayer0 (F := F) (V (Proc.devRef .tc main_v28)) (V (Proc.devRef .tc main_v46)) (V (Proc.devRef .tc main_v19)) (V (Proc.devRef .tc main_v20)) (V (Proc.devRef .tc main_arg7)) := by
  dsimp only [hostOps1]; after_results_simp; after_rest; try simp only [TRef.ofBuf, TRef.toBuf, cast_eq]
  rfl
theorem h1_w (V : Valuation τ sig (Elt F)) :
    StableHlo.after hostOps1 V (Proc.devRef .tc main_v69) = kW0 (F := F) (V (Proc.devRef .tc main_arg8)) := by
  dsimp only [hostOps1]; after_results_simp; after_rest; try simp only [TRef.ofBuf, TRef.toBuf, cast_eq]
  rfl

/-! ## After the second launch: the product tower's first layer, and the user tower's second weight matrix -/

theorem h2_p1 (V : Valuation τ sig (Elt F)) :
    StableHlo.after hostOps2 V (Proc.devRef .tc main_v91) = kLayer0 (F := F) (V (Proc.devRef .tc main_v43)) (V (Proc.devRef .tc main_v70)) (V (Proc.devRef .tc main_v34)) (V (Proc.devRef .tc main_v35)) (V (Proc.devRef .tc main_arg9)) := by
  dsimp only [hostOps2]; after_results_simp; after_rest; try simp only [TRef.ofBuf, TRef.toBuf, cast_eq]
  rfl
theorem h2_w (V : Valuation τ sig (Elt F)) :
    StableHlo.after hostOps2 V (Proc.devRef .tc main_v93) = kW1 (F := F) (V (Proc.devRef .tc main_arg6)) := by
  dsimp only [hostOps2]; after_results_simp; after_rest; try simp only [TRef.ofBuf, TRef.toBuf, cast_eq]
  rfl

/-! ## After the third launch: the user tower's second layer, and the product tower's second weight matrix -/

theorem h3_u2 (V : Valuation τ sig (Elt F)) :
    StableHlo.after hostOps3 V (Proc.devRef .tc main_v115) = kLayer1 (F := F) (V (Proc.devRef .tc main_v28)) (V (Proc.devRef .tc main_v94)) (V (Proc.devRef .tc main_v19)) (V (Proc.devRef .tc main_v20)) (V (Proc.devRef .tc main_arg7)) := by
  dsimp only [hostOps3]; after_results_simp; after_rest; try simp only [TRef.ofBuf, TRef.toBuf, cast_eq]
  rfl
theorem h3_w (V : Valuation τ sig (Elt F)) :
    StableHlo.after hostOps3 V (Proc.devRef .tc main_v117) = kW1 (F := F) (V (Proc.devRef .tc main_arg8)) := by
  dsimp only [hostOps3]; after_results_simp; after_rest; try simp only [TRef.ofBuf, TRef.toBuf, cast_eq]
  rfl

/-! ## After the fourth launch: the product tower's second layer, and the two halves of the projection matrix -/

theorem h4_p2 (V : Valuation τ sig (Elt F)) :
    StableHlo.after hostOps4 V (Proc.devRef .tc main_v139) = kLayer1 (F := F) (V (Proc.devRef .tc main_v43)) (V (Proc.devRef .tc main_v118)) (V (Proc.devRef .tc main_v34)) (V (Proc.devRef .tc main_v35)) (V (Proc.devRef .tc main_arg9)) := by
  dsimp only [hostOps4]; after_results_simp; after_rest; try simp only [TRef.ofBuf, TRef.toBuf, cast_eq]
  rfl
theorem h4_wu (V : Valuation τ sig (Elt F)) :
    StableHlo.after hostOps4 V (Proc.devRef .tc main_v141) = kWu (F := F) (V (Proc.devRef .tc main_arg10)) := by
  dsimp only [hostOps4]; after_results_simp; after_rest; try simp only [TRef.ofBuf, TRef.toBuf, cast_eq]
  rfl
theorem h4_wp (V : Valuation τ sig (Elt F)) :
    StableHlo.after hostOps4 V (Proc.devRef .tc main_v143) = kWp (F := F) (V (Proc.devRef .tc main_arg10)) := by
  dsimp only [hostOps4]; after_results_simp; after_rest; try simp only [TRef.ofBuf, TRef.toBuf, cast_eq]
  rfl

end Cert.KernelIdeal.KVal

end
-- ==== Proof.KStage0a.lean ====
/-
  The host operations before the kernel's first launch, read at the launch's entry: the two embedding lookups, the first weight matrix, and the argument arrays the later stretches read (no operation writes an argument).
-/
import proofs.«402708_j47854525612559_3_alg».proof.Proof.KDefs

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

set_option maxHeartbeats 1000000 in
/-- The user tower's input features. -/
theorem at5_u0 (c : Dev nD) : W5 m ρ c (Proc.devRef .tc main_v6) = kEmbU (F := F) (m ((c : Thread nD τ).loc main_arg0)) (m ((c : Thread nD τ).loc main_arg4)) := by
  dsimp only [W5, W4, W3, W2, W1, W0, hostOps0_4, hostOps0_3, hostOps0_2, hostOps0_1, hostOps0]
  after_results_simp; after_rest; try simp only [TRef.ofBuf, TRef.toBuf, cast_eq]
  rfl
set_option maxHeartbeats 1000000 in
/-- The product tower's input features. -/
theorem at5_p0 (c : Dev nD) : W5 m ρ c (Proc.devRef .tc main_v13) = kEmbP (F := F) (m ((c : Thread nD τ).loc main_arg1)) (m ((c : Thread nD τ).loc main_arg5)) := by
  dsimp only [W5, W4, W3, W2, W1, W0, hostOps0_4, hostOps0_3, hostOps0_2, hostOps0_1, hostOps0]
  after_results_simp; after_rest; try simp only [TRef.ofBuf, TRef.toBuf, cast_eq]
  rfl
set_option maxHeartbeats 1000000 in
/-- The user tower's first weight matrix. -/
theorem at5_w (c : Dev nD) : W5 m ρ c (Proc.devRef .tc main_v45) = kW0 (F := F) (m ((c : Thread nD τ).loc main_arg6)) := by
  dsimp only [W5, W4, W3, W2, W1, W0, hostOps0_4, hostOps0_3, hostOps0_2, hostOps0_1, hostOps0]
  after_results_simp; after_rest; try simp only [TRef.ofBuf, TRef.toBuf, cast_eq]
  rfl
set_option maxHeartbeats 1000000 in
/-- Argument 6 as launched. -/
theorem at5_arg6 (c : Dev nD) : W5 m ρ c (Proc.devRef .tc main_arg6) = (m ((c : Thread nD τ).loc main_arg6)) := by
  dsimp only [W5, W4, W3, W2, W1, W0, hostOps0_4, hostOps0_3, hostOps0_2, hostOps0_1, hostOps0]
  after_results_simp
set_option maxHeartbeats 1000000 in
/-- Argument 7 as launched. -/
theorem at5_arg7 (c : Dev nD) : W5 m ρ c (Proc.devRef .tc main_arg7) = (m ((c : Thread nD τ).loc main_arg7)) := by
  dsimp only [W5, W4, W3, W2, W1, W0, hostOps0_4, hostOps0_3, hostOps0_2, hostOps0_1, hostOps0]
  after_results_simp
set_option maxHeartbeats 1000000 in
/-- Argument 8 as launched. -/
theorem at5_arg8 (c : Dev nD) : W5 m ρ c (Proc.devRef .tc main_arg8) = (m ((c : Thread nD τ).loc main_arg8)) := by
  dsimp only [W5, W4, W3, W2, W1, W0, hostOps0_4, hostOps0_3, hostOps0_2, hostOps0_1, hostOps0]
  after_results_simp
set_option maxHeartbeats 1000000 in
/-- Argument 9 as launched. -/
theorem at5_arg9 (c : Dev nD) : W5 m ρ c (Proc.devRef .tc main_arg9) = (m ((c : Thread nD τ).loc main_arg9)) := by
  dsimp only [W5, W4, W3, W2, W1, W0, hostOps0_4, hostOps0_3, hostOps0_2, hostOps0_1, hostOps0]
  after_results_simp
set_option maxHeartbeats 1000000 in
/-- Argument 10 as launched. -/
theorem at5_arg10 (c : Dev nD) : W5 m ρ c (Proc.devRef .tc main_arg10) = (m ((c : Thread nD τ).loc main_arg10)) := by
  dsimp only [W5, W4, W3, W2, W1, W0, hostOps0_4, hostOps0_3, hostOps0_2, hostOps0_1, hostOps0]
  after_results_simp
set_option maxHeartbeats 1000000 in
/-- Argument 11 as launched. -/
theorem at5_arg11 (c : Dev nD) : W5 m ρ c (Proc.devRef .tc main_arg11) = (m ((c : Thread nD τ).loc main_arg11)) := by
  dsimp only [W5, W4, W3, W2, W1, W0, hostOps0_4, hostOps0_3, hostOps0_2, hostOps0_1, hostOps0]
  after_results_simp

end Cert.KernelIdeal.KVal

end
-- ==== Proof.KStage0b.lean ====
/-
  The host operations before the kernel's first launch, read at the launch's entry: the user graph's edge lists and normalisation factor.
-/
import proofs.«402708_j47854525612559_3_alg».proof.Proof.KDefs

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

set_option maxHeartbeats 1000000 in
/-- The user graph's sources. -/
theorem at5_srcU (c : Dev nD) : W5 m ρ c (Proc.devRef .tc main_v19) = kSrc (F := F) (m ((c : Thread nD τ).loc main_arg2)) := by
  dsimp only [W5, W4, W3, W2, W1, W0, hostOps0_4, hostOps0_3, hostOps0_2, hostOps0_1, hostOps0]
  after_results_simp; after_rest; try simp only [TRef.ofBuf, TRef.toBuf, cast_eq]
  rfl
set_option maxHeartbeats 1000000 in
/-- The user graph's destinations. -/
theorem at5_dstU (c : Dev nD) : W5 m ρ c (Proc.devRef .tc main_v20) = kDst (F := F) (m ((c : Thread nD τ).loc main_arg2)) := by
  dsimp only [W5, W4, W3, W2, W1, W0, hostOps0_4, hostOps0_3, hostOps0_2, hostOps0_1, hostOps0]
  after_results_simp; after_rest; try simp only [TRef.ofBuf, TRef.toBuf, cast_eq]
  rfl
set_option maxHeartbeats 1000000 in
/-- The user graph's normalisation factor. -/
theorem at5_dinvU (c : Dev nD) : W5 m ρ c (Proc.devRef .tc main_v28) = kDinv (F := F) (m ((c : Thread nD τ).loc main_arg2)) := by
  dsimp only [W5, W4, W3, W2, W1, W0, hostOps0_4, hostOps0_3, hostOps0_2, hostOps0_1, hostOps0]
  after_results_simp; after_rest; try simp only [TRef.ofBuf, TRef.toBuf, cast_eq]
  rfl

end Cert.KernelIdeal.KVal

end
-- ==== Proof.KStage0c.lean ====
/-
  The host operations before the kernel's first launch, read at the launch's entry: the product graph's edge lists and normalisation factor.
-/
import proofs.«402708_j47854525612559_3_alg».proof.Proof.KDefs

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

set_option maxHeartbeats 1000000 in
/-- The product graph's sources. -/
theorem at5_srcP (c : Dev nD) : W5 m ρ c (Proc.devRef .tc main_v34) = kSrc (F := F) (m ((c : Thread nD τ).loc main_arg3)) := by
  dsimp only [W5, W4, W3, W2, W1, W0, hostOps0_4, hostOps0_3, hostOps0_2, hostOps0_1, hostOps0]
  after_results_simp; after_rest; try simp only [TRef.ofBuf, TRef.toBuf, cast_eq]
  rfl
set_option maxHeartbeats 1000000 in
/-- The product graph's destinations. -/
theorem at5_dstP (c : Dev nD) : W5 m ρ c (Proc.devRef .tc main_v35) = kDst (F := F) (m ((c : Thread nD τ).loc main_arg3)) := by
  dsimp only [W5, W4, W3, W2, W1, W0, hostOps0_4, hostOps0_3, hostOps0_2, hostOps0_1, hostOps0]
  after_results_simp; after_rest; try simp only [TRef.ofBuf, TRef.toBuf, cast_eq]
  rfl
set_option maxHeartbeats 1000000 in
/-- The product graph's normalisation factor. -/
theorem at5_dinvP (c : Dev nD) : W5 m ρ c (Proc.devRef .tc main_v43) = kDinv (F := F) (m ((c : Thread nD τ).loc main_arg3)) := by
  dsimp only [W5, W4, W3, W2, W1, W0, hostOps0_4, hostOps0_3, hostOps0_2, hostOps0_1, hostOps0]
  after_results_simp; after_rest; try simp only [TRef.ofBuf, TRef.toBuf, cast_eq]
  rfl

end Cert.KernelIdeal.KVal

end
-- ==== Proof.Spec.lean ====
/-
  What the two programs compute, as functions of whole arrays over the extended reals.

  A graph-convolution tower multiplies the node features by a weight matrix (`MM`), and the network ends in a dense
  projection of the two towers' features followed by a row softmax (`Soft`): row `r` of the result is
  `exp (L r j - max_j L r j) / ∑_j exp (L r j - max_j L r j)` with the logits
  `L r j = ∑_k u r k · wu k j + ∑_k p r k · wp k j + b j`.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Node features: 20000 nodes, 128 channels. -/
abbrev SNxD : Shape := ⟨2, ![20000, 128]⟩
/-- A layer's weight matrix. -/
abbrev SDxD : Shape := ⟨2, ![128, 128]⟩
/-- One half of the projection matrix. -/
abbrev SDxP : Shape := ⟨2, ![128, 10000]⟩
/-- The whole projection matrix. -/
abbrev S2DxP : Shape := ⟨2, ![256, 10000]⟩
/-- The projection's bias. -/
abbrev SP : Shape := ⟨1, ![10000]⟩
/-- The result: a probability row per node. -/
abbrev SNxP : Shape := ⟨2, ![20000, 10000]⟩

/-- The matrix product `x · w`: entry `(r, j)` is `∑ k, x r k · w k j`. -/
def MM (x : SNxD.Idx → EReal) (w : SDxD.Idx → EReal) : SNxD.Idx → EReal := fun i =>
  ∑ k : Fin 128, x (ix2 (⟨(i 0).val, idx2_lt0 i⟩ : Fin 20000) k) * w (ix2 k (⟨(i 1).val, idx2_lt1 i⟩ : Fin 128))

theorem MM_apply (x : SNxD.Idx → EReal) (w : SDxD.Idx → EReal) (r : Fin 20000) (j : Fin 128) :
    MM x w (ix2 r j) = ∑ k : Fin 128, x (ix2 r k) * w (ix2 k j) := rfl

/-- The logits of node `r`: the two towers' features against the two halves of the projection, plus the bias. -/
def logit (u p : SNxD.Idx → EReal) (wu wp : SDxP.Idx → EReal) (b : SP.Idx → EReal) (r : Fin 20000) (j : Fin 10000) : EReal :=
  (∑ k : Fin 128, u (ix2 r k) * wu (ix2 k j)) + (∑ k : Fin 128, p (ix2 r k) * wp (ix2 k j)) + b (ix1 j)

/-- A row's maximum, from `-∞`. -/
def rowMax (L : Fin 10000 → EReal) : EReal := (Finset.univ : Finset (Fin 10000)).fold max ⊥ L

/-- The softmax of one row. -/
def softRow (L : Fin 10000 → EReal) (j : Fin 10000) : EReal :=
  Ideal.div (Ideal.exp (L j - rowMax L)) (∑ j' : Fin 10000, Ideal.exp (L j' - rowMax L))

/-- The network's last stage: the row softmax of the logits. -/
def Soft (u p : SNxD.Idx → EReal) (wu wp : SDxP.Idx → EReal) (b : SP.Idx → EReal) : SNxP.Idx → EReal := fun i =>
  softRow (logit u p wu wp b (⟨(i 0).val, idx2_lt0 i⟩ : Fin 20000)) (⟨(i 1).val, idx2_lt1 i⟩ : Fin 10000)

theorem Soft_apply (u p : SNxD.Idx → EReal) (wu wp : SDxP.Idx → EReal) (b : SP.Idx → EReal) (r : Fin 20000) (j : Fin 10000) :
    Soft u p wu wp b (ix2 r j) = softRow (logit u p wu wp b r) j := rfl

/-- The top half of the projection matrix (rows 0 to 127). -/
def topHalf (W : S2DxP.Idx → EReal) : SDxP.Idx → EReal := fun i =>
  W (ix2 (⟨(i 0).val, by have := idx2_lt0 i; omega⟩ : Fin 256) (⟨(i 1).val, idx2_lt1 i⟩ : Fin 10000))
/-- The bottom half (rows 128 to 255). -/
def botHalf (W : S2DxP.Idx → EReal) : SDxP.Idx → EReal := fun i =>
  W (ix2 (⟨128 + (i 0).val, by have := idx2_lt0 i; omega⟩ : Fin 256) (⟨(i 1).val, idx2_lt1 i⟩ : Fin 10000))

theorem topHalf_apply (W : S2DxP.Idx → EReal) (k : Fin 128) (j : Fin 10000) :
    topHalf W (ix2 k j) = W (ix2 (⟨k.val, by omega⟩ : Fin 256) j) := rfl
theorem botHalf_apply (W : S2DxP.Idx → EReal) (k : Fin 128) (j : Fin 10000) :
    botHalf W (ix2 k j) = W (ix2 (⟨128 + k.val, by omega⟩ : Fin 256) j) := rfl

/-- The symmetric normalisation's factor is a nonnegative real whatever the degree: `1/√deg` where the degree is positive
    (also `0` at `+∞`), `0` elsewhere. -/
theorem dinv_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Ideal.cmp
  by_cases h : (0 : EReal) < x
  · rw [show BitVec.ofBool (decide ((0 : EReal) < x)) = 1#1 from by simp [h], select_one]
    induction x using EReal.rec with
    | bot => exact absurd h (by simp)
    | top => exact ⟨le_refl (0 : EReal), EReal.zero_ne_top⟩
    | coe r =>
      have hr : 0 < r := by exact_mod_cast h
      have e : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [e]
      exact ⟨by exact_mod_cast inv_nonneg.mpr (Real.sqrt_nonneg r), EReal.coe_ne_top _⟩
  · rw [show BitVec.ofBool (decide ((0 : EReal) < x)) = 0#1 from by simp [h], select_zero]
    exact ⟨le_refl _, EReal.zero_ne_top⟩

end Cert.Gcn

end
-- ==== Proof.RegionMM0.lean ====
/-
  Region 0 of the kernel program: the first graph-convolution layer's dense product.

  The call runs over ten grid points. Point t stages rows 2000 t … 2000 t + 1999 of the node features
  and the whole weight matrix, multiplies the two blocks into a zero accumulator, and writes the 2000 × 128
  product back to rows 2000 t … 2000 t + 1999 of the result. Entry (r, j) of a block product is
  ∑ k, x (r, k) · w (k, j) over the extended reals (the narrowing of the operands is the identity there), the
  ten row blocks tile the 20000 rows, so after the call the result array is the matrix product x · w.
-/
import proofs.«402708_j47854525612559_3_alg».proof.Proof.Gen.KernelIdeal.Frame
import proofs.«402708_j47854525612559_3_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

namespace MM0

/-! ## The block product at an index -/

/-- On the left operand the row axis is the output's row. -/
theorem lhs_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
/-- On the left operand the column axis is the contracted coordinate. -/
theorem lhs_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
/-- On the right operand the row axis is the contracted coordinate. -/
theorem rhs_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
/-- On the right operand the column axis is the output's column. -/
theorem rhs_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The body's arithmetic, entry by entry: the product of the two loaded blocks. -/
theorem pay_apply (x0 : Vec Ideal S2000x128 .f32) (x1 : Vec Ideal S128x128 .f32) (r : Fin 2000) (j : Fin 128) :
    k0_pay1 x0 x1 (ix2 r j) = ∑ k : Fin 128, x0 (ix2 r k) * x1 (ix2 k j) := by
  unfold k0_pay1
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have hl : dot_S2000x128_S128x128_S2000x128_1_0_0_1_n_n.lhsIdx (ix2 r j)
      ((contrEquiv1 dot_S2000x128_S128x128_S2000x128_1_0_0_1_n_n 128 rfl rfl).symm k) = ix2 r k := by
    funext a; apply Fin.ext
    match a with
    | ⟨0, _⟩ => exact lhs_0 _ _
    | ⟨1, _⟩ => exact (lhs_1 _ _).trans ck
  have hr : dot_S2000x128_S128x128_S2000x128_1_0_0_1_n_n.rhsIdx (ix2 r j)
      ((contrEquiv1 dot_S2000x128_S128x128_S2000x128_1_0_0_1_n_n 128 rfl rfl).symm k) = ix2 k j := by
    funext a; apply Fin.ext
    match a with
    | ⟨0, _⟩ => exact (rhs_0 _ _).trans ck
    | ⟨1, _⟩ => exact rhs_1 _ _
  rw [truncf_apply, truncf_apply, shapeCast_self, shapeCast_self, hl, hr]

/-! ## The index maps over the grid -/

theorem hz : (![0, 0] : Fin 2 → Nat) = fun _ => 0 := funext fun a => by fin_cases a <;> rfl

/-- The printed index maps, decided over the ten grid points: the features' block moves with the result's down the rows,
    the weights' block stays, and the result's row-block index is at most 9. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some point's. -/
theorem idx_onto : ∀ q : Fin 10, ∃ t : Fin cfg0.N, win0_2.index t = ![q.val, 0] :=
  (by decide +kernel : ∀ q : Fin 10, ∃ t : Fin grid0.N, win0_2.index t = ![q.val, 0])

/-- Row r of point t's block is below the array's 20000 rows. -/
theorem row_lt (t : Fin cfg0.N) (r : Fin 2000) : 2000 * win0_2.index t (0 : Fin 2) + r.val < 20000 := by
  have h := (idx_facts t).2.2.2.2.2
  have hr := r.isLt
  omega

variable (V : (c : Dev nD) → (b : Ref sig .tc) → Buf (Elt Ideal) ((c : Thread nD τ).loc b)) (c : Dev nD)

/-! ## The blocks at a point, read where the result's rectangle says -/

/-- The features' block at point t is rows 2000 · (the result's block index) … of the features. -/
theorem xblk_apply (t : Fin cfg0.N) (r : Fin 2000) (k : Fin 128) :
    (iblk0 (F := Ideal) V c 0 t : Vec Ideal S2000x128 .f32) (ix2 r k)
      = (V c main_v6 : S20000x128.Idx → EReal) (ix2 (⟨2000 * win0_2.index t (0 : Fin 2) + r.val, row_lt t r⟩ : Fin 20000) k) := by
  obtain ⟨e0, e1, e2, e3, e4, e5⟩ := idx_facts t
  unfold iblk0
  show (V c main_v6 : S20000x128.Idx → EReal) (((cfg0.win 0).blk t).view.emb (ix2 r k)) = _
  congr 1
  funext a; apply Fin.ext
  match a with
  | ⟨0, _⟩ => show win0_0.index t (0 : Fin 2) * 2000 + 1 * r.val = 2000 * win0_2.index t (0 : Fin 2) + r.val; omega
  | ⟨1, _⟩ => show win0_0.index t (1 : Fin 2) * 128 + 1 * k.val = k.val; omega

/-- The weights' block at every point is the whole weight matrix. -/
theorem wblk_apply (t : Fin cfg0.N) (k : Fin 128) (j : Fin 128) :
    (iblk0 (F := Ideal) V c 1 t : Vec Ideal S128x128 .f32) (ix2 k j) = (V c main_v45 : S128x128.Idx → EReal) (ix2 k j) := by
  obtain ⟨e0, e1, e2, e3, e4, e5⟩ := idx_facts t
  unfold iblk0
  show (V c main_v45 : S128x128.Idx → EReal) (((cfg0.win 1).blk t).view.emb (ix2 k j)) = _
  congr 1
  funext a; apply Fin.ext
  match a with
  | ⟨0, _⟩ => show win0_1.index t (0 : Fin 2) * 128 + 1 * k.val = k.val; omega
  | ⟨1, _⟩ => show win0_1.index t (1 : Fin 2) * 128 + 1 * j.val = j.val; omega

/-- Entry (r, j) of the result's block at point t is entry (2000 · index + r, j) of the array. -/
theorem oblk_emb (t : Fin cfg0.N) (r : Fin 2000) (j : Fin 128) :
    (((cfg0.win 2).blk t).view.emb (ix2 r j) : S20000x128.Idx)
      = ix2 (⟨2000 * win0_2.index t (0 : Fin 2) + r.val, row_lt t r⟩ : Fin 20000) j := by
  obtain ⟨e0, e1, e2, e3, e4, e5⟩ := idx_facts t
  funext a; apply Fin.ext
  match a with
  | ⟨0, _⟩ => show win0_2.index t (0 : Fin 2) * 2000 + 1 * r.val = 2000 * win0_2.index t (0 : Fin 2) + r.val; omega
  | ⟨1, _⟩ => show win0_2.index t (1 : Fin 2) * 128 + 1 * j.val = j.val; omega

/-! ## What a point writes back, and the array after the call -/

/-- Point t writes back block t of the matrix product of the features and the weights as the call finds them. -/
theorem flushed_eq (t : Fin cfg0.N) :
    (dat0 (F := Ideal) V c).flushed 2 t
      = ((cfg0.win 2).blk t).view.read (Elt Ideal) (Cert.Gcn.MM (V c main_v6) (V c main_v45)) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x128) hz]
  refine funext fun (y : S2000x128.Idx) => ?_
  obtain ⟨r, j, rfl⟩ : ∃ (r : Fin 2000) (j : Fin 128), y = ix2 r j := ⟨y 0, y 1, eq_ix2 y⟩
  show k0_pay1 (iblk0 (F := Ideal) V c 0 t) (iblk0 (F := Ideal) V c 1 t) (ix2 r j)
    = Cert.Gcn.MM (V c main_v6) (V c main_v45) (((cfg0.win 2).blk t).view.emb (ix2 r j))
  rw [pay_apply, oblk_emb, Cert.Gcn.MM_apply]
  refine Finset.sum_congr rfl fun k _ => ?_
  rw [xblk_apply, wblk_apply]

/-- An index of the array is in point t's block iff each coordinate is in the block's range on its axis. -/
theorem mem_blk (t : Fin cfg0.N) (i : S20000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v46).slice (win0_2.rect t)).set ↔ _
  rw [View.set_slice_whole, Rect.mem_set_unit]
  exact Iff.rfl

/-- The ten row blocks tile the array: row r lies in the block of the point whose block index is r / 2000. -/
theorem covered (i : S20000x128.Idx) :
    ∃ t : Fin cfg0.N, (cfg0.win 2).flush t = true ∧ i ∈ ((cfg0.win 2).blk t).view.set := by
  have hi0 : (i 0).val < 20000 := idx2_lt0 i
  have hi1 : (i 1).val < 128 := idx2_lt1 i
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

end MM0

/-- THE RESULT OF CALL 0: after its ten points the result array is the matrix product of the node features and the
    layer's weights, as the call finds them. -/
theorem mm0 (V : (c : Dev nD) → (b : Ref sig .tc) → Buf (Elt Ideal) ((c : Thread nD τ).loc b)) (c : Dev nD) :
    (dat0 (F := Ideal) V c).arrAt 2 cfg0.N = Cert.Gcn.MM (V c main_v6) (V c main_v45) :=
  (dat0 (F := Ideal) V c).arrAt_eq_of_cover 2 _ (fun t _ => MM0.flushed_eq V c t) (fun i => MM0.covered i)

end Cert.KernelIdeal.KVal

end
-- ==== Proof.RegionMM1.lean ====
/-
  Region 1 of the kernel program: a graph-convolution layer's dense product (call 1).

  The call runs over ten grid points. Point t stages rows 2000 t … 2000 t + 1999 of the node features
  and the whole weight matrix, multiplies the two blocks into a zero accumulator, and writes the 2000 × 128
  product back to rows 2000 t … 2000 t + 1999 of the result. Entry (r, j) of a block product is
  ∑ k, x (r, k) · w (k, j) over the extended reals (the narrowing of the operands is the identity there), the
  ten row blocks tile the 20000 rows, so after the call the result array is the matrix product x · w.
-/
import proofs.«402708_j47854525612559_3_alg».proof.Proof.Gen.KernelIdeal.Frame
import proofs.«402708_j47854525612559_3_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

namespace MM1

/-! ## The block product at an index -/

/-- On the left operand the row axis is the output's row. -/
theorem lhs_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
/-- On the left operand the column axis is the contracted coordinate. -/
theorem lhs_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
/-- On the right operand the row axis is the contracted coordinate. -/
theorem rhs_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
/-- On the right operand the column axis is the output's column. -/
theorem rhs_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The body's arithmetic, entry by entry: the product of the two loaded blocks. -/
theorem pay_apply (x0 : Vec Ideal S2000x128 .f32) (x1 : Vec Ideal S128x128 .f32) (r : Fin 2000) (j : Fin 128) :
    k1_pay1 x0 x1 (ix2 r j) = ∑ k : Fin 128, x0 (ix2 r k) * x1 (ix2 k j) := by
  unfold k1_pay1
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have hl : dot_S2000x128_S128x128_S2000x128_1_0_0_1_n_n.lhsIdx (ix2 r j)
      ((contrEquiv1 dot_S2000x128_S128x128_S2000x128_1_0_0_1_n_n 128 rfl rfl).symm k) = ix2 r k := by
    funext a; apply Fin.ext
    match a with
    | ⟨0, _⟩ => exact lhs_0 _ _
    | ⟨1, _⟩ => exact (lhs_1 _ _).trans ck
  have hr : dot_S2000x128_S128x128_S2000x128_1_0_0_1_n_n.rhsIdx (ix2 r j)
      ((contrEquiv1 dot_S2000x128_S128x128_S2000x128_1_0_0_1_n_n 128 rfl rfl).symm k) = ix2 k j := by
    funext a; apply Fin.ext
    match a with
    | ⟨0, _⟩ => exact (rhs_0 _ _).trans ck
    | ⟨1, _⟩ => exact rhs_1 _ _
  rw [truncf_apply, truncf_apply, shapeCast_self, shapeCast_self, hl, hr]

/-! ## The index maps over the grid -/

theorem hz : (![0, 0] : Fin 2 → Nat) = fun _ => 0 := funext fun a => by fin_cases a <;> rfl

/-- The printed index maps, decided over the ten grid points: the features' block moves with the result's down the rows,
    the weights' block stays, and the result's row-block index is at most 9. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the result is some point's. -/
theorem idx_onto : ∀ q : Fin 10, ∃ t : Fin cfg1.N, win1_2.index t = ![q.val, 0] :=
  (by decide +kernel : ∀ q : Fin 10, ∃ t : Fin grid1.N, win1_2.index t = ![q.val, 0])

/-- Row r of point t's block is below the array's 20000 rows. -/
theorem row_lt (t : Fin cfg1.N) (r : Fin 2000) : 2000 * win1_2.index t (0 : Fin 2) + r.val < 20000 := by
  have h := (idx_facts t).2.2.2.2.2
  have hr := r.isLt
  omega

variable (V : (c : Dev nD) → (b : Ref sig .tc) → Buf (Elt Ideal) ((c : Thread nD τ).loc b)) (c : Dev nD)

/-! ## The blocks at a point, read where the result's rectangle says -/

/-- The features' block at point t is rows 2000 · (the result's block index) … of the features. -/
theorem xblk_apply (t : Fin cfg1.N) (r : Fin 2000) (k : Fin 128) :
    (iblk1 (F := Ideal) V c 0 t : Vec Ideal S2000x128 .f32) (ix2 r k)
      = (V c main_v13 : S20000x128.Idx → EReal) (ix2 (⟨2000 * win1_2.index t (0 : Fin 2) + r.val, row_lt t r⟩ : Fin 20000) k) := by
  obtain ⟨e0, e1, e2, e3, e4, e5⟩ := idx_facts t
  unfold iblk1
  show (V c main_v13 : S20000x128.Idx → EReal) (((cfg1.win 0).blk t).view.emb (ix2 r k)) = _
  congr 1
  funext a; apply Fin.ext
  match a with
  | ⟨0, _⟩ => show win1_0.index t (0 : Fin 2) * 2000 + 1 * r.val = 2000 * win1_2.index t (0 : Fin 2) + r.val; omega
  | ⟨1, _⟩ => show win1_0.index t (1 : Fin 2) * 128 + 1 * k.val = k.val; omega

/-- The weights' block at every point is the whole weight matrix. -/
theorem wblk_apply (t : Fin cfg1.N) (k : Fin 128) (j : Fin 128) :
    (iblk1 (F := Ideal) V c 1 t : Vec Ideal S128x128 .f32) (ix2 k j) = (V c main_v69 : S128x128.Idx → EReal) (ix2 k j) := by
  obtain ⟨e0, e1, e2, e3, e4, e5⟩ := idx_facts t
  unfold iblk1
  show (V c main_v69 : S128x128.Idx → EReal) (((cfg1.win 1).blk t).view.emb (ix2 k j)) = _
  congr 1
  funext a; apply Fin.ext
  match a with
  | ⟨0, _⟩ => show win1_1.index t (0 : Fin 2) * 128 + 1 * k.val = k.val; omega
  | ⟨1, _⟩ => show win1_1.index t (1 : Fin 2) * 128 + 1 * j.val = j.val; omega

/-- Entry (r, j) of the result's block at point t is entry (2000 · index + r, j) of the array. -/
theorem oblk_emb (t : Fin cfg1.N) (r : Fin 2000) (j : Fin 128) :
    (((cfg1.win 2).blk t).view.emb (ix2 r j) : S20000x128.Idx)
      = ix2 (⟨2000 * win1_2.index t (0 : Fin 2) + r.val, row_lt t r⟩ : Fin 20000) j := by
  obtain ⟨e0, e1, e2, e3, e4, e5⟩ := idx_facts t
  funext a; apply Fin.ext
  match a with
  | ⟨0, _⟩ => show win1_2.index t (0 : Fin 2) * 2000 + 1 * r.val = 2000 * win1_2.index t (0 : Fin 2) + r.val; omega
  | ⟨1, _⟩ => show win1_2.index t (1 : Fin 2) * 128 + 1 * j.val = j.val; omega

/-! ## What a point writes back, and the array after the call -/

/-- Point t writes back block t of the matrix product of the features and the weights as the call finds them. -/
theorem flushed_eq (t : Fin cfg1.N) :
    (dat1 (F := Ideal) V c).flushed 2 t
      = ((cfg1.win 2).blk t).view.read (Elt Ideal) (Cert.Gcn.MM (V c main_v13) (V c main_v69)) := by
  show (cfg1.win 2).cut (grid1.coords t) ((dat1 (F := Ideal) V c).after 2 t) = _
  rw [after1_2]
  unfold out1_2
  rw [View.canon_unit_zero hz]
  simp only [View.ld_unit_zero (S := S2000x128) hz, View.ld_unit_zero (S := S128x128) hz]
  refine funext fun (y : S2000x128.Idx) => ?_
  obtain ⟨r, j, rfl⟩ : ∃ (r : Fin 2000) (j : Fin 128), y = ix2 r j := ⟨y 0, y 1, eq_ix2 y⟩
  show k1_pay1 (iblk1 (F := Ideal) V c 0 t) (iblk1 (F := Ideal) V c 1 t) (ix2 r j)
    = Cert.Gcn.MM (V c main_v13) (V c main_v69) (((cfg1.win 2).blk t).view.emb (ix2 r j))
  rw [pay_apply, oblk_emb, Cert.Gcn.MM_apply]
  refine Finset.sum_congr rfl fun k _ => ?_
  rw [xblk_apply, wblk_apply]

/-- An index of the array is in point t's block iff each coordinate is in the block's range on its axis. -/
theorem mem_blk (t : Fin cfg1.N) (i : S20000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v70).slice (win1_2.rect t)).set ↔ _
  rw [View.set_slice_whole, Rect.mem_set_unit]
  exact Iff.rfl

/-- The ten row blocks tile the array: row r lies in the block of the point whose block index is r / 2000. -/
theorem covered (i : S20000x128.Idx) :
    ∃ t : Fin cfg1.N, (cfg1.win 2).flush t = true ∧ i ∈ ((cfg1.win 2).blk t).view.set := by
  have hi0 : (i 0).val < 20000 := idx2_lt0 i
  have hi1 : (i 1).val < 128 := idx2_lt1 i
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

end MM1

/-- THE RESULT OF CALL 1: after its ten points the result array is the matrix product of the node features and the
    layer's weights, as the call finds them. -/
theorem mm1 (V : (c : Dev nD) → (b : Ref sig .tc) → Buf (Elt Ideal) ((c : Thread nD τ).loc b)) (c : Dev nD) :
    (dat1 (F := Ideal) V c).arrAt 2 cfg1.N = Cert.Gcn.MM (V c main_v13) (V c main_v69) :=
  (dat1 (F := Ideal) V c).arrAt_eq_of_cover 2 _ (fun t _ => MM1.flushed_eq V c t) (fun i => MM1.covered i)

end Cert.KernelIdeal.KVal

end
-- ==== Proof.RegionMM2.lean ====
/-
  Region 2 of the kernel program: a graph-convolution layer's dense product (call 2).

  The call runs over ten grid points. Point t stages rows 2000 t … 2000 t + 1999 of the node features
  and the whole weight matrix, multiplies the two blocks into a zero accumulator, and writes the 2000 × 128
  product back to rows 2000 t … 2000 t + 1999 of the result. Entry (r, j) of a block product is
  ∑ k, x (r, k) · w (k, j) over the extended reals (the narrowing of the operands is the identity there), the
  ten row blocks tile the 20000 rows, so after the call the result array is the matrix product x · w.
-/
import proofs.«402708_j47854525612559_3_alg».proof.Proof.Gen.KernelIdeal.Frame
import proofs.«402708_j47854525612559_3_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

namespace MM2

/-! ## The block product at an index -/

/-- On the left operand the row axis is the output's row. -/
theorem lhs_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
/-- On the left operand the column axis is the contracted coordinate. -/
theorem lhs_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
/-- On the right operand the row axis is the contracted coordinate. -/
theorem rhs_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
/-- On the right operand the column axis is the output's column. -/
theorem rhs_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The body's arithmetic, entry by entry: the product of the two loaded blocks. -/
theorem pay_apply (x0 : Vec Ideal S2000x128 .f32) (x1 : Vec Ideal S128x128 .f32) (r : Fin 2000) (j : Fin 128) :
    k2_pay1 x0 x1 (ix2 r j) = ∑ k : Fin 128, x0 (ix2 r k) * x1 (ix2 k j) := by
  unfold k2_pay1
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have hl : dot_S2000x128_S128x128_S2000x128_1_0_0_1_n_n.lhsIdx (ix2 r j)
      ((contrEquiv1 dot_S2000x128_S128x128_S2000x128_1_0_0_1_n_n 128 rfl rfl).symm k) = ix2 r k := by
    funext a; apply Fin.ext
    match a with
    | ⟨0, _⟩ => exact lhs_0 _ _
    | ⟨1, _⟩ => exact (lhs_1 _ _).trans ck
  have hr : dot_S2000x128_S128x128_S2000x128_1_0_0_1_n_n.rhsIdx (ix2 r j)
      ((contrEquiv1 dot_S2000x128_S128x128_S2000x128_1_0_0_1_n_n 128 rfl rfl).symm k) = ix2 k j := by
    funext a; apply Fin.ext
    match a with
    | ⟨0, _⟩ => exact (rhs_0 _ _).trans ck
    | ⟨1, _⟩ => exact rhs_1 _ _
  rw [truncf_apply, truncf_apply, shapeCast_self, shapeCast_self, hl, hr]

/-! ## The index maps over the grid -/

theorem hz : (![0, 0] : Fin 2 → Nat) = fun _ => 0 := funext fun a => by fin_cases a <;> rfl

/-- The printed index maps, decided over the ten grid points: the features' block moves with the result's down the rows,
    the weights' block stays, and the result's row-block index is at most 9. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block of the result is some point's. -/
theorem idx_onto : ∀ q : Fin 10, ∃ t : Fin cfg2.N, win2_2.index t = ![q.val, 0] :=
  (by decide +kernel : ∀ q : Fin 10, ∃ t : Fin grid2.N, win2_2.index t = ![q.val, 0])

/-- Row r of point t's block is below the array's 20000 rows. -/
theorem row_lt (t : Fin cfg2.N) (r : Fin 2000) : 2000 * win2_2.index t (0 : Fin 2) + r.val < 20000 := by
  have h := (idx_facts t).2.2.2.2.2
  have hr := r.isLt
  omega

variable (V : (c : Dev nD) → (b : Ref sig .tc) → Buf (Elt Ideal) ((c : Thread nD τ).loc b)) (c : Dev nD)

/-! ## The blocks at a point, read where the result's rectangle says -/

/-- The features' block at point t is rows 2000 · (the result's block index) … of the features. -/
theorem xblk_apply (t : Fin cfg2.N) (r : Fin 2000) (k : Fin 128) :
    (iblk2 (F := Ideal) V c 0 t : Vec Ideal S2000x128 .f32) (ix2 r k)
      = (V c main_v67 : S20000x128.Idx → EReal) (ix2 (⟨2000 * win2_2.index t (0 : Fin 2) + r.val, row_lt t r⟩ : Fin 20000) k) := by
  obtain ⟨e0, e1, e2, e3, e4, e5⟩ := idx_facts t
  unfold iblk2
  show (V c main_v67 : S20000x128.Idx → EReal) (((cfg2.win 0).blk t).view.emb (ix2 r k)) = _
  congr 1
  funext a; apply Fin.ext
  match a with
  | ⟨0, _⟩ => show win2_0.index t (0 : Fin 2) * 2000 + 1 * r.val = 2000 * win2_2.index t (0 : Fin 2) + r.val; omega
  | ⟨1, _⟩ => show win2_0.index t (1 : Fin 2) * 128 + 1 * k.val = k.val; omega

/-- The weights' block at every point is the whole weight matrix. -/
theorem wblk_apply (t : Fin cfg2.N) (k : Fin 128) (j : Fin 128) :
    (iblk2 (F := Ideal) V c 1 t : Vec Ideal S128x128 .f32) (ix2 k j) = (V c main_v93 : S128x128.Idx → EReal) (ix2 k j) := by
  obtain ⟨e0, e1, e2, e3, e4, e5⟩ := idx_facts t
  unfold iblk2
  show (V c main_v93 : S128x128.Idx → EReal) (((cfg2.win 1).blk t).view.emb (ix2 k j)) = _
  congr 1
  funext a; apply Fin.ext
  match a with
  | ⟨0, _⟩ => show win2_1.index t (0 : Fin 2) * 128 + 1 * k.val = k.val; omega
  | ⟨1, _⟩ => show win2_1.index t (1 : Fin 2) * 128 + 1 * j.val = j.val; omega

/-- Entry (r, j) of the result's block at point t is entry (2000 · index + r, j) of the array. -/
theorem oblk_emb (t : Fin cfg2.N) (r : Fin 2000) (j : Fin 128) :
    (((cfg2.win 2).blk t).view.emb (ix2 r j) : S20000x128.Idx)
      = ix2 (⟨2000 * win2_2.index t (0 : Fin 2) + r.val, row_lt t r⟩ : Fin 20000) j := by
  obtain ⟨e0, e1, e2, e3, e4, e5⟩ := idx_facts t
  funext a; apply Fin.ext
  match a with
  | ⟨0, _⟩ => show win2_2.index t (0 : Fin 2) * 2000 + 1 * r.val = 2000 * win2_2.index t (0 : Fin 2) + r.val; omega
  | ⟨1, _⟩ => show win2_2.index t (1 : Fin 2) * 128 + 1 * j.val = j.val; omega

/-! ## What a point writes back, and the array after the call -/

/-- Point t writes back block t of the matrix product of the features and the weights as the call finds them. -/
theorem flushed_eq (t : Fin cfg2.N) :
    (dat2 (F := Ideal) V c).flushed 2 t
      = ((cfg2.win 2).blk t).view.read (Elt Ideal) (Cert.Gcn.MM (V c main_v67) (V c main_v93)) := by
  show (cfg2.win 2).cut (grid2.coords t) ((dat2 (F := Ideal) V c).after 2 t) = _
  rw [after2_2]
  unfold out2_2
  rw [View.canon_unit_zero hz]
  simp only [View.ld_unit_zero (S := S2000x128) hz, View.ld_unit_zero (S := S128x128) hz]
  refine funext fun (y : S2000x128.Idx) => ?_
  obtain ⟨r, j, rfl⟩ : ∃ (r : Fin 2000) (j : Fin 128), y = ix2 r j := ⟨y 0, y 1, eq_ix2 y⟩
  show k2_pay1 (iblk2 (F := Ideal) V c 0 t) (iblk2 (F := Ideal) V c 1 t) (ix2 r j)
    = Cert.Gcn.MM (V c main_v67) (V c main_v93) (((cfg2.win 2).blk t).view.emb (ix2 r j))
  rw [pay_apply, oblk_emb, Cert.Gcn.MM_apply]
  refine Finset.sum_congr rfl fun k _ => ?_
  rw [xblk_apply, wblk_apply]

/-- An index of the array is in point t's block iff each coordinate is in the block's range on its axis. -/
theorem mem_blk (t : Fin cfg2.N) (i : S20000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v94).slice (win2_2.rect t)).set ↔ _
  rw [View.set_slice_whole, Rect.mem_set_unit]
  exact Iff.rfl

/-- The ten row blocks tile the array: row r lies in the block of the point whose block index is r / 2000. -/
theorem covered (i : S20000x128.Idx) :
    ∃ t : Fin cfg2.N, (cfg2.win 2).flush t = true ∧ i ∈ ((cfg2.win 2).blk t).view.set := by
  have hi0 : (i 0).val < 20000 := idx2_lt0 i
  have hi1 : (i 1).val < 128 := idx2_lt1 i
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

end MM2

/-- THE RESULT OF CALL 2: after its ten points the result array is the matrix product of the node features and the
    layer's weights, as the call finds them. -/
theorem mm2 (V : (c : Dev nD) → (b : Ref sig .tc) → Buf (Elt Ideal) ((c : Thread nD τ).loc b)) (c : Dev nD) :
    (dat2 (F := Ideal) V c).arrAt 2 cfg2.N = Cert.Gcn.MM (V c main_v67) (V c main_v93) :=
  (dat2 (F := Ideal) V c).arrAt_eq_of_cover 2 _ (fun t _ => MM2.flushed_eq V c t) (fun i => MM2.covered i)

end Cert.KernelIdeal.KVal

end
-- ==== Proof.RegionMM3.lean ====
/-
  Region 3 of the kernel program: a graph-convolution layer's dense product (call 3).

  The call runs over ten grid points. Point t stages rows 2000 t … 2000 t + 1999 of the node features
  and the whole weight matrix, multiplies the two blocks into a zero accumulator, and writes the 2000 × 128
  product back to rows 2000 t … 2000 t + 1999 of the result. Entry (r, j) of a block product is
  ∑ k, x (r, k) · w (k, j) over the extended reals (the narrowing of the operands is the identity there), the
  ten row blocks tile the 20000 rows, so after the call the result array is the matrix product x · w.
-/
import proofs.«402708_j47854525612559_3_alg».proof.Proof.Gen.KernelIdeal.Frame
import proofs.«402708_j47854525612559_3_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

namespace MM3

/-! ## The block product at an index -/

/-- On the left operand the row axis is the output's row. -/
theorem lhs_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
/-- On the left operand the column axis is the contracted coordinate. -/
theorem lhs_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
/-- On the right operand the row axis is the contracted coordinate. -/
theorem rhs_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
/-- On the right operand the column axis is the output's column. -/
theorem rhs_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The body's arithmetic, entry by entry: the product of the two loaded blocks. -/
theorem pay_apply (x0 : Vec Ideal S2000x128 .f32) (x1 : Vec Ideal S128x128 .f32) (r : Fin 2000) (j : Fin 128) :
    k3_pay1 x0 x1 (ix2 r j) = ∑ k : Fin 128, x0 (ix2 r k) * x1 (ix2 k j) := by
  unfold k3_pay1
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have hl : dot_S2000x128_S128x128_S2000x128_1_0_0_1_n_n.lhsIdx (ix2 r j)
      ((contrEquiv1 dot_S2000x128_S128x128_S2000x128_1_0_0_1_n_n 128 rfl rfl).symm k) = ix2 r k := by
    funext a; apply Fin.ext
    match a with
    | ⟨0, _⟩ => exact lhs_0 _ _
    | ⟨1, _⟩ => exact (lhs_1 _ _).trans ck
  have hr : dot_S2000x128_S128x128_S2000x128_1_0_0_1_n_n.rhsIdx (ix2 r j)
      ((contrEquiv1 dot_S2000x128_S128x128_S2000x128_1_0_0_1_n_n 128 rfl rfl).symm k) = ix2 k j := by
    funext a; apply Fin.ext
    match a with
    | ⟨0, _⟩ => exact (rhs_0 _ _).trans ck
    | ⟨1, _⟩ => exact rhs_1 _ _
  rw [truncf_apply, truncf_apply, shapeCast_self, shapeCast_self, hl, hr]

/-! ## The index maps over the grid -/

theorem hz : (![0, 0] : Fin 2 → Nat) = fun _ => 0 := funext fun a => by fin_cases a <;> rfl

/-- The printed index maps, decided over the ten grid points: the features' block moves with the result's down the rows,
    the weights' block stays, and the result's row-block index is at most 9. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block of the result is some point's. -/
theorem idx_onto : ∀ q : Fin 10, ∃ t : Fin cfg3.N, win3_2.index t = ![q.val, 0] :=
  (by decide +kernel : ∀ q : Fin 10, ∃ t : Fin grid3.N, win3_2.index t = ![q.val, 0])

/-- Row r of point t's block is below the array's 20000 rows. -/
theorem row_lt (t : Fin cfg3.N) (r : Fin 2000) : 2000 * win3_2.index t (0 : Fin 2) + r.val < 20000 := by
  have h := (idx_facts t).2.2.2.2.2
  have hr := r.isLt
  omega

variable (V : (c : Dev nD) → (b : Ref sig .tc) → Buf (Elt Ideal) ((c : Thread nD τ).loc b)) (c : Dev nD)

/-! ## The blocks at a point, read where the result's rectangle says -/

/-- The features' block at point t is rows 2000 · (the result's block index) … of the features. -/
theorem xblk_apply (t : Fin cfg3.N) (r : Fin 2000) (k : Fin 128) :
    (iblk3 (F := Ideal) V c 0 t : Vec Ideal S2000x128 .f32) (ix2 r k)
      = (V c main_v91 : S20000x128.Idx → EReal) (ix2 (⟨2000 * win3_2.index t (0 : Fin 2) + r.val, row_lt t r⟩ : Fin 20000) k) := by
  obtain ⟨e0, e1, e2, e3, e4, e5⟩ := idx_facts t
  unfold iblk3
  show (V c main_v91 : S20000x128.Idx → EReal) (((cfg3.win 0).blk t).view.emb (ix2 r k)) = _
  congr 1
  funext a; apply Fin.ext
  match a with
  | ⟨0, _⟩ => show win3_0.index t (0 : Fin 2) * 2000 + 1 * r.val = 2000 * win3_2.index t (0 : Fin 2) + r.val; omega
  | ⟨1, _⟩ => show win3_0.index t (1 : Fin 2) * 128 + 1 * k.val = k.val; omega

/-- The weights' block at every point is the whole weight matrix. -/
theorem wblk_apply (t : Fin cfg3.N) (k : Fin 128) (j : Fin 128) :
    (iblk3 (F := Ideal) V c 1 t : Vec Ideal S128x128 .f32) (ix2 k j) = (V c main_v117 : S128x128.Idx → EReal) (ix2 k j) := by
  obtain ⟨e0, e1, e2, e3, e4, e5⟩ := idx_facts t
  unfold iblk3
  show (V c main_v117 : S128x128.Idx → EReal) (((cfg3.win 1).blk t).view.emb (ix2 k j)) = _
  congr 1
  funext a; apply Fin.ext
  match a with
  | ⟨0, _⟩ => show win3_1.index t (0 : Fin 2) * 128 + 1 * k.val = k.val; omega
  | ⟨1, _⟩ => show win3_1.index t (1 : Fin 2) * 128 + 1 * j.val = j.val; omega

/-- Entry (r, j) of the result's block at point t is entry (2000 · index + r, j) of the array. -/
theorem oblk_emb (t : Fin cfg3.N) (r : Fin 2000) (j : Fin 128) :
    (((cfg3.win 2).blk t).view.emb (ix2 r j) : S20000x128.Idx)
      = ix2 (⟨2000 * win3_2.index t (0 : Fin 2) + r.val, row_lt t r⟩ : Fin 20000) j := by
  obtain ⟨e0, e1, e2, e3, e4, e5⟩ := idx_facts t
  funext a; apply Fin.ext
  match a with
  | ⟨0, _⟩ => show win3_2.index t (0 : Fin 2) * 2000 + 1 * r.val = 2000 * win3_2.index t (0 : Fin 2) + r.val; omega
  | ⟨1, _⟩ => show win3_2.index t (1 : Fin 2) * 128 + 1 * j.val = j.val; omega

/-! ## What a point writes back, and the array after the call -/

/-- Point t writes back block t of the matrix product of the features and the weights as the call finds them. -/
theorem flushed_eq (t : Fin cfg3.N) :
    (dat3 (F := Ideal) V c).flushed 2 t
      = ((cfg3.win 2).blk t).view.read (Elt Ideal) (Cert.Gcn.MM (V c main_v91) (V c main_v117)) := by
  show (cfg3.win 2).cut (grid3.coords t) ((dat3 (F := Ideal) V c).after 2 t) = _
  rw [after3_2]
  unfold out3_2
  rw [View.canon_unit_zero hz]
  simp only [View.ld_unit_zero (S := S2000x128) hz, View.ld_unit_zero (S := S128x128) hz]
  refine funext fun (y : S2000x128.Idx) => ?_
  obtain ⟨r, j, rfl⟩ : ∃ (r : Fin 2000) (j : Fin 128), y = ix2 r j := ⟨y 0, y 1, eq_ix2 y⟩
  show k3_pay1 (iblk3 (F := Ideal) V c 0 t) (iblk3 (F := Ideal) V c 1 t) (ix2 r j)
    = Cert.Gcn.MM (V c main_v91) (V c main_v117) (((cfg3.win 2).blk t).view.emb (ix2 r j))
  rw [pay_apply, oblk_emb, Cert.Gcn.MM_apply]
  refine Finset.sum_congr rfl fun k _ => ?_
  rw [xblk_apply, wblk_apply]

/-- An index of the array is in point t's block iff each coordinate is in the block's range on its axis. -/
theorem mem_blk (t : Fin cfg3.N) (i : S20000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v118).slice (win3_2.rect t)).set ↔ _
  rw [View.set_slice_whole, Rect.mem_set_unit]
  exact Iff.rfl

/-- The ten row blocks tile the array: row r lies in the block of the point whose block index is r / 2000. -/
theorem covered (i : S20000x128.Idx) :
    ∃ t : Fin cfg3.N, (cfg3.win 2).flush t = true ∧ i ∈ ((cfg3.win 2).blk t).view.set := by
  have hi0 : (i 0).val < 20000 := idx2_lt0 i
  have hi1 : (i 1).val < 128 := idx2_lt1 i
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

end MM3

/-- THE RESULT OF CALL 3: after its ten points the result array is the matrix product of the node features and the
    layer's weights, as the call finds them. -/
theorem mm3 (V : (c : Dev nD) → (b : Ref sig .tc) → Buf (Elt Ideal) ((c : Thread nD τ).loc b)) (c : Dev nD) :
    (dat3 (F := Ideal) V c).arrAt 2 cfg3.N = Cert.Gcn.MM (V c main_v91) (V c main_v117) :=
  (dat3 (F := Ideal) V c).arrAt_eq_of_cover 2 _ (fun t _ => MM3.flushed_eq V c t) (fun i => MM3.covered i)

end Cert.KernelIdeal.KVal

end
-- ==== Proof.PaySoft.lean ====
/-
  The last kernel's arithmetic read at an index. A grid point of the final call holds a block of 200 rows of the two
  towers' features, the two halves of the projection matrix and the bias, and stores, per row, the softmax of that
  row's logits: the two block products into zero accumulators added, plus the bias row broadcast over the rows, less
  the row's maximum (a fold of `max` from `-∞`), exponentiated, divided by the row's sum of those exponentials. At the
  ideal values the format changes and the same-shape casts are the identity, so entry `(r, j)` of what is stored is
  `softRow` of row `r` of the logits at `j` (`pay_soft`). The steps: the two keepdims layouts read at an index
  (a column `[200] → [200, 1] → [200, 10000]` and a row `[10000] → [1, 10000] → [200, 10000]`), a block product read as the
  sum over the one contracted coordinate, and the body's values named one after another.
-/
import proofs.«402708_j47854525612559_3_alg».proof.Proof.Gen.KernelIdeal.Skeleton
import proofs.«402708_j47854525612559_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.ValueIdx
open Cert.KernelIdeal Cert.KernelIdeal.Gen
open scoped BigOperators

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem lift_row (r : Fin 200) (j : Fin 10000) :
    (reduces_S200x10000_S200).lift (ix1 r) j = ix2 r j := by
  funext c; apply Fin.ext
  match c with
  | ⟨0, _⟩ => rfl
  | ⟨1, _⟩ => rfl

theorem ofBits_neg_inf : Ideal.ofBits .f32 0xFF800000#32 = ⊥ := by simp [Ideal.ofBits, Ideal.ieee]

/-! ## The block product read at an index -/

theorem dot_lhs0 (r : Fin 200) (j : Fin 10000) (q : (dot_S200x128_S128x10000_S200x10000_1_0_0_1_n_n).contr.Idx) :
    ((dot_S200x128_S128x10000_S200x10000_1_0_0_1_n_n).lhsIdx (ix2 r j) q (0 : Fin 2)).val = r.val := by
  simp [DotDims.lhsIdx, dot_S200x128_S128x10000_S200x10000_1_0_0_1_n_n]; rfl

theorem dot_lhs1 (r : Fin 200) (j : Fin 10000) (q : (dot_S200x128_S128x10000_S200x10000_1_0_0_1_n_n).contr.Idx) :
    ((dot_S200x128_S128x10000_S200x10000_1_0_0_1_n_n).lhsIdx (ix2 r j) q (1 : Fin 2)).val = (q ⟨0, by decide⟩).val :=
  (dot_S200x128_S128x10000_S200x10000_1_0_0_1_n_n).lhsIdx_val_of_single rfl (ix2 r j) q

theorem dot_rhs0 (r : Fin 200) (j : Fin 10000) (q : (dot_S200x128_S128x10000_S200x10000_1_0_0_1_n_n).contr.Idx) :
    ((dot_S200x128_S128x10000_S200x10000_1_0_0_1_n_n).rhsIdx (ix2 r j) q (0 : Fin 2)).val = (q ⟨0, by decide⟩).val :=
  (dot_S200x128_S128x10000_S200x10000_1_0_0_1_n_n).rhsIdx_val_of_single rfl (ix2 r j) q

theorem dot_rhs1 (r : Fin 200) (j : Fin 10000) (q : (dot_S200x128_S128x10000_S200x10000_1_0_0_1_n_n).contr.Idx) :
    ((dot_S200x128_S128x10000_S200x10000_1_0_0_1_n_n).rhsIdx (ix2 r j) q (1 : Fin 2)).val = j.val := by
  simp [DotDims.rhsIdx, dot_S200x128_S128x10000_S200x10000_1_0_0_1_n_n]; rfl

theorem mm_read {φ₁ φ₂ : FTy} (A : FVec Ideal S200x128 φ₁) (B : FVec Ideal S128x10000 φ₂) (r : Fin 200) (j : Fin 10000) :
    matmul (F := Ideal) dot_S200x128_S128x10000_S200x10000_1_0_0_1_n_n none A B (constant S200x10000 .f32 0x00000000#32) (ix2 r j)
      = ∑ k : Fin 128, A (ix2 r k) * B (ix2 k j) := by
  show FloatOps.matmul _ none A B _ (ix2 r j) = _
  rw [Ideal.matmul_constant_zero_apply, ← Equiv.sum_comp (contrEquiv1 dot_S200x128_S128x10000_S200x10000_1_0_0_1_n_n 128 rfl rfl).symm]
  refine Finset.sum_congr rfl fun k _ => ?_
  have c := contrEquiv1_symm_val dot_S200x128_S128x10000_S200x10000_1_0_0_1_n_n 128 rfl rfl k
  have hl : (dot_S200x128_S128x10000_S200x10000_1_0_0_1_n_n).lhsIdx (ix2 r j) ((contrEquiv1 dot_S200x128_S128x10000_S200x10000_1_0_0_1_n_n 128 rfl rfl).symm k) = ix2 r k := by
    funext ax; apply Fin.ext
    match ax with
    | ⟨0, _⟩ => exact dot_lhs0 r j _
    | ⟨1, _⟩ => exact (dot_lhs1 r j _).trans c
  have hr : (dot_S200x128_S128x10000_S200x10000_1_0_0_1_n_n).rhsIdx (ix2 r j) ((contrEquiv1 dot_S200x128_S128x10000_S200x10000_1_0_0_1_n_n 128 rfl rfl).symm k) = ix2 k j := by
    funext ax; apply Fin.ext
    match ax with
    | ⟨0, _⟩ => exact (dot_rhs0 r j _).trans c
    | ⟨1, _⟩ => exact dot_rhs1 r j _
  rw [hl, hr]

/-! ## The two keepdims forms -/

theorem col_read (x : FVec Ideal S200 .f32) (r : Fin 200) (j : Fin 10000) :
    broadcastTo S200x10000 (shapeCast S200x1 x shapeCasts_S200_S200x1) broadcasts_S200x1_S200x10000 (ix2 r j) = x (ix1 r) :=
  (broadcastTo_a1_ab_apply _ _ r j).trans (shapeCast_a_a1_apply x _ r 0)

theorem row_read (x : FVec Ideal S10000 .f32) (r : Fin 200) (j : Fin 10000) :
    broadcastTo S200x10000 (shapeCast S1x10000 x shapeCasts_S10000_S1x10000) broadcasts_S1x10000_S200x10000 (ix2 r j) = x (ix1 j) :=
  (broadcastTo_1b_ab_apply _ _ r j).trans (shapeCast_a_1a_apply x _ 0 j)

/-! ## The body's values, one after another -/

/-- Row `r` of the block's logits, as a function of the column. -/
def Lrow (v0 v3 : Vec Ideal S200x128 .f32) (v6 v8 : Vec Ideal S128x10000 .bf16) (v13 : Vec Ideal S10000 .f32) (r : Fin 200) (j' : Fin 10000) : EReal :=
  (∑ k : Fin 128, v0 (ix2 r k) * v6 (ix2 k j')) + (∑ k : Fin 128, v3 (ix2 r k) * v8 (ix2 k j')) + v13 (ix1 j')

/-- The logits of the block: the two products into zero accumulators, added, plus the bias row. -/
def lg (v0 v3 : Vec Ideal S200x128 .f32) (v6 v8 : Vec Ideal S128x10000 .bf16) (v13 : Vec Ideal S10000 .f32) : FVec Ideal S200x10000 .f32 :=
  addf (addf
      (matmul (F := Ideal) (φ₁ := .bf16) (φ₂ := .bf16) dot_S200x128_S128x10000_S200x10000_1_0_0_1_n_n none (truncf .bf16 (shapeCast S200x128 v0 shapeCasts_S200x128_S200x128) bitsLt_bf16_f32)
        (shapeCast S128x10000 v6 shapeCasts_S128x10000_S128x10000) (constant S200x10000 .f32 0x00000000#32))
      (matmul (F := Ideal) (φ₁ := .bf16) (φ₂ := .bf16) dot_S200x128_S128x10000_S200x10000_1_0_0_1_n_n none (truncf .bf16 (shapeCast S200x128 v3 shapeCasts_S200x128_S200x128) bitsLt_bf16_f32)
        (shapeCast S128x10000 v8 shapeCasts_S128x10000_S128x10000) (constant S200x10000 .f32 0x00000000#32)))
    (broadcastTo S200x10000 (shapeCast S1x10000 v13 shapeCasts_S10000_S1x10000) broadcasts_S1x10000_S200x10000)

/-- The row maxima. -/
def mx (v0 v3 : Vec Ideal S200x128 .f32) (v6 v8 : Vec Ideal S128x10000 .bf16) (v13 : Vec Ideal S10000 .f32) : FVec Ideal S200 .f32 :=
  multiReduction (F := Ideal) .maximumf [1] S200 (lg v0 v3 v6 v8 v13) 0xFF800000#32 reduces_S200x10000_S200 (.inl rfl) rfl

/-- The exponentials of the logits less their row's maximum. -/
def ex (v0 v3 : Vec Ideal S200x128 .f32) (v6 v8 : Vec Ideal S128x10000 .bf16) (v13 : Vec Ideal S10000 .f32) : FVec Ideal S200x10000 .f32 :=
  exp (subf (lg v0 v3 v6 v8 v13) (broadcastTo S200x10000 (shapeCast S200x1 (mx v0 v3 v6 v8 v13) shapeCasts_S200_S200x1) broadcasts_S200x1_S200x10000))

/-- The row sums of the exponentials. -/
def sm (v0 v3 : Vec Ideal S200x128 .f32) (v6 v8 : Vec Ideal S128x10000 .bf16) (v13 : Vec Ideal S10000 .f32) : FVec Ideal S200 .f32 :=
  multiReduction (F := Ideal) .add [1] S200 (ex v0 v3 v6 v8 v13) 0x00000000#32 reduces_S200x10000_S200 (.inl rfl) rfl

theorem pay_eq (v0 v3 : Vec Ideal S200x128 .f32) (v6 v8 : Vec Ideal S128x10000 .bf16) (v13 : Vec Ideal S10000 .f32) :
    k4_pay1 (F := Ideal) v0 v3 v6 v8 v13
      = divf (ex v0 v3 v6 v8 v13) (broadcastTo S200x10000 (shapeCast S200x1 (sm v0 v3 v6 v8 v13) shapeCasts_S200_S200x1) broadcasts_S200x1_S200x10000) := rfl

theorem lg_apply (v0 v3 : Vec Ideal S200x128 .f32) (v6 v8 : Vec Ideal S128x10000 .bf16) (v13 : Vec Ideal S10000 .f32) (r : Fin 200) (j' : Fin 10000) :
    lg v0 v3 v6 v8 v13 (ix2 r j') = Lrow v0 v3 v6 v8 v13 r j' := by
  unfold lg Lrow
  rw [addf_apply, addf_apply, row_read, mm_read, mm_read]
  simp only [shapeCast_self, truncf_apply]

theorem mx_apply (v0 v3 : Vec Ideal S200x128 .f32) (v6 v8 : Vec Ideal S128x10000 .bf16) (v13 : Vec Ideal S10000 .f32) (r : Fin 200) :
    mx v0 v3 v6 v8 v13 (ix1 r) = Cert.Gcn.rowMax (Lrow v0 v3 v6 v8 v13 r) := by
  unfold mx
  refine (Ideal.multiReduction_maximumf_single (φ := .f32) (lg v0 v3 v6 v8 v13) 0xFF800000#32 reduces_S200x10000_S200 (.inl rfl) rfl (ix1 r)).trans ?_
  show (Finset.univ : Finset (Fin 10000)).fold max (Ideal.ofBits .f32 0xFF800000#32)
      (fun j' => lg v0 v3 v6 v8 v13 ((reduces_S200x10000_S200).lift (ix1 r) j')) = (Finset.univ : Finset (Fin 10000)).fold max ⊥ (Lrow v0 v3 v6 v8 v13 r)
  rw [ofBits_neg_inf]
  exact congrArg (fun f => Finset.fold max ⊥ f (Finset.univ : Finset (Fin 10000)))
    (funext fun j' => (congrArg (lg v0 v3 v6 v8 v13) (lift_row r j')).trans (lg_apply v0 v3 v6 v8 v13 r j'))

theorem ex_apply (v0 v3 : Vec Ideal S200x128 .f32) (v6 v8 : Vec Ideal S128x10000 .bf16) (v13 : Vec Ideal S10000 .f32) (r : Fin 200) (j' : Fin 10000) :
    ex v0 v3 v6 v8 v13 (ix2 r j') = Ideal.exp (Lrow v0 v3 v6 v8 v13 r j' - Cert.Gcn.rowMax (Lrow v0 v3 v6 v8 v13 r)) := by
  unfold ex
  show Ideal.exp (lg v0 v3 v6 v8 v13 (ix2 r j')
      - broadcastTo S200x10000 (shapeCast S200x1 (mx v0 v3 v6 v8 v13) shapeCasts_S200_S200x1) broadcasts_S200x1_S200x10000 (ix2 r j')) = _
  rw [col_read, lg_apply, mx_apply]

theorem sm_apply (v0 v3 : Vec Ideal S200x128 .f32) (v6 v8 : Vec Ideal S128x10000 .bf16) (v13 : Vec Ideal S10000 .f32) (r : Fin 200) :
    sm v0 v3 v6 v8 v13 (ix1 r) = ∑ j' : Fin 10000, Ideal.exp (Lrow v0 v3 v6 v8 v13 r j' - Cert.Gcn.rowMax (Lrow v0 v3 v6 v8 v13 r)) := by
  unfold sm
  refine (Ideal.multiReduction_add_single (φ := .f32) (ex v0 v3 v6 v8 v13) 0x00000000#32 reduces_S200x10000_S200 (.inl rfl) rfl (ix1 r)).trans ?_
  show ∑ j' : Fin 10000, ex v0 v3 v6 v8 v13 ((reduces_S200x10000_S200).lift (ix1 r) j') = _
  exact Finset.sum_congr rfl fun j' _ => (congrArg (ex v0 v3 v6 v8 v13) (lift_row r j')).trans (ex_apply v0 v3 v6 v8 v13 r j')

/-- THE BODY'S ARITHMETIC AT AN INDEX: row `r`, column `j` of what a grid point stores is the softmax of row `r` of the
    block's logits at `j`. -/
theorem pay_soft (v0 v3 : Vec Ideal S200x128 .f32) (v6 v8 : Vec Ideal S128x10000 .bf16) (v13 : Vec Ideal S10000 .f32) (r : Fin 200) (j : Fin 10000) :
    k4_pay1 (F := Ideal) v0 v3 v6 v8 v13 (ix2 r j)
      = Cert.Gcn.softRow (fun j' => (∑ k : Fin 128, v0 (ix2 r k) * v6 (ix2 k j')) + (∑ k : Fin 128, v3 (ix2 r k) * v8 (ix2 k j')) + v13 (ix1 j')) j := by
  rw [pay_eq, divf_apply, col_read, ex_apply, sm_apply]
  rfl

end Cert.KernelIdeal.KVal

end
-- ==== Proof.RegionSoft.lean ====
/-
  From the last kernel's blocks to the array. The final call runs over a grid of 100 points; point `t` holds rows
  `200 q … 200 q + 199` of the two towers' features (`q` the result's block index at `t`, which the two feature windows
  share), the whole of the two halves of the projection matrix and of the bias, and writes back rows `200 q … 200 q + 199`
  of the result. A row's softmax needs that row alone and each block holds whole rows, so what point `t` writes back is
  block `t` of the row softmax of the logits of the arrays the region finds (`flushed4_5_eq`, by the body's arithmetic read
  at an index and each input block read where the result's rectangle says); row `R` lies in the block of index `R / 200`,
  so the hundred blocks tile the array (`covered4_5`), and the array ends holding that softmax (`soft4`).
-/
import proofs.«402708_j47854525612559_3_alg».proof.Proof.Gen.KernelIdeal.Frame
import proofs.«402708_j47854525612559_3_alg».proof.Proof.Spec
import proofs.«402708_j47854525612559_3_alg».proof.Proof.PaySoft
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided once over the grid. -/
theorem idx_facts4 : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) ≤ 99 ∧ win4_5.index t (1 : Fin 2) = 0 :=
  (by decide +kernel : ∀ t : Fin grid4.N, _)

theorem idx_onto4 : ∀ q : Fin 100, ∃ t : Fin cfg4.N, win4_5.index t = ![q.val, 0] :=
  (by decide +kernel : ∀ q : Fin 100, ∃ t : Fin grid4.N, win4_5.index t = ![q.val, 0])

/-- Row `r` of the block a point holds is row `200 · q + r` of the array, `q` the result's block index at the point. -/
abbrev rowOf (t : Fin cfg4.N) (r : Fin 200) : Fin 20000 :=
  ⟨200 * win4_5.index t (0 : Fin 2) + r.val, by have := (idx_facts4 t).2.2.2.2.2.2.2.2.2.1; have := r.isLt; omega⟩

theorem blk0_apply (c : Dev nD) (t : Fin cfg4.N) (r : Fin 200) (k : Fin 128) :
    (iblk4 V c 0 t : Vec Ideal S200x128 .f32) (ix2 r k)
      = (V c main_v115 : Cert.Gcn.SNxD.Idx → EReal) (ix2 (rowOf t r) k) := by
  obtain ⟨e0, e1, -⟩ := idx_facts4 t
  unfold iblk4
  rw [View.read_apply]
  show (V c main_v115 : Cert.Gcn.SNxD.Idx → EReal) _ = _
  congr 1
  funext a; apply Fin.ext
  match a with
  | ⟨0, _⟩ => show win4_0.index t (0 : Fin 2) * 200 + 1 * r.val = 200 * win4_5.index t (0 : Fin 2) + r.val; rw [e0]; omega
  | ⟨1, _⟩ => show win4_0.index t (1 : Fin 2) * 128 + 1 * k.val = k.val; rw [e1]; omega

theorem blk1_apply (c : Dev nD) (t : Fin cfg4.N) (r : Fin 200) (k : Fin 128) :
    (iblk4 V c 1 t : Vec Ideal S200x128 .f32) (ix2 r k)
      = (V c main_v139 : Cert.Gcn.SNxD.Idx → EReal) (ix2 (rowOf t r) k) := by
  obtain ⟨-, -, e0, e1, -⟩ := idx_facts4 t
  unfold iblk4
  rw [View.read_apply]
  show (V c main_v139 : Cert.Gcn.SNxD.Idx → EReal) _ = _
  congr 1
  funext a; apply Fin.ext
  match a with
  | ⟨0, _⟩ => show win4_1.index t (0 : Fin 2) * 200 + 1 * r.val = 200 * win4_5.index t (0 : Fin 2) + r.val; rw [e0]; omega
  | ⟨1, _⟩ => show win4_1.index t (1 : Fin 2) * 128 + 1 * k.val = k.val; rw [e1]; omega

theorem blk2_apply (c : Dev nD) (t : Fin cfg4.N) (k : Fin 128) (j : Fin 10000) :
    (iblk4 V c 2 t : Vec Ideal S128x10000 .bf16) (ix2 k j)
      = (V c main_v141 : Cert.Gcn.SDxP.Idx → EReal) (ix2 k j) := by
  obtain ⟨-, -, -, -, e0, e1, -⟩ := idx_facts4 t
  unfold iblk4
  rw [View.read_apply]
  show (V c main_v141 : Cert.Gcn.SDxP.Idx → EReal) _ = _
  congr 1
  funext a; apply Fin.ext
  match a with
  | ⟨0, _⟩ => show win4_2.index t (0 : Fin 2) * 128 + 1 * k.val = k.val; rw [e0]; omega
  | ⟨1, _⟩ => show win4_2.index t (1 : Fin 2) * 10000 + 1 * j.val = j.val; rw [e1]; omega

theorem blk3_apply (c : Dev nD) (t : Fin cfg4.N) (k : Fin 128) (j : Fin 10000) :
    (iblk4 V c 3 t : Vec Ideal S128x10000 .bf16) (ix2 k j)
      = (V c main_v143 : Cert.Gcn.SDxP.Idx → EReal) (ix2 k j) := by
  obtain ⟨-, -, -, -, -, -, e0, e1, -⟩ := idx_facts4 t
  unfold iblk4
  rw [View.read_apply]
  show (V c main_v143 : Cert.Gcn.SDxP.Idx → EReal) _ = _
  congr 1
  funext a; apply Fin.ext
  match a with
  | ⟨0, _⟩ => show win4_3.index t (0 : Fin 2) * 128 + 1 * k.val = k.val; rw [e0]; omega
  | ⟨1, _⟩ => show win4_3.index t (1 : Fin 2) * 10000 + 1 * j.val = j.val; rw [e1]; omega

theorem blk4_apply (c : Dev nD) (t : Fin cfg4.N) (j : Fin 10000) :
    (iblk4 V c 4 t : Vec Ideal S10000 .f32) (ix1 j)
      = (V c main_arg11 : Cert.Gcn.SP.Idx → EReal) (ix1 j) := by
  obtain ⟨-, -, -, -, -, -, -, -, e0, -⟩ := idx_facts4 t
  unfold iblk4
  rw [View.read_apply]
  show (V c main_arg11 : Cert.Gcn.SP.Idx → EReal) _ = _
  congr 1
  funext a; apply Fin.ext
  match a with
  | ⟨0, _⟩ => show win4_4.index t (0 : Fin 1) * 10000 + 1 * j.val = j.val; rw [e0]; omega

/-- Where the result's block at a point puts its entry `(r, j)`. -/
theorem emb5_apply (t : Fin cfg4.N) (r : Fin 200) (j : Fin 10000) :
    (((cfg4.win 5).blk t).view.emb (ix2 r j) : Cert.Gcn.SNxP.Idx) = ix2 (rowOf t r) j := by
  obtain ⟨-, -, -, -, -, -, -, -, -, -, e1⟩ := idx_facts4 t
  funext a; apply Fin.ext
  match a with
  | ⟨0, _⟩ => show win4_5.index t (0 : Fin 2) * 200 + 1 * r.val = 200 * win4_5.index t (0 : Fin 2) + r.val; omega
  | ⟨1, _⟩ => show win4_5.index t (1 : Fin 2) * 10000 + 1 * j.val = j.val; rw [e1]; omega

/-- WHAT POINT `t` WRITES BACK is block `t` of the row softmax of the logits of the arrays as the region finds them. -/
theorem flushed4_5_eq (c : Dev nD) (t : Fin cfg4.N) :
    (dat4 (F := Ideal) V c).flushed 5 t = ((cfg4.win 5).blk t).view.read (Elt Ideal) (Cert.Gcn.Soft (V c main_v115) (V c main_v139) (V c main_v141) (V c main_v143) (V c main_arg11)) := by
  show (cfg4.win 5).cut (grid4.coords t) ((dat4 V c).after 5 t) = _
  rw [after4_5]
  unfold out4_5
  rw [View.canon_unit_zero hz2]
  simp only [View.ld_unit_zero (S := S200x128) hz2, View.ld_unit_zero (S := S128x10000) hz2, View.ld_unit_zero (S := S10000) hz1]
  funext y
  obtain ⟨r, j, rfl⟩ : ∃ (r : Fin 200) (j : Fin 10000), y = ix2 r j := ⟨y 0, y 1, eq_ix2 y⟩
  show k4_pay1 (F := Ideal) (iblk4 V c 0 t) (iblk4 V c 1 t) (iblk4 V c 2 t) (iblk4 V c 3 t) (iblk4 V c 4 t) (ix2 r j)
      = (Cert.Gcn.Soft (V c main_v115) (V c main_v139) (V c main_v141) (V c main_v143) (V c main_arg11)) (((cfg4.win 5).blk t).view.emb (ix2 r j))
  rw [pay_soft, emb5_apply, Cert.Gcn.Soft_apply]
  unfold Cert.Gcn.logit
  simp only [blk0_apply, blk1_apply, blk2_apply, blk3_apply, blk4_apply]

/-- An index of the array is in point `t`'s block iff each coordinate is in the block's range on its axis. -/
theorem mem_blk5 (t : Fin cfg4.N) (i : Cert.Gcn.SNxP.Idx) :
    i ∈ ((cfg4.win 5).blk t).view.set ↔ ∀ a : Fin 2, win4_5.index t a * S200x10000.size a ≤ (i a).val
      ∧ (i a).val < win4_5.index t a * S200x10000.size a + S200x10000.size a := by
  show i ∈ ((View.whole main_v144).slice (win4_5.rect t)).set ↔ _
  rw [View.set_slice_whole, Rect.mem_set_unit]
  exact Iff.rfl

/-- The hundred blocks tile the array: row `R` lies in the block of index `R / 200`. -/
theorem covered4_5 (i : Cert.Gcn.SNxP.Idx) :
    ∃ t : Fin cfg4.N, (cfg4.win 5).flush t = true ∧ i ∈ ((cfg4.win 5).blk t).view.set := by
  have hi0 : (i 0).val < 20000 := (i 0).isLt
  have hi1 : (i 1).val < 10000 := (i 1).isLt
  obtain ⟨t, ht⟩ := idx_onto4 ⟨(i 0).val / 200, by omega⟩
  have q0 : win4_5.index t (0 : Fin 2) = (i 0).val / 200 := congrFun ht 0
  have q1 : win4_5.index t (1 : Fin 2) = 0 := congrFun ht 1
  refine ⟨t, flush4_5 t, ?_⟩
  rw [mem_blk5]
  intro a
  match a with
  | ⟨0, _⟩ =>
    show win4_5.index t (0 : Fin 2) * 200 ≤ (i 0).val ∧ (i 0).val < win4_5.index t (0 : Fin 2) * 200 + 200
    omega
  | ⟨1, _⟩ =>
    show win4_5.index t (1 : Fin 2) * 10000 ≤ (i 1).val ∧ (i 1).val < win4_5.index t (1 : Fin 2) * 10000 + 10000
    omega

/-- THE ARRAY after the region: the row softmax of the logits of the arrays the region found. -/
theorem soft4 (c : Dev nD) :
    (dat4 (F := Ideal) V c).arrAt 5 cfg4.N = Cert.Gcn.Soft (V c main_v115) (V c main_v139) (V c main_v141) (V c main_v143) (V c main_arg11) :=
  (dat4 V c).arrAt_eq_of_cover 5 _ (fun t _ => flushed4_5_eq V c t) covered4_5

end Cert.KernelIdeal.KVal

end
-- ==== Proof.KValue.lean ====
/-
  The kernel's result as ONE function of the twelve argument arrays.

  Each tower: the embedding lookup, then twice "multiply by the layer's weight matrix (a launch), aggregate along the edges
  (a host stretch)". The last launch takes the two towers' features, the two halves of the projection matrix and the bias to
  the row softmax of the logits. The buffers each step reads are where an earlier step left them: no later stretch or launch
  writes them.
-/
import proofs.«402708_j47854525612559_3_alg».proof.Proof.KDefs
import proofs.«402708_j47854525612559_3_alg».proof.Proof.KKeep
import proofs.«402708_j47854525612559_3_alg».proof.Proof.KStages
import proofs.«402708_j47854525612559_3_alg».proof.Proof.KStage0a
import proofs.«402708_j47854525612559_3_alg».proof.Proof.KStage0b
import proofs.«402708_j47854525612559_3_alg».proof.Proof.KStage0c
import proofs.«402708_j47854525612559_3_alg».proof.Proof.RegionMM0
import proofs.«402708_j47854525612559_3_alg».proof.Proof.RegionMM1
import proofs.«402708_j47854525612559_3_alg».proof.Proof.RegionMM2
import proofs.«402708_j47854525612559_3_alg».proof.Proof.RegionMM3
import proofs.«402708_j47854525612559_3_alg».proof.Proof.RegionSoft
import proofs.«402708_j47854525612559_3_alg».proof.Proof.Spec

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

/-! ## The towers' features, as functions of the arguments -/

/-- The user tower after its first layer. -/
def kU1 (x0 : Bf Ideal S20000 .i32) (x2 : Bf Ideal S2x640000 .i32) (x4 : Bf Ideal S100000x128 .f32) (x6 : Bf Ideal S2x128x128 .f32)
    (x7 : Bf Ideal S2x128 .f32) : Bf Ideal S20000x128 .f32 :=
  kLayer0 (F := Ideal) (kDinv x2) (Cert.Gcn.MM (kEmbU (F := Ideal) x0 x4) (kW0 (F := Ideal) x6)) (kSrc x2) (kDst x2) x7
/-- The user tower after its second layer. -/
def kU2 (x0 : Bf Ideal S20000 .i32) (x2 : Bf Ideal S2x640000 .i32) (x4 : Bf Ideal S100000x128 .f32) (x6 : Bf Ideal S2x128x128 .f32)
    (x7 : Bf Ideal S2x128 .f32) : Bf Ideal S20000x128 .f32 :=
  kLayer1 (F := Ideal) (kDinv x2) (Cert.Gcn.MM (kU1 x0 x2 x4 x6 x7) (kW1 (F := Ideal) x6)) (kSrc x2) (kDst x2) x7
/-- The product tower after its first layer. -/
def kP1 (x1 : Bf Ideal S20000 .i32) (x3 : Bf Ideal S2x640000 .i32) (x5 : Bf Ideal S10000x128 .f32) (x8 : Bf Ideal S2x128x128 .f32)
    (x9 : Bf Ideal S2x128 .f32) : Bf Ideal S20000x128 .f32 :=
  kLayer0 (F := Ideal) (kDinv x3) (Cert.Gcn.MM (kEmbP (F := Ideal) x1 x5) (kW0 (F := Ideal) x8)) (kSrc x3) (kDst x3) x9
/-- The product tower after its second layer. -/
def kP2 (x1 : Bf Ideal S20000 .i32) (x3 : Bf Ideal S2x640000 .i32) (x5 : Bf Ideal S10000x128 .f32) (x8 : Bf Ideal S2x128x128 .f32)
    (x9 : Bf Ideal S2x128 .f32) : Bf Ideal S20000x128 .f32 :=
  kLayer1 (F := Ideal) (kDinv x3) (Cert.Gcn.MM (kP1 x1 x3 x5 x8 x9) (kW1 (F := Ideal) x8)) (kSrc x3) (kDst x3) x9

variable (m : (ℓ : Loc nD τ sig) → Buf (Elt Ideal) ℓ) (ρ : Dev nD → PrngReg)

/-! ## The user tower -/

/-- The first launch leaves the user tower's first product in its result array. -/
theorem at6_h (c : Dev nD) : W6 m ρ c (Proc.devRef .tc main_v46)
    = Cert.Gcn.MM (kEmbU (F := Ideal) (m ((c : Thread nD τ).loc main_arg0)) (m ((c : Thread nD τ).loc main_arg4))) (kW0 (F := Ideal) (m ((c : Thread nD τ).loc main_arg6))) := by
  refine (W6_arr m ρ c 2).trans ((mm0 (V5 m ρ) c).trans ?_)
  show Cert.Gcn.MM (W5 m ρ c (Proc.devRef .tc main_v6)) (W5 m ρ c (Proc.devRef .tc main_v45)) = _
  rw [at5_u0 m ρ c, at5_w m ρ c]

/-- The first stretch after it: the user tower's first layer. -/
theorem at7_u1 (c : Dev nD) : W7 m ρ c (Proc.devRef .tc main_v67) = kU1 (m ((c : Thread nD τ).loc main_arg0)) (m ((c : Thread nD τ).loc main_arg2)) (m ((c : Thread nD τ).loc main_arg4)) (m ((c : Thread nD τ).loc main_arg6)) (m ((c : Thread nD τ).loc main_arg7)) := by
  refine (h1_u1 (F := Ideal) (W6 m ρ c)).trans ?_
  rw [at6_h m ρ c,
    (W6_of_ne m ρ c main_v28 (by decide)).trans (at5_dinvU m ρ c),
    (W6_of_ne m ρ c main_v19 (by decide)).trans (at5_srcU m ρ c),
    (W6_of_ne m ρ c main_v20 (by decide)).trans (at5_dstU m ρ c),
    (W6_of_ne m ρ c main_arg7 (by decide)).trans (at5_arg7 m ρ c)]
  rfl

/-- The third launch's entry: the user tower's first layer is still there, and its second weight matrix is ready. -/
theorem at9_u1 (c : Dev nD) : W9 m ρ c (Proc.devRef .tc main_v67) = kU1 (m ((c : Thread nD τ).loc main_arg0)) (m ((c : Thread nD τ).loc main_arg2)) (m ((c : Thread nD τ).loc main_arg4)) (m ((c : Thread nD τ).loc main_arg6)) (m ((c : Thread nD τ).loc main_arg7)) :=
  (keepW9 m ρ c main_v67 (by decide)).trans ((W8_of_ne m ρ c main_v67 (by decide)).trans (at7_u1 m ρ c))
theorem at9_w (c : Dev nD) : W9 m ρ c (Proc.devRef .tc main_v93) = kW1 (F := Ideal) (m ((c : Thread nD τ).loc main_arg6)) := by
  refine (h2_w (F := Ideal) (W8 m ρ c)).trans ?_
  rw [(keep_5_8 m ρ c main_arg6 (by decide) (by decide) (by decide)).trans (at5_arg6 m ρ c)]

/-- The third launch leaves the user tower's second product. -/
theorem at10_h (c : Dev nD) : W10 m ρ c (Proc.devRef .tc main_v94)
    = Cert.Gcn.MM (kU1 (m ((c : Thread nD τ).loc main_arg0)) (m ((c : Thread nD τ).loc main_arg2)) (m ((c : Thread nD τ).loc main_arg4)) (m ((c : Thread nD τ).loc main_arg6)) (m ((c : Thread nD τ).loc main_arg7))) (kW1 (F := Ideal) (m ((c : Thread nD τ).loc main_arg6))) := by
  refine (W10_arr m ρ c 2).trans ((mm2 (V9 m ρ) c).trans ?_)
  show Cert.Gcn.MM (W9 m ρ c (Proc.devRef .tc main_v67)) (W9 m ρ c (Proc.devRef .tc main_v93)) = _
  rw [at9_u1 m ρ c, at9_w m ρ c]

/-- The stretch after it: the user tower's second layer. -/
theorem at11_u2 (c : Dev nD) : W11 m ρ c (Proc.devRef .tc main_v115) = kU2 (m ((c : Thread nD τ).loc main_arg0)) (m ((c : Thread nD τ).loc main_arg2)) (m ((c : Thread nD τ).loc main_arg4)) (m ((c : Thread nD τ).loc main_arg6)) (m ((c : Thread nD τ).loc main_arg7)) := by
  refine (h3_u2 (F := Ideal) (W10 m ρ c)).trans ?_
  rw [at10_h m ρ c,
    (keep_5_10 m ρ c main_v28 (by decide) (by decide) (by decide) (by decide) (by decide)).trans (at5_dinvU m ρ c),
    (keep_5_10 m ρ c main_v19 (by decide) (by decide) (by decide) (by decide) (by decide)).trans (at5_srcU m ρ c),
    (keep_5_10 m ρ c main_v20 (by decide) (by decide) (by decide) (by decide) (by decide)).trans (at5_dstU m ρ c),
    (keep_5_10 m ρ c main_arg7 (by decide) (by decide) (by decide) (by decide) (by decide)).trans (at5_arg7 m ρ c)]
  rfl

/-- At the last launch's entry it is still there. -/
theorem at13_u2 (c : Dev nD) : W13 m ρ c (Proc.devRef .tc main_v115) = kU2 (m ((c : Thread nD τ).loc main_arg0)) (m ((c : Thread nD τ).loc main_arg2)) (m ((c : Thread nD τ).loc main_arg4)) (m ((c : Thread nD τ).loc main_arg6)) (m ((c : Thread nD τ).loc main_arg7)) :=
  (keepW13 m ρ c main_v115 (by decide)).trans ((W12_of_ne m ρ c main_v115 (by decide)).trans (at11_u2 m ρ c))

/-! ## The product tower -/

/-- The second launch's entry: the product tower's input features are still there, its first weight matrix is ready. -/
theorem at7_p0 (c : Dev nD) : W7 m ρ c (Proc.devRef .tc main_v13) = kEmbP (F := Ideal) (m ((c : Thread nD τ).loc main_arg1)) (m ((c : Thread nD τ).loc main_arg5)) :=
  (keepW7 m ρ c main_v13 (by decide)).trans ((W6_of_ne m ρ c main_v13 (by decide)).trans (at5_p0 m ρ c))
theorem at7_w (c : Dev nD) : W7 m ρ c (Proc.devRef .tc main_v69) = kW0 (F := Ideal) (m ((c : Thread nD τ).loc main_arg8)) := by
  refine (h1_w (F := Ideal) (W6 m ρ c)).trans ?_
  rw [(W6_of_ne m ρ c main_arg8 (by decide)).trans (at5_arg8 m ρ c)]

/-- The second launch leaves the product tower's first product. -/
theorem at8_h (c : Dev nD) : W8 m ρ c (Proc.devRef .tc main_v70)
    = Cert.Gcn.MM (kEmbP (F := Ideal) (m ((c : Thread nD τ).loc main_arg1)) (m ((c : Thread nD τ).loc main_arg5))) (kW0 (F := Ideal) (m ((c : Thread nD τ).loc main_arg8))) := by
  refine (W8_arr m ρ c 2).trans ((mm1 (V7 m ρ) c).trans ?_)
  show Cert.Gcn.MM (W7 m ρ c (Proc.devRef .tc main_v13)) (W7 m ρ c (Proc.devRef .tc main_v69)) = _
  rw [at7_p0 m ρ c, at7_w m ρ c]

/-- The stretch after it: the product tower's first layer. -/
theorem at9_p1 (c : Dev nD) : W9 m ρ c (Proc.devRef .tc main_v91) = kP1 (m ((c : Thread nD τ).loc main_arg1)) (m ((c : Thread nD τ).loc main_arg3)) (m ((c : Thread nD τ).loc main_arg5)) (m ((c : Thread nD τ).loc main_arg8)) (m ((c : Thread nD τ).loc main_arg9)) := by
  refine (h2_p1 (F := Ideal) (W8 m ρ c)).trans ?_
  rw [at8_h m ρ c,
    (keep_5_8 m ρ c main_v43 (by decide) (by decide) (by decide)).trans (at5_dinvP m ρ c),
    (keep_5_8 m ρ c main_v34 (by decide) (by decide) (by decide)).trans (at5_srcP m ρ c),
    (keep_5_8 m ρ c main_v35 (by decide) (by decide) (by decide)).trans (at5_dstP m ρ c),
    (keep_5_8 m ρ c main_arg9 (by decide) (by decide) (by decide)).trans (at5_arg9 m ρ c)]
  rfl

/-- The fourth launch's entry. -/
theorem at11_p1 (c : Dev nD) : W11 m ρ c (Proc.devRef .tc main_v91) = kP1 (m ((c : Thread nD τ).loc main_arg1)) (m ((c : Thread nD τ).loc main_arg3)) (m ((c : Thread nD τ).loc main_arg5)) (m ((c : Thread nD τ).loc main_arg8)) (m ((c : Thread nD τ).loc main_arg9)) :=
  (keepW11 m ρ c main_v91 (by decide)).trans ((W10_of_ne m ρ c main_v91 (by decide)).trans (at9_p1 m ρ c))
theorem at11_w (c : Dev nD) : W11 m ρ c (Proc.devRef .tc main_v117) = kW1 (F := Ideal) (m ((c : Thread nD τ).loc main_arg8)) := by
  refine (h3_w (F := Ideal) (W10 m ρ c)).trans ?_
  rw [(keep_5_10 m ρ c main_arg8 (by decide) (by decide) (by decide) (by decide) (by decide)).trans (at5_arg8 m ρ c)]

/-- The fourth launch leaves the product tower's second product. -/
theorem at12_h (c : Dev nD) : W12 m ρ c (Proc.devRef .tc main_v118)
    = Cert.Gcn.MM (kP1 (m ((c : Thread nD τ).loc main_arg1)) (m ((c : Thread nD τ).loc main_arg3)) (m ((c : Thread nD τ).loc main_arg5)) (m ((c : Thread nD τ).loc main_arg8)) (m ((c : Thread nD τ).loc main_arg9))) (kW1 (F := Ideal) (m ((c : Thread nD τ).loc main_arg8))) := by
  refine (W12_arr m ρ c 2).trans ((mm3 (V11 m ρ) c).trans ?_)
  show Cert.Gcn.MM (W11 m ρ c (Proc.devRef .tc main_v91)) (W11 m ρ c (Proc.devRef .tc main_v117)) = _
  rw [at11_p1 m ρ c, at11_w m ρ c]

/-- The last stretch: the product tower's second layer and the two halves of the projection matrix. -/
theorem at13_p2 (c : Dev nD) : W13 m ρ c (Proc.devRef .tc main_v139) = kP2 (m ((c : Thread nD τ).loc main_arg1)) (m ((c : Thread nD τ).loc main_arg3)) (m ((c : Thread nD τ).loc main_arg5)) (m ((c : Thread nD τ).loc main_arg8)) (m ((c : Thread nD τ).loc main_arg9)) := by
  refine (h4_p2 (F := Ideal) (W12 m ρ c)).trans ?_
  rw [at12_h m ρ c,
    (keep_5_12 m ρ c main_v43 (by decide) (by decide) (by decide) (by decide) (by decide) (by decide) (by decide)).trans (at5_dinvP m ρ c),
    (keep_5_12 m ρ c main_v34 (by decide) (by decide) (by decide) (by decide) (by decide) (by decide) (by decide)).trans (at5_srcP m ρ c),
    (keep_5_12 m ρ c main_v35 (by decide) (by decide) (by decide) (by decide) (by decide) (by decide) (by decide)).trans (at5_dstP m ρ c),
    (keep_5_12 m ρ c main_arg9 (by decide) (by decide) (by decide) (by decide) (by decide) (by decide) (by decide)).trans (at5_arg9 m ρ c)]
  rfl
theorem at13_wu (c : Dev nD) : W13 m ρ c (Proc.devRef .tc main_v141) = kWu (F := Ideal) (m ((c : Thread nD τ).loc main_arg10)) := by
  refine (h4_wu (F := Ideal) (W12 m ρ c)).trans ?_
  rw [(keep_5_12 m ρ c main_arg10 (by decide) (by decide) (by decide) (by decide) (by decide) (by decide) (by decide)).trans (at5_arg10 m ρ c)]
theorem at13_wp (c : Dev nD) : W13 m ρ c (Proc.devRef .tc main_v143) = kWp (F := Ideal) (m ((c : Thread nD τ).loc main_arg10)) := by
  refine (h4_wp (F := Ideal) (W12 m ρ c)).trans ?_
  rw [(keep_5_12 m ρ c main_arg10 (by decide) (by decide) (by decide) (by decide) (by decide) (by decide) (by decide)).trans (at5_arg10 m ρ c)]
theorem at13_b (c : Dev nD) : W13 m ρ c (Proc.devRef .tc main_arg11) = (m ((c : Thread nD τ).loc main_arg11)) :=
  (keep_5_13 m ρ c main_arg11 (by decide) (by decide) (by decide) (by decide) (by decide) (by decide) (by decide) (by decide)).trans (at5_arg11 m ρ c)

/-! ## The result -/

/-- THE KERNEL'S RESULT: the row softmax of the logits of the two towers' second-layer features against the two halves of
    the projection matrix, plus the bias. -/
theorem result (c : Dev nD) : W14 m ρ c (Proc.devRef .tc main_v144)
    = Cert.Gcn.Soft (kU2 (m ((c : Thread nD τ).loc main_arg0)) (m ((c : Thread nD τ).loc main_arg2)) (m ((c : Thread nD τ).loc main_arg4)) (m ((c : Thread nD τ).loc main_arg6)) (m ((c : Thread nD τ).loc main_arg7))) (kP2 (m ((c : Thread nD τ).loc main_arg1)) (m ((c : Thread nD τ).loc main_arg3)) (m ((c : Thread nD τ).loc main_arg5)) (m ((c : Thread nD τ).loc main_arg8)) (m ((c : Thread nD τ).loc main_arg9)))
        (kWu (F := Ideal) (m ((c : Thread nD τ).loc main_arg10))) (kWp (F := Ideal) (m ((c : Thread nD τ).loc main_arg10))) (m ((c : Thread nD τ).loc main_arg11)) := by
  refine (W14_arr m ρ c 5).trans ((soft4 (V13 m ρ) c).trans ?_)
  show Cert.Gcn.Soft (W13 m ρ c (Proc.devRef .tc main_v115)) (W13 m ρ c (Proc.devRef .tc main_v139)) (W13 m ρ c (Proc.devRef .tc main_v141))
    (W13 m ρ c (Proc.devRef .tc main_v143)) (W13 m ρ c (Proc.devRef .tc main_arg11)) = _
  rw [at13_u2 m ρ c, at13_p2 m ρ c, at13_wu m ρ c, at13_wp m ρ c, at13_b m ρ c]

end Cert.KernelIdeal.KVal

end
-- ==== Proof.RDefs.lean ====
/-
  The reference program's operations, as named functions of whole arrays.

  The reference does each graph-convolution layer as written in the textbook: the weight product on the host, each message
  scaled by `dinv[src] · dinv[dst]` and summed at its destination, plus the bias (`rLayer0`, `rLayer1`); it ends with the
  256-term projection of the two towers' features side by side and the row softmax (`rTail`). The embedding lookups, the edge
  lists, the degrees and the normalisation factor are computed exactly as the kernel's program computes them.
-/
import proofs.«402708_j47854525612559_3_alg».proof.Proof.Gen.ReferenceIdeal

noncomputable section

namespace Cert.ReferenceIdeal.RVal

open Idealize.ShloMosaic Idealize.ShloMosaic.TcCoe Idealize.SL.Sem Idealize.ShloMosaic.StableHlo
open Cert.ReferenceIdeal Cert.ReferenceIdeal.Gen

variable {F : FTy → Type} [FloatOps F]

/-- The contents of a buffer of a given shape and element type. -/
abbrev Bf (F : FTy → Type) (s : Shape) (e : EltTy) : Type := (⟨s, e⟩ : BufTy).Contents (Elt F)

/-- Rows of the user table at the ids (a negative id wraps by the table's length). -/
def rEmbU (ids : Bf F S20000 .i32) (tbl : Bf F S100000x128 .f32) : Bf F S20000x128 .f32 :=
  Host.gather gather_S100000x128_S20000x1_S20000x128_1_0_n_n_0_1_1128 tbl
    (broadcastInDim S20000x1 ![0] bcast_S20000_S20000x1_0
      (select (cmpi .slt ids (broadcastInDim S20000 ![] bcast_S_S20000 (constantI S_ 32 0#32)))
        (addi ids (broadcastInDim S20000 ![] bcast_S_S20000 (constantI S_ 32 100000#32))) ids))

/-- Rows of the product table at the ids. -/
def rEmbP (ids : Bf F S20000 .i32) (tbl : Bf F S10000x128 .f32) : Bf F S20000x128 .f32 :=
  Host.gather gather_S10000x128_S20000x1_S20000x128_1_0_n_n_0_1_1128 tbl
    (broadcastInDim S20000x1 ![0] bcast_S20000_S20000x1_0
      (select (cmpi .slt ids (broadcastInDim S20000 ![] bcast_S_S20000 (constantI S_ 32 0#32)))
        (addi ids (broadcastInDim S20000 ![] bcast_S_S20000 (constantI S_ 32 10000#32))) ids))

/-- The edges' sources, the self-loops appended. -/
def rSrc (ei : Bf F S2x640000 .i32) : Bf F S660000 .i32 :=
  concatenate S660000 0 [⟨S640000, shapeCast _ (extractStridedSlice S1x640000 ![0, 0] ei slices_S2x640000_S1x640000_0_0) shapeCasts_S1x640000_S640000⟩,
    ⟨S20000, iotaInDim S20000 32 0⟩] concatenates_S640000_S20000_S660000_d0

/-- The edges' destinations, the self-loops appended. -/
def rDst (ei : Bf F S2x640000 .i32) : Bf F S660000 .i32 :=
  concatenate S660000 0 [⟨S640000, shapeCast _ (extractStridedSlice S1x640000 ![1, 0] ei slices_S2x640000_S1x640000_1_0) shapeCasts_S1x640000_S640000⟩,
    ⟨S20000, iotaInDim S20000 32 0⟩] concatenates_S640000_S20000_S660000_d0

/-- Each node's degree: one per edge arriving at it. -/
def rDeg (ei : Bf F S2x640000 .i32) : Bf F S20000 .f32 :=
  Host.scatterAdd scatter_S20000_S660000x1_S660000_n_0_0_1 (broadcastInDim S20000 ![] bcast_S_S20000 (constant S_ .f32 0x00000000#32))
    (broadcastInDim S660000x1 ![0] bcast_S660000_S660000x1_0 (rDst (F := F) ei)) (broadcastInDim S660000 ![] bcast_S_S660000 (constant S_ .f32 0x3F800000#32))

/-- The normalisation factor: `1/√deg` where the degree is positive, `0` elsewhere. -/
def rDinv (ei : Bf F S2x640000 .i32) : Bf F S20000 .f32 :=
  select (cmpf .ogt (rDeg (F := F) ei) (broadcastInDim S20000 ![] bcast_S_S20000 (constant S_ .f32 0x00000000#32))) (Host.rsqrt (rDeg (F := F) ei))
    (broadcastInDim S20000 ![] bcast_S_S20000 (id (constant S_ .f32 0x00000000#32)))

/-- The first layer's weight matrix. -/
def rW0 (w : Bf F S2x128x128 .f32) : Bf F S128x128 .f32 :=
  shapeCast _ (extractStridedSlice S1x128x128 ![0, 0, 0] w slices_S2x128x128_S1x128x128_0_0_0) shapeCasts_S1x128x128_S128x128
/-- The second layer's weight matrix. -/
def rW1 (w : Bf F S2x128x128 .f32) : Bf F S128x128 .f32 :=
  shapeCast _ (extractStridedSlice S1x128x128 ![1, 0, 0] w slices_S2x128x128_S1x128x128_1_0_0) shapeCasts_S1x128x128_S128x128

/-- The first layer's bias, a copy per node. -/
def rBias0 (b : Bf F S2x128 .f32) : Bf F S20000x128 .f32 :=
  broadcastInDim S20000x128 ![0, 1] bcast_S1x128_S20000x128_0_1 (broadcastInDim S1x128 ![1] bcast_S128_S1x128_1
    (shapeCast _ (extractStridedSlice S1x128 ![0, 0] b slices_S2x128_S1x128_0_0) shapeCasts_S1x128_S128))
/-- The second layer's bias, a copy per node. -/
def rBias1 (b : Bf F S2x128 .f32) : Bf F S20000x128 .f32 :=
  broadcastInDim S20000x128 ![0, 1] bcast_S1x128_S20000x128_0_1 (broadcastInDim S1x128 ![1] bcast_S128_S1x128_1
    (shapeCast _ (extractStridedSlice S1x128 ![1, 0] b slices_S2x128_S1x128_1_0) shapeCasts_S1x128_S128))

/-- The weight product, on the host. -/
def rMM (x : Bf F S20000x128 .f32) (w : Bf F S128x128 .f32) : Bf F S20000x128 .f32 :=
  Host.dotGeneral dot_S20000x128_S128x128_S20000x128_1_0_0_1_n_n none x w

/-- An edge endpoint as a gather index: a negative word wraps by the number of nodes. -/
def rWrapW (s : Bf F S660000 .i32) : Bf F S660000 .i32 :=
  select (cmpi .slt s (broadcastInDim S660000 ![] bcast_S_S660000 (constantI S_ 32 0#32)))
    (addi s (broadcastInDim S660000 ![] bcast_S_S660000 (constantI S_ 32 20000#32))) s

/-- The aggregation as the reference does it: each message `h[src]` scaled by `dinv[src] · dinv[dst]`, summed at its
    destination. -/
def rAgg (dinv : Bf F S20000 .f32) (h : Bf F S20000x128 .f32) (src dst : Bf F S660000 .i32) : Bf F S20000x128 .f32 :=
  Host.scatterAdd scatter_S20000x128_S660000x1_S660000x128_1_0_0_1
    (broadcastInDim S20000x128 ![] bcast_S_S20000x128 (constant S_ .f32 0x00000000#32))
    (broadcastInDim S660000x1 ![0] bcast_S660000_S660000x1_0 dst)
    (mulf (broadcastInDim S660000x128 ![0, 1] bcast_S660000x1_S660000x128_0_1 (broadcastInDim S660000x1 ![0] bcast_S660000_S660000x1_0
        (mulf (Host.gather gather_S20000_S660000x1_S660000_n_0_n_n_0_1_1 dinv (broadcastInDim S660000x1 ![0] bcast_S660000_S660000x1_0 (rWrapW (F := F) src)))
          (Host.gather gather_S20000_S660000x1_S660000_n_0_n_n_0_1_1 dinv (broadcastInDim S660000x1 ![0] bcast_S660000_S660000x1_0 (rWrapW (F := F) dst))))))
      (Host.gather gather_S20000x128_S660000x1_S660000x128_1_0_n_n_0_1_1128 h (broadcastInDim S660000x1 ![0] bcast_S660000_S660000x1_0 (rWrapW (F := F) src))))

/-- A first-layer step after its product. -/
def rLayer0 (dinv : Bf F S20000 .f32) (h : Bf F S20000x128 .f32) (src dst : Bf F S660000 .i32) (b : Bf F S2x128 .f32) : Bf F S20000x128 .f32 :=
  addf (rAgg (F := F) dinv h src dst) (rBias0 (F := F) b)
/-- A second-layer step after its product. -/
def rLayer1 (dinv : Bf F S20000 .f32) (h : Bf F S20000x128 .f32) (src dst : Bf F S660000 .i32) (b : Bf F S2x128 .f32) : Bf F S20000x128 .f32 :=
  addf (rAgg (F := F) dinv h src dst) (rBias1 (F := F) b)

/-- The logits: the two towers' features side by side against the whole projection matrix, plus the bias. -/
def rLogits (u p : Bf F S20000x128 .f32) (W : Bf F S256x10000 .f32) (b : Bf F S10000 .f32) : Bf F S20000x10000 .f32 :=
  addf (Host.dotGeneral dot_S20000x256_S256x10000_S20000x10000_1_0_0_1_n_n none
      (concatenate S20000x256 1 [⟨S20000x128, u⟩, ⟨S20000x128, p⟩] concatenates_S20000x128_S20000x128_S20000x256_d1) W)
    (broadcastInDim S20000x10000 ![0, 1] bcast_S1x10000_S20000x10000_0_1 (broadcastInDim S1x10000 ![1] bcast_S10000_S1x10000_1 b))

/-- The logits less their row maximum. -/
def rShifted (L : Bf F S20000x10000 .f32) : Bf F S20000x10000 .f32 :=
  subf L (broadcastInDim S20000x10000 ![0, 1] bcast_S20000x1_S20000x10000_0_1 (broadcastInDim S20000x1 ![0] bcast_S20000_S20000x1_0
    (maximumf (broadcastInDim S20000 ![] bcast_S_S20000 (constant S_ .f32 0xFF800000#32))
      (Host.reduce FloatOps.maximumf L (constant S_ .f32 0xFF800000#32) reducesTo_S20000x10000_S20000_d1 h_S_))))

/-- The row softmax. -/
def rSoftmax (L : Bf F S20000x10000 .f32) : Bf F S20000x10000 .f32 :=
  Host.divf (Host.exp (rShifted (F := F) L))
    (broadcastInDim S20000x10000 ![0, 1] bcast_S20000x1_S20000x10000_0_1 (broadcastInDim S20000x1 ![0] bcast_S20000_S20000x1_0
      (Host.reduceAdd (Host.exp (rShifted (F := F) L)) (constant S_ .f32 0x00000000#32) reducesTo_S20000x10000_S20000_d1 h_S_)))

/-- The reference's last stage. -/
def rTail (u p : Bf F S20000x128 .f32) (W : Bf F S256x10000 .f32) (b : Bf F S10000 .f32) : Bf F S20000x10000 .f32 :=
  rSoftmax (F := F) (rLogits (F := F) u p W b)

/-! ## The towers' features and the result, as functions of the arguments -/

/-- The user tower after its first layer. -/
def rU1 (x0 : Bf F S20000 .i32) (x2 : Bf F S2x640000 .i32) (x4 : Bf F S100000x128 .f32) (x6 : Bf F S2x128x128 .f32) (x7 : Bf F S2x128 .f32) :
    Bf F S20000x128 .f32 :=
  rLayer0 (F := F) (rDinv x2) (rMM (rEmbU x0 x4) (rW0 x6)) (rSrc x2) (rDst x2) x7
/-- The user tower after its second layer. -/
def rU2 (x0 : Bf F S20000 .i32) (x2 : Bf F S2x640000 .i32) (x4 : Bf F S100000x128 .f32) (x6 : Bf F S2x128x128 .f32) (x7 : Bf F S2x128 .f32) :
    Bf F S20000x128 .f32 :=
  rLayer1 (F := F) (rDinv x2) (rMM (rU1 x0 x2 x4 x6 x7) (rW1 x6)) (rSrc x2) (rDst x2) x7
/-- The product tower after its first layer. -/
def rP1 (x1 : Bf F S20000 .i32) (x3 : Bf F S2x640000 .i32) (x5 : Bf F S10000x128 .f32) (x8 : Bf F S2x128x128 .f32) (x9 : Bf F S2x128 .f32) :
    Bf F S20000x128 .f32 :=
  rLayer0 (F := F) (rDinv x3) (rMM (rEmbP x1 x5) (rW0 x8)) (rSrc x3) (rDst x3) x9
/-- The product tower after its second layer. -/
def rP2 (x1 : Bf F S20000 .i32) (x3 : Bf F S2x640000 .i32) (x5 : Bf F S10000x128 .f32) (x8 : Bf F S2x128x128 .f32) (x9 : Bf F S2x128 .f32) :
    Bf F S20000x128 .f32 :=
  rLayer1 (F := F) (rDinv x3) (rMM (rP1 x1 x3 x5 x8 x9) (rW1 x8)) (rSrc x3) (rDst x3) x9

end Cert.ReferenceIdeal.RVal

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.LibGatherVec.lean ====
/-
  Reading a gather of single elements out of a vector at one element.

  `gather_vec_apply`: element `e` of a gather of `M` elements out of a vector of length `N`, the positions named by a
  column of `M` words, is the vector's element at word `e`, read signed and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibGatherVec

open Idealize.ShloMosaic Idealize.ShloMosaic.ValueIdx

/-- The element gather's dimension numbers: no offset axes, the operand's one axis collapsed and start-indexed, no
    batching axes, the index vector on axis 1 of the column of words, slices one element wide. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- On the operand's one axis the index read is the clamped start: the word at row `e` of the column read signed, cut
    into `[0, N - 1]`; the axis is collapsed, so there is no batching and no offset coordinate. -/
theorem vecGather_axis0 {N M w : Nat}
    (wf : GatherDims.WF ⟨1, ![N]⟩ ⟨2, ![M, 1]⟩ ⟨1, ![M]⟩ [] [0] [] [0] [] 1 ![1])
    (idx : IVec ⟨2, ![M, 1]⟩ w) (e : Fin M) :
    ((vecGatherDims N M wf).operandIdx (ix1 e) idx 0).val = min (idx (ix2 e (0 : Fin 1))).toInt.toNat (N - 1) := by
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ELEMENT GATHER READ AT `e`: the vector at "word `e`, read signed and clamped into `[0, N - 1]`". -/
theorem gather_vec_apply {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsb : d.startIndicesBatchingDims = []) (hsim : d.startIndexMap = [0]) (hivd : d.indexVectorDim = 1)
    (hss : d.sliceSizes = ![1])
    (x : (⟨1, ![N]⟩ : Shape).Idx → α) (idx : IVec ⟨2, ![M, 1]⟩ w) (e : Fin M) (hN : 0 < N) :
    Host.gather d x idx (ix1 e)
      = x (ix1 (⟨min (idx (ix2 e (0 : Fin 1))).toInt.toNat (N - 1), by omega⟩ : Fin N)) := by
  obtain ⟨od, cd, ob, sb, sm, ivd, ss, wf⟩ := d
  simp only at hoff hcoll hob hsb hsim hivd hss
  subst hoff hcoll hob hsb hsim hivd hss
  show x ((vecGatherDims N M wf).operandIdx (ix1 e) idx) = _
  congr 1
  funext a
  obtain rfl : a = 0 := Subsingleton.elim _ _
  exact Fin.ext (vecGather_axis0 wf idx e)

end Cert.LibGatherVec

end
-- ==== Proof.LibLayer.lean ====
/-
  One graph-convolution layer's aggregation, read at an element at the ideal instance.

  A layer sums, into each node `d`, the messages of the edges whose destination is `d`, with the symmetric
  normalisation `dinv[src] · dinv[dst]`. One program scales the node rows by `dinv` before the segment sum and the
  result rows by `dinv` after it; the other scales each message by both factors. For node `d` and channel `j`:

    dinv d * (0 + ∑ e, if dst e = d then dinv (cl (wsrc e)) * h (cl (wsrc e)) j else 0)
      = 0 + ∑ e, if dst e = d then (dinv (cl (wsrc e)) * dinv (cl (wdst e))) * h (cl (wsrc e)) j else 0

  where `cl` clamps a signed word into `[0, 19999]` (what a gather does to a start index) and `wdst` is `dst` with
  its negative words wrapped by `+20000`. When `dst e = d` as a signed integer, `cl (wdst e) = d` (`wrap_clamp`). The two
  sides are equal because `dinv d` is a nonnegative real (`dinv_ok`): on the extended reals such a factor distributes
  over any finite sum, and multiplication is commutative and associative. Nothing is asked of `h`.
-/
import Idealize.ShloMosaic.PureOps.Ideal
import Idealize.ShloMosaic.PureOps.Ideal.Laws
import Idealize.ShloMosaic.Lib.ValueIdx
import Idealize.ShloMosaic.Lib.StableHlo.Predicate
import proofs.«402708_j47854525612559_3_alg».proof.Proof.LibScatterGather
import proofs.«402708_j47854525612559_3_alg».proof.Proof.LibGatherVec
import proofs.«402708_j47854525612559_3_alg».proof.Proof.Spec

noncomputable section

namespace Cert.Gcn

open Idealize.ShloMosaic Idealize.ShloMosaic.ValueIdx
open Cert.LibScatterGather Cert.LibGatherVec

abbrev SN : Shape := ⟨1, ![20000]⟩
abbrev SNx1 : Shape := ⟨2, ![20000, 1]⟩
abbrev SE : Shape := ⟨1, ![660000]⟩
abbrev SEx1 : Shape := ⟨2, ![660000, 1]⟩
abbrev SExD : Shape := ⟨2, ![660000, 128]⟩
abbrev S0 : Shape := ⟨0, ![]⟩

/-! ## Broadcasts read at an element -/

/-- A scalar broadcast to any shape reads the scalar everywhere. -/
theorem bcast_scalar_apply {α : Type} {t : Shape} (b : S0.BroadcastsInDim t (![] : Fin 0 → Fin t.rank)) (v : S0.Idx → α)
    (j : t.Idx) : broadcastInDim t ![] b v j = v ix0 := by
  unfold broadcastInDim
  congr 1
  funext a
  exact a.elim0

/-- A vector as an `n × 1` column reads, at row `p`, the vector at `p`. -/
theorem bcast_col_apply {α : Type} {n : Nat} (b : (⟨1, ![n]⟩ : Shape).BroadcastsInDim ⟨2, ![n, 1]⟩ ![0])
    (v : (⟨1, ![n]⟩ : Shape).Idx → α) (p : Fin n) :
    broadcastInDim ⟨2, ![n, 1]⟩ ![0] b v (ix2 p (0 : Fin 1)) = v (ix1 p) := by
  unfold broadcastInDim
  congr 1
  funext a
  obtain rfl : a = 0 := Subsingleton.elim _ _
  apply Fin.ext
  have hp := p.isLt
  split
  · next h1 => change n = 1 at h1; show (0 : Nat) = p.val; omega
  · rfl

/-- An `n × 1` column laid across `m` columns reads, at `(p, q)`, the column at row `p`. -/
theorem bcast_of_col_apply {α : Type} {n m : Nat} (b : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] b v (ix2 p q) = v (ix2 p (0 : Fin 1)) := by
  unfold broadcastInDim
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h => exact absurd rfl h

/-- The two together: a vector laid along the rows of an `n × m` array reads, at `(p, q)`, the vector at `p`. -/
theorem bcast_rows_apply {α : Type} {n m : Nat} (b1 : (⟨1, ![n]⟩ : Shape).BroadcastsInDim ⟨2, ![n, 1]⟩ ![0])
    (b2 : (⟨2, ![n, 1]⟩ : Shape).BroadcastsInDim ⟨2, ![n, m]⟩ ![0, 1]) (v : (⟨1, ![n]⟩ : Shape).Idx → α) (p : Fin n) (q : Fin m) :
    broadcastInDim ⟨2, ![n, m]⟩ ![0, 1] b2 (broadcastInDim ⟨2, ![n, 1]⟩ ![0] b1 v) (ix2 p q) = v (ix1 p) := by
  rw [bcast_of_col_apply, bcast_col_apply]

/-! ## The wrapped destination word, clamped -/

/-- A word that equals `d < 20000` as a signed integer is not negative, so the wrap of negative words keeps it, and
    clamping it into `[0, 19999]` changes nothing. -/
theorem wrap_clamp (b0 : S0.BroadcastsInDim SE (![] : Fin 0 → Fin SE.rank)) (s : IVec SE 32) (e : Fin 660000) (d : Fin 20000)
    (h : (s (ix1 e)).toInt = (d.val : ℤ)) :
    min ((select (cmpi .slt s (broadcastInDim SE ![] b0 (constantI S0 32 0#32))) (addi s (broadcastInDim SE ![] b0 (constantI S0 32 20000#32))) s) (ix1 e)).toInt.toNat (20000 - 1) = d.val := by
  have hc : (cmpi .slt s (broadcastInDim SE ![] b0 (constantI S0 32 0#32))) (ix1 e) = 0#1 := by
    show IntOp.cmpi .slt (s (ix1 e)) (broadcastInDim SE ![] b0 (constantI S0 32 0#32) (ix1 e)) = 0#1
    rw [bcast_scalar_apply]
    show BitVec.ofBool ((s (ix1 e)).slt 0#32) = 0#1
    have hlt : (s (ix1 e)).slt 0#32 = false := by
      unfold BitVec.slt
      rw [h]
      simp
    rw [hlt]
    rfl
  rw [select_apply, hc, select_zero, h]
  have := d.isLt
  omega

/-! ## The normalisation factor -/

/-- The factor the programs compute from a degree vector — `1/√deg` where the degree is positive, else `0` — is a
    nonnegative real at every node. -/
theorem dinv_ok (b0 : S0.BroadcastsInDim SN (![] : Fin 0 → Fin SN.rank)) (deg : FVec Ideal SN .f32) (i : SN.Idx) :
    0 ≤ (select (cmpf .ogt deg (broadcastInDim SN ![] b0 (constant S0 .f32 0x00000000#32))) (Host.rsqrt deg) (broadcastInDim SN ![] b0 (id (constant S0 .f32 0x00000000#32)))) i
    ∧ (select (cmpf .ogt deg (broadcastInDim SN ![] b0 (constant S0 .f32 0x00000000#32))) (Host.rsqrt deg) (broadcastInDim SN ![] b0 (id (constant S0 .f32 0x00000000#32)))) i ≠ ⊤ := by
  have hsel : (select (cmpf .ogt deg (broadcastInDim SN ![] b0 (constant S0 .f32 0x00000000#32))) (Host.rsqrt deg)
      (broadcastInDim SN ![] b0 (id (constant S0 .f32 0x00000000#32)))) i
      = Scalar.select (Ideal.cmp .ogt (deg i) 0) (Ideal.rsqrt (deg i)) (0 : EReal) := by
    rw [select_apply, cmpf_apply, Ideal.cmpf_def, id_eq, bcast_scalar_apply, constant_apply, Ideal.ofBits_zero_f32]
    rfl
  rw [hsel]
  exact dinv_nonneg_ne_top (deg i)

/-! ## A nonnegative real factor distributes over a finite sum -/

/-- On the extended reals a factor `0 ≤ a < ⊤` distributes over any finite sum, whatever the terms. -/
theorem mul_sum_of_nonneg_of_ne_top {ι : Type} (s : Finset ι) (a : EReal) (ha : 0 ≤ a) (ha' : a ≠ ⊤) (f : ι → EReal) :
    a * ∑ e ∈ s, f e = ∑ e ∈ s, a * f e := by
  classical
  induction s using Finset.induction_on with
  | empty => simp
  | insert x s hx ih =>
    rw [Finset.sum_insert hx, Finset.sum_insert hx, EReal.left_distrib_of_nonneg_of_ne_top ha ha', ih]

/-! ## The layer's gathers and scatter read at an element -/

/-- A signed word clamped into the node range `[0, 19999]`: the node a gather reads for it. -/
def cl (w : BitVec 32) : Fin 20000 := ⟨min w.toInt.toNat (20000 - 1), by omega⟩

/-- Row `e` of the gather of node rows by a column of edge words is the row of the clamped word. -/
theorem gather_rows_col {α : Type}
    (dG : GatherDims SNxD SEx1 SExD) (goff : dG.offsetDims = [1]) (gcoll : dG.collapsedSliceDims = [0]) (gob : dG.operandBatchingDims = [])
    (gsb : dG.startIndicesBatchingDims = []) (gsim : dG.startIndexMap = [0]) (givd : dG.indexVectorDim = 1) (gss : dG.sliceSizes = ![1, 128])
    (bE : SE.BroadcastsInDim SEx1 (![0] : Fin 1 → Fin SEx1.rank))
    (x : SNxD.Idx → α) (s : IVec SE 32) (e : Fin 660000) (j : Fin 128) :
    Host.gather dG x (broadcastInDim SEx1 ![0] bE s) (ix2 e j) = x (ix2 (cl (s (ix1 e))) j) := by
  have hcl : (⟨min (broadcastInDim SEx1 ![0] bE s (ix2 e (0 : Fin 1))).toInt.toNat (20000 - 1), by omega⟩ : Fin 20000)
      = cl (s (ix1 e)) := Fin.ext (by
    show min (broadcastInDim SEx1 ![0] bE s (ix2 e (0 : Fin 1))).toInt.toNat (20000 - 1) = min (s (ix1 e)).toInt.toNat (20000 - 1)
    rw [bcast_col_apply bE s e])
  exact (gather_rows_apply dG goff gcoll gob gsb gsim givd gss x _ e j (by norm_num)).trans
    (congrArg (fun c => x (ix2 c j)) hcl)

/-- Element `e` of the gather of a node vector by a column of edge words is the vector at the clamped word. -/
theorem gather_vec_col {α : Type}
    (dV : GatherDims SN SEx1 SE) (voff : dV.offsetDims = []) (vcoll : dV.collapsedSliceDims = [0]) (vob : dV.operandBatchingDims = [])
    (vsb : dV.startIndicesBatchingDims = []) (vsim : dV.startIndexMap = [0]) (vivd : dV.indexVectorDim = 1) (vss : dV.sliceSizes = ![1])
    (bE : SE.BroadcastsInDim SEx1 (![0] : Fin 1 → Fin SEx1.rank))
    (x : SN.Idx → α) (s : IVec SE 32) (e : Fin 660000) :
    Host.gather dV x (broadcastInDim SEx1 ![0] bE s) (ix1 e) = x (ix1 (cl (s (ix1 e)))) := by
  have hcl : (⟨min (broadcastInDim SEx1 ![0] bE s (ix2 e (0 : Fin 1))).toInt.toNat (20000 - 1), by omega⟩ : Fin 20000)
      = cl (s (ix1 e)) := Fin.ext (by
    show min (broadcastInDim SEx1 ![0] bE s (ix2 e (0 : Fin 1))).toInt.toNat (20000 - 1) = min (s (ix1 e)).toInt.toNat (20000 - 1)
    rw [bcast_col_apply bE s e])
  exact (gather_vec_apply dV voff vcoll vob vsb vsim vivd vss x _ e (by norm_num)).trans
    (congrArg (fun c => x (ix1 c)) hcl)

/-- The segment sum from zero, read at node `d`, channel `j`: the sum over the edges whose destination word is `d` of
    channel `j` of their rows. -/
theorem scatter_rows_col
    (dS : ScatterDims SNxD SEx1 SExD) (huw : dS.updateWindowDims = [1]) (hiw : dS.insertedWindowDims = [0])
    (hsd : dS.scatterDimsToOperandDims = [0]) (hivd : dS.indexVectorDim = 1)
    (bz : S0.BroadcastsInDim SNxD (![] : Fin 0 → Fin SNxD.rank)) (bE : SE.BroadcastsInDim SEx1 (![0] : Fin 1 → Fin SEx1.rank))
    (dst : IVec SE 32) (upd : FVec Ideal SExD .f32) (d : Fin 20000) (j : Fin 128) :
    Host.scatterAdd dS (broadcastInDim SNxD ![] bz (constant S0 .f32 0x00000000#32)) (broadcastInDim SEx1 ![0] bE dst) upd (ix2 d j)
      = ∑ e : Fin 660000, if (dst (ix1 e)).toInt = (d.val : ℤ) then upd (ix2 e j) else 0 := by
  rw [scatterAdd_rows_apply dS huw hiw hsd hivd, bcast_scalar_apply, constant_apply, Ideal.ofBits_zero_f32, zero_add]
  refine Finset.sum_congr rfl fun e _ => ?_
  rw [bcast_col_apply bE dst e]

/-! ## The layer: scaling the rows before and after the segment sum is scaling each message -/

theorem layer_eq
    (dS : ScatterDims SNxD SEx1 SExD) (huw : dS.updateWindowDims = [1]) (hiw : dS.insertedWindowDims = [0])
    (hsd : dS.scatterDimsToOperandDims = [0]) (hivd : dS.indexVectorDim = 1)
    (dG : GatherDims SNxD SEx1 SExD) (goff : dG.offsetDims = [1]) (gcoll : dG.collapsedSliceDims = [0]) (gob : dG.operandBatchingDims = [])
    (gsb : dG.startIndicesBatchingDims = []) (gsim : dG.startIndexMap = [0]) (givd : dG.indexVectorDim = 1) (gss : dG.sliceSizes = ![1, 128])
    (dV : GatherDims SN SEx1 SE) (voff : dV.offsetDims = []) (vcoll : dV.collapsedSliceDims = [0]) (vob : dV.operandBatchingDims = [])
    (vsb : dV.startIndicesBatchingDims = []) (vsim : dV.startIndexMap = [0]) (vivd : dV.indexVectorDim = 1) (vss : dV.sliceSizes = ![1])
    (b1 : SN.BroadcastsInDim SNx1 (![0] : Fin 1 → Fin SNx1.rank)) (b2 : SNx1.BroadcastsInDim SNxD (![0, 1] : Fin 2 → Fin SNxD.rank))
    (bE : SE.BroadcastsInDim SEx1 (![0] : Fin 1 → Fin SEx1.rank)) (bE2 : SEx1.BroadcastsInDim SExD (![0, 1] : Fin 2 → Fin SExD.rank))
    (bz : S0.BroadcastsInDim SNxD (![] : Fin 0 → Fin SNxD.rank))
    (dinv : FVec Ideal SN .f32) (hd : ∀ i, 0 ≤ dinv i ∧ dinv i ≠ ⊤)
    (h : FVec Ideal SNxD .f32) (wsrc wdst dst : IVec SE 32)
    (hw : ∀ (e : Fin 660000) (d : Fin 20000), (dst (ix1 e)).toInt = (d.val : ℤ) → min (wdst (ix1 e)).toInt.toNat (20000 - 1) = d.val) :
    mulf (broadcastInDim SNxD ![0, 1] b2 (broadcastInDim SNx1 ![0] b1 dinv))
        (Host.scatterAdd dS (broadcastInDim SNxD ![] bz (constant S0 .f32 0x00000000#32)) (broadcastInDim SEx1 ![0] bE dst)
          (Host.gather dG (mulf (broadcastInDim SNxD ![0, 1] b2 (broadcastInDim SNx1 ![0] b1 dinv)) h) (broadcastInDim SEx1 ![0] bE wsrc)))
      = Host.scatterAdd dS (broadcastInDim SNxD ![] bz (constant S0 .f32 0x00000000#32)) (broadcastInDim SEx1 ![0] bE dst)
          (mulf (broadcastInDim SExD ![0, 1] bE2 (broadcastInDim SEx1 ![0] bE
              (mulf (Host.gather dV dinv (broadcastInDim SEx1 ![0] bE wsrc)) (Host.gather dV dinv (broadcastInDim SEx1 ![0] bE wdst)))))
            (Host.gather dG h (broadcastInDim SEx1 ![0] bE wsrc))) := by
  funext i
  obtain ⟨d, j, rfl⟩ : ∃ (d : Fin 20000) (j : Fin 128), i = ix2 d j :=
    ⟨⟨(i 0).val, idx2_lt0 i⟩, ⟨(i 1).val, idx2_lt1 i⟩, eq_ix2 i⟩
  -- both sides at node `d`, channel `j`: the factor `dinv d` times a sum over the edges into `d`, and such a sum
  rw [mulf_apply, bcast_rows_apply, scatter_rows_col dS huw hiw hsd hivd bz bE, scatter_rows_col dS huw hiw hsd hivd bz bE,
    mul_sum_of_nonneg_of_ne_top _ _ (hd _).1 (hd _).2]
  refine Finset.sum_congr rfl fun e _ => ?_
  rw [mul_ite, mul_zero]
  by_cases hP : (dst (ix1 e)).toInt = (d.val : ℤ)
  · -- an edge into `d`: its wrapped destination word clamps to `d`, and the three factors commute
    rw [if_pos hP, if_pos hP, gather_rows_col dG goff gcoll gob gsb gsim givd gss bE, mulf_apply, bcast_rows_apply,
      mulf_apply, bcast_rows_apply, mulf_apply, gather_vec_col dV voff vcoll vob vsb vsim vivd vss bE,
      gather_vec_col dV voff vcoll vob vsb vsim vivd vss bE, gather_rows_col dG goff gcoll gob gsb gsim givd gss bE]
    have hc : cl (wdst (ix1 e)) = d := Fin.ext (hw e d hP)
    rw [hc, ← mul_assoc, mul_comm (dinv (ix1 d))]
  · rw [if_neg hP, if_neg hP]

end Cert.Gcn

end
-- ==== Proof.LibTail.lean ====
/-
  The reference's matrix products and its last stage, read at an element at the ideal instance.

  `ref_mm`: a layer's feature product on the host is the matrix product `MM`.
  `ref_logits`: the projection of the two towers' features laid side by side against the whole `256 × 10000` matrix,
  plus the bias, is the logit of Spec — a 256-term sum is the sum of its two 128-term halves.
  `ref_softmax`: the row softmax as the host computes it (the row's maximum from `-∞`, the exponentials of the
  differences, their row sum, the quotient) is `softRow` of the row.
  `slice_halves`: the two row blocks of the projection matrix are its top and bottom halves.
-/
import Idealize.ShloMosaic.PureOps.Ideal
import Idealize.ShloMosaic.PureOps.Ideal.Laws
import Idealize.ShloMosaic.Lib.ValueIdx
import Idealize.ShloMosaic.Lib.Pipeline.Value
import proofs.«402708_j47854525612559_3_alg».proof.Proof.Spec

noncomputable section

namespace Cert.Gcn

open Idealize.ShloMosaic Idealize.ShloMosaic.ValueIdx

/-- A value per node. -/
abbrev TN : Shape := ⟨1, ![20000]⟩
/-- A value per node, as a column. -/
abbrev TNx1 : Shape := ⟨2, ![20000, 1]⟩
/-- A scalar. -/
abbrev T0 : Shape := ⟨0, ![]⟩
/-- The two towers' features side by side. -/
abbrev SNx2D : Shape := ⟨2, ![20000, 256]⟩
/-- The projection's bias, as a row. -/
abbrev S1xP : Shape := ⟨2, ![1, 10000]⟩

/-! ## A rows-by-columns product on the host, read at an element -/

/-- The product of an `M × K` array and a `K × N` array (contracting the first's columns against the second's rows, no
    batch axes) is, at `(r, j)`, the sum over `k` of `x r k · w k j`. -/
theorem dot_plain_apply {M K N : Nat} (dD : DotDims ⟨2, ![M, K]⟩ ⟨2, ![K, N]⟩ ⟨2, ![M, N]⟩)
    (h1 : dD.lhsContracting = [1]) (h2 : dD.rhsContracting = [0]) (h3 : dD.lhsNonContracting = [0])
    (h4 : dD.rhsNonContracting = [1]) (h5 : dD.lhsBatch = []) (h6 : dD.rhsBatch = [])
    (x : FVec Ideal ⟨2, ![M, K]⟩ .f32) (w : FVec Ideal ⟨2, ![K, N]⟩ .f32) (r : Fin M) (j : Fin N) :
    Host.dotGeneral dD none x w (ix2 r j) = ∑ k : Fin K, x (ix2 r k) * w (ix2 k j) := by
  obtain ⟨lc, rc, ln, rn, lb, rb, wf⟩ := dD
  simp only at h1 h2 h3 h4 h5 h6
  subst h1 h2 h3 h4 h5 h6
  simp only [Host.dotGeneral]
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hl : (⟨[1], [0], [0], [1], [], [], wf⟩ : DotDims ⟨2, ![M, K]⟩ ⟨2, ![K, N]⟩ ⟨2, ![M, N]⟩).lhsIdx (ix2 r j)
      ((contrEquiv1 (⟨[1], [0], [0], [1], [], [], wf⟩ : DotDims ⟨2, ![M, K]⟩ ⟨2, ![K, N]⟩ ⟨2, ![M, N]⟩) K rfl rfl).symm k) = ix2 r k := by
    funext a
    match a with
    | ⟨0, _⟩ => exact Fin.ext rfl
    | ⟨1, _⟩ => exact Fin.ext rfl
  have hr : (⟨[1], [0], [0], [1], [], [], wf⟩ : DotDims ⟨2, ![M, K]⟩ ⟨2, ![K, N]⟩ ⟨2, ![M, N]⟩).rhsIdx (ix2 r j)
      ((contrEquiv1 (⟨[1], [0], [0], [1], [], [], wf⟩ : DotDims ⟨2, ![M, K]⟩ ⟨2, ![K, N]⟩ ⟨2, ![M, N]⟩) K rfl rfl).symm k) = ix2 k j := by
    funext a
    match a with
    | ⟨0, _⟩ => exact Fin.ext rfl
    | ⟨1, _⟩ => exact Fin.ext rfl
  rw [hl, hr]

/-- A layer's feature product is the matrix product `MM`. -/
theorem ref_mm (dD : DotDims SNxD SDxD SNxD) (h1 : dD.lhsContracting = [1]) (h2 : dD.rhsContracting = [0]) (h3 : dD.lhsNonContracting = [0]) (h4 : dD.rhsNonContracting = [1]) (h5 : dD.lhsBatch = []) (h6 : dD.rhsBatch = [])
    (x : FVec Ideal SNxD .f32) (w : FVec Ideal SDxD .f32) : Host.dotGeneral dD none x w = MM x w := by
  funext i
  obtain ⟨r, j, rfl⟩ : ∃ (r : Fin 20000) (j : Fin 128), i = ix2 r j :=
    ⟨⟨(i 0).val, idx2_lt0 i⟩, ⟨(i 1).val, idx2_lt1 i⟩, eq_ix2 i⟩
  rw [MM_apply]
  exact dot_plain_apply dD h1 h2 h3 h4 h5 h6 x w r j

/-! ## Broadcasts read at an element -/

/-- A scalar broadcast to any shape reads the scalar everywhere. -/
private theorem bcast_scalar_apply {α : Type} {t : Shape} (b : T0.BroadcastsInDim t (![] : Fin 0 → Fin t.rank)) (v : T0.Idx → α)
    (j : t.Idx) : broadcastInDim t ![] b v j = v ix0 := by
  unfold broadcastInDim
  congr 1
  funext a
  exact a.elim0

/-- A vector laid along the rows of an `n × m` array (through an `n × 1` column) reads, at `(p, q)`, the vector at `p`. -/
private theorem bcast_rows_apply {α : Type} {n m : Nat} (b1 : (⟨1, ![n]⟩ : Shape).BroadcastsInDim ⟨2, ![n, 1]⟩ ![0])
    (b2 : (⟨2, ![n, 1]⟩ : Shape).BroadcastsInDim ⟨2, ![n, m]⟩ ![0, 1]) (v : (⟨1, ![n]⟩ : Shape).Idx → α) (p : Fin n) (q : Fin m) :
    broadcastInDim ⟨2, ![n, m]⟩ ![0, 1] b2 (broadcastInDim ⟨2, ![n, 1]⟩ ![0] b1 v) (ix2 p q) = v (ix1 p) := by
  simp only [broadcastInDim]
  congr 1
  funext a
  obtain rfl : a = 0 := Subsingleton.elim _ _
  apply Fin.ext
  have hp := p.isLt
  split
  · next h1 => change n = 1 at h1; show (0 : Nat) = p.val; omega
  · split
    · next h2 => change n = 1 at h2; show (0 : Nat) = p.val; omega
    · rfl

/-- A vector laid along the columns of an `n × m` array (through a `1 × m` row) reads, at `(p, q)`, the vector at `q`. -/
private theorem bcast_cols_apply {α : Type} {n m : Nat} (b1 : (⟨1, ![m]⟩ : Shape).BroadcastsInDim ⟨2, ![1, m]⟩ ![1])
    (b2 : (⟨2, ![1, m]⟩ : Shape).BroadcastsInDim ⟨2, ![n, m]⟩ ![0, 1]) (v : (⟨1, ![m]⟩ : Shape).Idx → α) (p : Fin n) (q : Fin m) :
    broadcastInDim ⟨2, ![n, m]⟩ ![0, 1] b2 (broadcastInDim ⟨2, ![1, m]⟩ ![1] b1 v) (ix2 p q) = v (ix1 q) := by
  simp only [broadcastInDim]
  congr 1
  funext a
  obtain rfl : a = 0 := Subsingleton.elim _ _
  apply Fin.ext
  have hq := q.isLt
  split
  · next h1 => change m = 1 at h1; show (0 : Nat) = q.val; omega
  · split
    · next h2 => change m = 1 at h2; show (0 : Nat) = q.val; omega
    · rfl

/-! ## The logits: a 256-term dot is the sum of its two 128-term halves -/

/-- A sum over 256 positions is the sum over the first 128 plus the sum over the last 128. -/
theorem sum_halves (f : Fin 256 → EReal) :
    ∑ k : Fin 256, f k = (∑ k : Fin 128, f ⟨k.val, by omega⟩) + ∑ k : Fin 128, f ⟨128 + k.val, by omega⟩ :=
  Fin.sum_univ_add (M := EReal) (a := 128) (b := 128) f

/-- The two towers' features side by side: column `k < 128` of row `r` is the first tower's. -/
theorem concat_left (hc : Shape.Concatenates [SNxD, SNxD] SNx2D 1) (u p : SNxD.Idx → EReal) (r : Fin 20000) (k : Fin 128) :
    concatenate SNx2D 1 [⟨SNxD, u⟩, ⟨SNxD, p⟩] hc (ix2 r (⟨k.val, by omega⟩ : Fin 256)) = u (ix2 r k) :=
  concatenate_pair_apply_left (1 : Fin SNx2D.rank) u p hc (ix2 r (⟨k.val, by omega⟩ : Fin 256)) rfl (ix2 r k) fun b => by
    match b with
    | ⟨0, _⟩ => rfl
    | ⟨1, _⟩ => rfl

/-- … and column `128 + k` is the second tower's column `k`. -/
theorem concat_right (hc : Shape.Concatenates [SNxD, SNxD] SNx2D 1) (u p : SNxD.Idx → EReal) (r : Fin 20000) (k : Fin 128) :
    concatenate SNx2D 1 [⟨SNxD, u⟩, ⟨SNxD, p⟩] hc (ix2 r (⟨128 + k.val, by omega⟩ : Fin 256)) = p (ix2 r k) :=
  concatenate_pair_apply_right (1 : Fin SNx2D.rank) u p hc (ix2 r (⟨128 + k.val, by omega⟩ : Fin 256)) rfl rfl (ix2 r k)
    (fun b hb => by
      match b with
      | ⟨0, _⟩ => rfl
      | ⟨1, _⟩ => exact absurd rfl hb)
    (by show k.val + 128 = 128 + k.val; omega)

/-- The projection of the two towers' features against the whole matrix, plus the bias, is Spec's logit. -/
theorem ref_logits (dD : DotDims SNx2D S2DxP SNxP) (h1 : dD.lhsContracting = [1]) (h2 : dD.rhsContracting = [0]) (h3 : dD.lhsNonContracting = [0]) (h4 : dD.rhsNonContracting = [1]) (h5 : dD.lhsBatch = []) (h6 : dD.rhsBatch = [])
    (hc : Shape.Concatenates [SNxD, SNxD] SNx2D 1) (bb1 : SP.BroadcastsInDim S1xP (![1] : Fin 1 → Fin S1xP.rank)) (bb2 : S1xP.BroadcastsInDim SNxP (![0, 1] : Fin 2 → Fin SNxP.rank))
    (u p : FVec Ideal SNxD .f32) (W : FVec Ideal S2DxP .f32) (b : FVec Ideal SP .f32) (r : Fin 20000) (j : Fin 10000) :
    addf (Host.dotGeneral dD none (concatenate SNx2D 1 [⟨SNxD, u⟩, ⟨SNxD, p⟩] hc) W) (broadcastInDim SNxP ![0, 1] bb2 (broadcastInDim S1xP ![1] bb1 b)) (ix2 r j) = logit u p (topHalf W) (botHalf W) b r j := by
  rw [addf_apply, bcast_cols_apply, dot_plain_apply dD h1 h2 h3 h4 h5 h6, sum_halves]
  unfold logit
  congr 2
  · refine Finset.sum_congr rfl fun k _ => ?_
    rw [concat_left, topHalf_apply]
  · refine Finset.sum_congr rfl fun k _ => ?_
    rw [concat_right, botHalf_apply]

/-! ## The row softmax -/

/-- The bit pattern of `-∞`. -/
theorem ofBits_neg_inf_f32 : Ideal.ofBits .f32 0xFF800000#32 = ⊥ := by simp [Ideal.ofBits, Ideal.ieee]

/-- The host's row maximum from `-∞`, and the maximum of `-∞` and it, is the row's `rowMax`. -/
theorem rowmax_apply (hred : SNxP.ReducesTo [1] TN) (h0 : 0 < T0.numel) (b0 : T0.BroadcastsInDim TN (![] : Fin 0 → Fin TN.rank))
    (L : FVec Ideal SNxP .f32) (r : Fin 20000) :
    (maximumf (broadcastInDim TN ![] b0 (constant T0 .f32 0xFF800000#32))
        (Host.reduce FloatOps.maximumf L (constant T0 .f32 0xFF800000#32) hred h0)) (ix1 r)
      = rowMax (fun j' => L (ix2 r j')) := by
  have hR : SNxP.Reduces [1] TN := ⟨hred.1, Nat.one_pos, hred.2⟩
  have hf : (L ∘ hR.lift (ix1 r)) = fun j' : Fin 10000 => L (ix2 r j') := funext fun k => congrArg L (by
    funext a
    match a with
    | ⟨0, _⟩ => exact Fin.ext rfl
    | ⟨1, _⟩ => exact Fin.ext rfl)
  rw [maximumf_apply, bcast_scalar_apply, constant_apply, ofBits_neg_inf_f32, max_bot_left,
    Host.reduce_eq_fold_single FloatOps.maximumf L _ hred hR h0 (ix1 r), constant_apply, ofBits_neg_inf_f32, hf]
  rfl

/-- The softmax's last three steps over any per-node shift `m`: at `(r, j)` the quotient of `exp (L r j - m r)` by the
    row sum of such exponentials. -/
theorem softmax_core (hred : SNxP.ReducesTo [1] TN) (h0 : 0 < T0.numel)
    (b1 : TN.BroadcastsInDim TNx1 (![0] : Fin 1 → Fin TNx1.rank)) (b2 : TNx1.BroadcastsInDim SNxP (![0, 1] : Fin 2 → Fin SNxP.rank))
    (L : FVec Ideal SNxP .f32) (m : FVec Ideal TN .f32) (r : Fin 20000) (j : Fin 10000) :
    Host.divf (Host.exp (subf L (broadcastInDim SNxP ![0, 1] b2 (broadcastInDim TNx1 ![0] b1 m))))
        (broadcastInDim SNxP ![0, 1] b2 (broadcastInDim TNx1 ![0] b1
          (Host.reduceAdd (Host.exp (subf L (broadcastInDim SNxP ![0, 1] b2 (broadcastInDim TNx1 ![0] b1 m))))
            (constant T0 .f32 0x00000000#32) hred h0)))
        (ix2 r j)
      = Ideal.div (Ideal.exp (L (ix2 r j) - m (ix1 r))) (∑ j' : Fin 10000, Ideal.exp (L (ix2 r j') - m (ix1 r))) := by
  have hR : SNxP.Reduces [1] TN := ⟨hred.1, Nat.one_pos, hred.2⟩
  have hlift : ∀ k : Fin 10000, hR.lift (ix1 r) k = ix2 r k := fun k => by
    funext a
    match a with
    | ⟨0, _⟩ => exact Fin.ext rfl
    | ⟨1, _⟩ => exact Fin.ext rfl
  have hE : ∀ k : Fin 10000, (Host.exp (subf L (broadcastInDim SNxP ![0, 1] b2 (broadcastInDim TNx1 ![0] b1 m)))) (ix2 r k)
      = Ideal.exp (L (ix2 r k) - m (ix1 r)) := fun k => by
    show FloatOps.hostUnary .exp (subf L (broadcastInDim SNxP ![0, 1] b2 (broadcastInDim TNx1 ![0] b1 m)) (ix2 r k)) = _
    rw [Ideal.hostUnary_exp_def, subf_apply, bcast_rows_apply]
  show FloatOps.hostDivf _ _ = _
  rw [Ideal.hostDivf_def, hE j, bcast_rows_apply]
  show Ideal.div _ (Ideal.hostReduceAdd hred _ (constant (F := Ideal) T0 .f32 0x00000000#32 (Shape.Idx.first h0)) (ix1 r)) = _
  rw [Ideal.hostReduceAdd_single hred hR, constant_apply, Ideal.ofBits_zero_f32, zero_add]
  congr 1
  exact Finset.sum_congr rfl fun k _ => by rw [hlift k, hE k]

/-- The host's row softmax is `softRow` of the row. -/
theorem ref_softmax (hred : SNxP.ReducesTo [1] TN) (h0 : 0 < T0.numel) (b0 : T0.BroadcastsInDim TN (![] : Fin 0 → Fin TN.rank)) (b1 : TN.BroadcastsInDim TNx1 (![0] : Fin 1 → Fin TNx1.rank)) (b2 : TNx1.BroadcastsInDim SNxP (![0, 1] : Fin 2 → Fin SNxP.rank))
    (L : FVec Ideal SNxP .f32) (r : Fin 20000) (j : Fin 10000) :
    Host.divf (Host.exp (subf L (broadcastInDim SNxP ![0, 1] b2 (broadcastInDim TNx1 ![0] b1 (maximumf (broadcastInDim TN ![] b0 (constant T0 .f32 0xFF800000#32)) (Host.reduce FloatOps.maximumf L (constant T0 .f32 0xFF800000#32) hred h0))))))
        (broadcastInDim SNxP ![0, 1] b2 (broadcastInDim TNx1 ![0] b1 (Host.reduceAdd (Host.exp (subf L (broadcastInDim SNxP ![0, 1] b2 (broadcastInDim TNx1 ![0] b1 (maximumf (broadcastInDim TN ![] b0 (constant T0 .f32 0xFF800000#32)) (Host.reduce FloatOps.maximumf L (constant T0 .f32 0xFF800000#32) hred h0)))))) (constant T0 .f32 0x00000000#32) hred h0)))
        (ix2 r j) = softRow (fun j' => L (ix2 r j')) j := by
  rw [softmax_core hred h0 b1 b2 L _ r j, rowmax_apply hred h0 b0 L r]
  rfl

/-! ## The projection matrix's two halves -/

/-- The row blocks at offsets 0 and 128 of the `256 × 10000` matrix (a change of format is the identity here) are its top
    and bottom halves. -/
theorem slice_halves (sT : S2DxP.Slices (![0, 0] : Fin 2 → Nat) SDxP) (sB : S2DxP.Slices (![128, 0] : Fin 2 → Nat) SDxP) (hb : FTy.bf16.bits < FTy.f32.bits) (W : FVec Ideal S2DxP .f32) :
    (truncf .bf16 (extractStridedSlice SDxP ![0, 0] W sT) hb : FVec Ideal SDxP .bf16) = topHalf W ∧ (truncf .bf16 (extractStridedSlice SDxP ![128, 0] W sB) hb : FVec Ideal SDxP .bf16) = botHalf W := by
  constructor
  · funext i
    obtain ⟨k, j, rfl⟩ : ∃ (k : Fin 128) (j : Fin 10000), i = ix2 k j :=
      ⟨⟨(i 0).val, idx2_lt0 i⟩, ⟨(i 1).val, idx2_lt1 i⟩, eq_ix2 i⟩
    rw [truncf_apply, topHalf_apply]
    exact extractStridedSlice_apply _ W sT (ix2 k j) (ix2 (⟨k.val, by omega⟩ : Fin 256) j) fun a => by
      match a with
      | ⟨0, _⟩ => show k.val = 0 + k.val; omega
      | ⟨1, _⟩ => show j.val = 0 + j.val; omega
  · funext i
    obtain ⟨k, j, rfl⟩ : ∃ (k : Fin 128) (j : Fin 10000), i = ix2 k j :=
      ⟨⟨(i 0).val, idx2_lt0 i⟩, ⟨(i 1).val, idx2_lt1 i⟩, eq_ix2 i⟩
    rw [truncf_apply, botHalf_apply]
    exact extractStridedSlice_apply _ W sB (ix2 k j) (ix2 (⟨128 + k.val, by omega⟩ : Fin 256) j) fun a => by
      match a with
      | ⟨0, _⟩ => show 128 + k.val = 128 + k.val; rfl
      | ⟨1, _⟩ => show j.val = 0 + j.val; omega

end Cert.Gcn

end
-- ==== Proof.CrossBridge.lean ====
/-
  The two programs' steps are the same functions.

  The lookups, edge lists, degrees, normalisation factors, weight slices and biases are computed by the same operations in
  both programs. The aggregation differs: the kernel's program scales rows by `dinv` before and after the segment sum, the
  reference scales each message by `dinv[src] · dinv[dst]`; they agree because `dinv` is a nonnegative real, which distributes
  over any sum of extended reals. The weight product is the same sum on both sides, and the last stage's 256-term
  contraction is the sum of its two 128-term halves.
-/
import proofs.«402708_j47854525612559_3_alg».proof.Proof.KDefs
import proofs.«402708_j47854525612559_3_alg».proof.Proof.RDefs
import proofs.«402708_j47854525612559_3_alg».proof.Proof.LibLayer
import proofs.«402708_j47854525612559_3_alg».proof.Proof.LibTail
import proofs.«402708_j47854525612559_3_alg».proof.Proof.Spec

set_option maxRecDepth 16384

noncomputable section

namespace Cert.Bridge

open Idealize.ShloMosaic Idealize.ShloMosaic.ValueIdx
open Cert.KernelIdeal.KVal Cert.ReferenceIdeal.RVal

/-! ## What both programs compute by the same operations -/

section Shared
variable {F : FTy → Type} [FloatOps F]

theorem embU_eq (ids : Cert.ReferenceIdeal.RVal.Bf F Cert.ReferenceIdeal.S20000 .i32) (tbl : Cert.ReferenceIdeal.RVal.Bf F Cert.ReferenceIdeal.S100000x128 .f32) :
    kEmbU (F := F) ids tbl = rEmbU (F := F) ids tbl := rfl
theorem embP_eq (ids : Cert.ReferenceIdeal.RVal.Bf F Cert.ReferenceIdeal.S20000 .i32) (tbl : Cert.ReferenceIdeal.RVal.Bf F Cert.ReferenceIdeal.S10000x128 .f32) :
    kEmbP (F := F) ids tbl = rEmbP (F := F) ids tbl := rfl
theorem src_eq (ei : Cert.ReferenceIdeal.RVal.Bf F Cert.ReferenceIdeal.S2x640000 .i32) : kSrc (F := F) ei = rSrc (F := F) ei := rfl
theorem dst_eq (ei : Cert.ReferenceIdeal.RVal.Bf F Cert.ReferenceIdeal.S2x640000 .i32) : kDst (F := F) ei = rDst (F := F) ei := rfl
theorem dinv_eq (ei : Cert.ReferenceIdeal.RVal.Bf F Cert.ReferenceIdeal.S2x640000 .i32) : kDinv (F := F) ei = rDinv (F := F) ei := rfl
theorem w0_eq (w : Cert.ReferenceIdeal.RVal.Bf F Cert.ReferenceIdeal.S2x128x128 .f32) : kW0 (F := F) w = rW0 (F := F) w := rfl
theorem w1_eq (w : Cert.ReferenceIdeal.RVal.Bf F Cert.ReferenceIdeal.S2x128x128 .f32) : kW1 (F := F) w = rW1 (F := F) w := rfl
theorem bias0_eq (b : Cert.ReferenceIdeal.RVal.Bf F Cert.ReferenceIdeal.S2x128 .f32) : kBias0 (F := F) b = rBias0 (F := F) b := rfl
theorem bias1_eq (b : Cert.ReferenceIdeal.RVal.Bf F Cert.ReferenceIdeal.S2x128 .f32) : kBias1 (F := F) b = rBias1 (F := F) b := rfl

end Shared

/-! ## The normalisation factor is a nonnegative real -/

theorem dinv_fact (ei : Cert.ReferenceIdeal.RVal.Bf Ideal Cert.ReferenceIdeal.S2x640000 .i32) (i : Cert.ReferenceIdeal.S20000.Idx) :
    0 ≤ rDinv (F := Ideal) ei i ∧ rDinv (F := Ideal) ei i ≠ ⊤ :=
  Cert.Gcn.dinv_ok Cert.ReferenceIdeal.Facts₀.bcast_S_S20000 (rDeg (F := Ideal) ei) i

/-! ## The aggregation -/

theorem agg_eq (dinv : Cert.ReferenceIdeal.RVal.Bf Ideal Cert.ReferenceIdeal.S20000 .f32) (hd : ∀ i, 0 ≤ dinv i ∧ dinv i ≠ ⊤)
    (h : Cert.ReferenceIdeal.RVal.Bf Ideal Cert.ReferenceIdeal.S20000x128 .f32) (src dst : Cert.ReferenceIdeal.RVal.Bf Ideal Cert.ReferenceIdeal.S660000 .i32) :
    kAgg (F := Ideal) dinv h src dst = rAgg (F := Ideal) dinv h src dst :=
  Cert.Gcn.layer_eq Cert.ReferenceIdeal.scatter_S20000x128_S660000x1_S660000x128_1_0_0_1 rfl rfl rfl rfl
    Cert.ReferenceIdeal.gather_S20000x128_S660000x1_S660000x128_1_0_n_n_0_1_1128 rfl rfl rfl rfl rfl rfl rfl
    Cert.ReferenceIdeal.gather_S20000_S660000x1_S660000_n_0_n_n_0_1_1 rfl rfl rfl rfl rfl rfl rfl
    Cert.KernelIdeal.Facts₀.bcast_S20000_S20000x1_0 Cert.KernelIdeal.Facts₀.bcast_S20000x1_S20000x128_0_1
    Cert.ReferenceIdeal.Facts₀.bcast_S660000_S660000x1_0 Cert.ReferenceIdeal.Facts₀.bcast_S660000x1_S660000x128_0_1 Cert.ReferenceIdeal.Facts₀.bcast_S_S20000x128
    dinv hd h (rWrapW (F := Ideal) src) (rWrapW (F := Ideal) dst) dst
    (fun e d hh => Cert.Gcn.wrap_clamp Cert.ReferenceIdeal.Facts₀.bcast_S_S660000 dst e d hh)

theorem layer0_eq (dinv : Cert.ReferenceIdeal.RVal.Bf Ideal Cert.ReferenceIdeal.S20000 .f32) (hd : ∀ i, 0 ≤ dinv i ∧ dinv i ≠ ⊤)
    (h : Cert.ReferenceIdeal.RVal.Bf Ideal Cert.ReferenceIdeal.S20000x128 .f32) (src dst : Cert.ReferenceIdeal.RVal.Bf Ideal Cert.ReferenceIdeal.S660000 .i32)
    (b : Cert.ReferenceIdeal.RVal.Bf Ideal Cert.ReferenceIdeal.S2x128 .f32) :
    kLayer0 (F := Ideal) dinv h src dst b = rLayer0 (F := Ideal) dinv h src dst b := by
  unfold kLayer0 rLayer0
  rw [agg_eq dinv hd h src dst, bias0_eq]

theorem layer1_eq (dinv : Cert.ReferenceIdeal.RVal.Bf Ideal Cert.ReferenceIdeal.S20000 .f32) (hd : ∀ i, 0 ≤ dinv i ∧ dinv i ≠ ⊤)
    (h : Cert.ReferenceIdeal.RVal.Bf Ideal Cert.ReferenceIdeal.S20000x128 .f32) (src dst : Cert.ReferenceIdeal.RVal.Bf Ideal Cert.ReferenceIdeal.S660000 .i32)
    (b : Cert.ReferenceIdeal.RVal.Bf Ideal Cert.ReferenceIdeal.S2x128 .f32) :
    kLayer1 (F := Ideal) dinv h src dst b = rLayer1 (F := Ideal) dinv h src dst b := by
  unfold kLayer1 rLayer1
  rw [agg_eq dinv hd h src dst, bias1_eq]

/-! ## The weight product -/

theorem mm_eq (x : Cert.ReferenceIdeal.RVal.Bf Ideal Cert.ReferenceIdeal.S20000x128 .f32) (w : Cert.ReferenceIdeal.RVal.Bf Ideal Cert.ReferenceIdeal.S128x128 .f32) :
    Cert.Gcn.MM x w = rMM (F := Ideal) x w :=
  (Cert.Gcn.ref_mm Cert.ReferenceIdeal.dot_S20000x128_S128x128_S20000x128_1_0_0_1_n_n rfl rfl rfl rfl rfl rfl x w).symm

/-! ## The projection and the row softmax -/

theorem tail_eq (u p : Cert.ReferenceIdeal.RVal.Bf Ideal Cert.ReferenceIdeal.S20000x128 .f32) (W : Cert.ReferenceIdeal.RVal.Bf Ideal Cert.ReferenceIdeal.S256x10000 .f32)
    (b : Cert.ReferenceIdeal.RVal.Bf Ideal Cert.ReferenceIdeal.S10000 .f32) :
    Cert.Gcn.Soft u p (kWu (F := Ideal) W) (kWp (F := Ideal) W) b = rTail (F := Ideal) u p W b := by
  have hs := Cert.Gcn.slice_halves Cert.KernelIdeal.Facts₀.slices_S256x10000_S128x10000_0_0 Cert.KernelIdeal.Facts₀.slices_S256x10000_S128x10000_128_0
    Cert.KernelIdeal.Facts₀.bitsLt_bf16_f32 W
  have hu : kWu (F := Ideal) W = Cert.Gcn.topHalf W := hs.1
  have hp : kWp (F := Ideal) W = Cert.Gcn.botHalf W := hs.2
  rw [hu, hp]
  funext i
  obtain ⟨r, j, rfl⟩ : ∃ (r : Fin 20000) (j : Fin 10000), i = ix2 r j := ⟨⟨(i 0).val, idx2_lt0 i⟩, ⟨(i 1).val, idx2_lt1 i⟩, eq_ix2 i⟩
  rw [Cert.Gcn.Soft_apply]
  unfold rTail rSoftmax rShifted
  refine Eq.trans ?_ (Cert.Gcn.ref_softmax Cert.ReferenceIdeal.Facts₀.reducesTo_S20000x10000_S20000_d1 Cert.ReferenceIdeal.Facts₀.h_S_
    Cert.ReferenceIdeal.Facts₀.bcast_S_S20000 Cert.ReferenceIdeal.Facts₀.bcast_S20000_S20000x1_0 Cert.ReferenceIdeal.Facts₀.bcast_S20000x1_S20000x10000_0_1
    (rLogits (F := Ideal) u p W b) r j).symm
  refine congrArg (fun L => Cert.Gcn.softRow L j) (funext fun j' => ?_)
  exact (Cert.Gcn.ref_logits Cert.ReferenceIdeal.dot_S20000x256_S256x10000_S20000x10000_1_0_0_1_n_n rfl rfl rfl rfl rfl rfl
    Cert.ReferenceIdeal.Facts₀.concatenates_S20000x128_S20000x128_S20000x256_d1 Cert.ReferenceIdeal.Facts₀.bcast_S10000_S1x10000_1
    Cert.ReferenceIdeal.Facts₀.bcast_S1x10000_S20000x10000_0_1 u p W b r j').symm

end Cert.Bridge

end
-- ==== Proof.Bridge.lean ====
/-
  The kernel's result and the reference's result are one function of the twelve argument arrays: tower by tower, layer by
  layer, each step of the kernel's program is the reference's step (the module of the steps), and the last stage is the same
  row softmax of the same logits.
-/
import proofs.«402708_j47854525612559_3_alg».proof.Proof.KValue
import proofs.«402708_j47854525612559_3_alg».proof.Proof.CrossBridge

set_option maxRecDepth 16384

noncomputable section

namespace Cert.Bridge

open Idealize.ShloMosaic
open Cert.KernelIdeal.KVal Cert.ReferenceIdeal.RVal

/-- The user tower after one layer. -/
theorem u1_eq (x0 : Cert.ReferenceIdeal.RVal.Bf Ideal Cert.ReferenceIdeal.S20000 .i32) (x2 : Cert.ReferenceIdeal.RVal.Bf Ideal Cert.ReferenceIdeal.S2x640000 .i32) (x4 : Cert.ReferenceIdeal.RVal.Bf Ideal Cert.ReferenceIdeal.S100000x128 .f32)
    (x6 : Cert.ReferenceIdeal.RVal.Bf Ideal Cert.ReferenceIdeal.S2x128x128 .f32) (x7 : Cert.ReferenceIdeal.RVal.Bf Ideal Cert.ReferenceIdeal.S2x128 .f32) :
    kU1 x0 x2 x4 x6 x7 = rU1 (F := Ideal) x0 x2 x4 x6 x7 := by
  unfold kU1 rU1
  rw [embU_eq, w0_eq, dinv_eq, src_eq, dst_eq, mm_eq]
  exact layer0_eq _ (dinv_fact x2) _ _ _ _

/-- The user tower after two layers. -/
theorem u2_eq (x0 : Cert.ReferenceIdeal.RVal.Bf Ideal Cert.ReferenceIdeal.S20000 .i32) (x2 : Cert.ReferenceIdeal.RVal.Bf Ideal Cert.ReferenceIdeal.S2x640000 .i32) (x4 : Cert.ReferenceIdeal.RVal.Bf Ideal Cert.ReferenceIdeal.S100000x128 .f32)
    (x6 : Cert.ReferenceIdeal.RVal.Bf Ideal Cert.ReferenceIdeal.S2x128x128 .f32) (x7 : Cert.ReferenceIdeal.RVal.Bf Ideal Cert.ReferenceIdeal.S2x128 .f32) :
    kU2 x0 x2 x4 x6 x7 = rU2 (F := Ideal) x0 x2 x4 x6 x7 := by
  unfold kU2 rU2
  rw [u1_eq, w1_eq, dinv_eq, src_eq, dst_eq, mm_eq]
  exact layer1_eq _ (dinv_fact x2) _ _ _ _

/-- The product tower after one layer. -/
theorem p1_eq (x1 : Cert.ReferenceIdeal.RVal.Bf Ideal Cert.ReferenceIdeal.S20000 .i32) (x3 : Cert.ReferenceIdeal.RVal.Bf Ideal Cert.ReferenceIdeal.S2x640000 .i32) (x5 : Cert.ReferenceIdeal.RVal.Bf Ideal Cert.ReferenceIdeal.S10000x128 .f32)
    (x8 : Cert.ReferenceIdeal.RVal.Bf Ideal Cert.ReferenceIdeal.S2x128x128 .f32) (x9 : Cert.ReferenceIdeal.RVal.Bf Ideal Cert.ReferenceIdeal.S2x128 .f32) :
    kP1 x1 x3 x5 x8 x9 = rP1 (F := Ideal) x1 x3 x5 x8 x9 := by
  unfold kP1 rP1
  rw [embP_eq, w0_eq, dinv_eq, src_eq, dst_eq, mm_eq]
  exact layer0_eq _ (dinv_fact x3) _ _ _ _

/-- The product tower after two layers. -/
theorem p2_eq (x1 : Cert.ReferenceIdeal.RVal.Bf Ideal Cert.ReferenceIdeal.S20000 .i32) (x3 : Cert.ReferenceIdeal.RVal.Bf Ideal Cert.ReferenceIdeal.S2x640000 .i32) (x5 : Cert.ReferenceIdeal.RVal.Bf Ideal Cert.ReferenceIdeal.S10000x128 .f32)
    (x8 : Cert.ReferenceIdeal.RVal.Bf Ideal Cert.ReferenceIdeal.S2x128x128 .f32) (x9 : Cert.ReferenceIdeal.RVal.Bf Ideal Cert.ReferenceIdeal.S2x128 .f32) :
    kP2 x1 x3 x5 x8 x9 = rP2 (F := Ideal) x1 x3 x5 x8 x9 := by
  unfold kP2 rP2
  rw [p1_eq, w1_eq, dinv_eq, src_eq, dst_eq, mm_eq]
  exact layer1_eq _ (dinv_fact x3) _ _ _ _

/-- THE RESULTS AGREE: the kernel's row softmax over the two halves of the projection is the reference's over the whole. -/
theorem out_eq (x0 x1 : Cert.ReferenceIdeal.RVal.Bf Ideal Cert.ReferenceIdeal.S20000 .i32) (x2 x3 : Cert.ReferenceIdeal.RVal.Bf Ideal Cert.ReferenceIdeal.S2x640000 .i32) (x4 : Cert.ReferenceIdeal.RVal.Bf Ideal Cert.ReferenceIdeal.S100000x128 .f32)
    (x5 : Cert.ReferenceIdeal.RVal.Bf Ideal Cert.ReferenceIdeal.S10000x128 .f32) (x6 : Cert.ReferenceIdeal.RVal.Bf Ideal Cert.ReferenceIdeal.S2x128x128 .f32) (x7 : Cert.ReferenceIdeal.RVal.Bf Ideal Cert.ReferenceIdeal.S2x128 .f32) (x8 : Cert.ReferenceIdeal.RVal.Bf Ideal Cert.ReferenceIdeal.S2x128x128 .f32)
    (x9 : Cert.ReferenceIdeal.RVal.Bf Ideal Cert.ReferenceIdeal.S2x128 .f32) (x10 : Cert.ReferenceIdeal.RVal.Bf Ideal Cert.ReferenceIdeal.S256x10000 .f32) (x11 : Cert.ReferenceIdeal.RVal.Bf Ideal Cert.ReferenceIdeal.S10000 .f32) :
    Cert.Gcn.Soft (kU2 x0 x2 x4 x6 x7) (kP2 x1 x3 x5 x8 x9) (kWu (F := Ideal) x10) (kWp (F := Ideal) x10) x11
      = rTail (F := Ideal) (rU2 x0 x2 x4 x6 x7) (rP2 x1 x3 x5 x8 x9) x10 x11 := by
  rw [u2_eq, p2_eq]
  exact tail_eq _ _ _ _

end Cert.Bridge

end
-- ==== Proof.ROps.lean ====
import proofs.«402708_j47854525612559_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 17 of @main, in order: through main_v13. -/
abbrev rops0 : List (HloOp τ sig (Elt F)) :=
  [ nullary main_c (constantI S_ 32 0#32),
    unary main_c main_v0 (broadcastInDim S20000 ![] bcast_S_S20000 : (⟨S_, .i32⟩ : BufTy).Contents (Elt F) → (⟨S20000, .i32⟩ : BufTy).Contents (Elt F)),
    binary main_arg0 main_v0 main_v1 (cmpi .slt : (⟨S20000, .i32⟩ : BufTy).Contents (Elt F) → (⟨S20000, .i32⟩ : BufTy).Contents (Elt F) → (⟨S20000, .i1⟩ : BufTy).Contents (Elt F)),
    nullary main_c_0 (constantI S_ 32 100000#32),
    unary main_c_0 main_v2 (broadcastInDim S20000 ![] bcast_S_S20000 : (⟨S_, .i32⟩ : BufTy).Contents (Elt F) → (⟨S20000, .i32⟩ : BufTy).Contents (Elt F)),
    binary main_arg0 main_v2 main_v3 (addi : (⟨S20000, .i32⟩ : BufTy).Contents (Elt F) → (⟨S20000, .i32⟩ : BufTy).Contents (Elt F) → (⟨S20000, .i32⟩ : BufTy).Contents (Elt F)),
    ternary main_v1 main_v3 main_arg0 main_v4 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v4 main_v5 (broadcastInDim S20000x1 ![0] bcast_S20000_S20000x1_0 : (⟨S20000, .i32⟩ : BufTy).Contents (Elt F) → (⟨S20000x1, .i32⟩ : BufTy).Contents (Elt F)),
    binary main_arg4 main_v5 main_v6 ((fun x i => Host.gather gather_S100000x128_S20000x1_S20000x128_1_0_n_n_0_1_1128 x i) : (⟨S100000x128, .f32⟩ : BufTy).Contents (Elt F) → (⟨S20000x1, .i32⟩ : BufTy).Contents (Elt F) → (⟨S20000x128, .f32⟩ : BufTy).Contents (Elt F)),
    nullary main_c_1 (constantI S_ 32 0#32),
    unary main_c_1 main_v7 (broadcastInDim S20000 ![] bcast_S_S20000 : (⟨S_, .i32⟩ : BufTy).Contents (Elt F) → (⟨S20000, .i32⟩ : BufTy).Contents (Elt F)),
    binary main_arg1 main_v7 main_v8 (cmpi .slt : (⟨S20000, .i32⟩ : BufTy).Contents (Elt F) → (⟨S20000, .i32⟩ : BufTy).Contents (Elt F) → (⟨S20000, .i1⟩ : BufTy).Contents (Elt F)),
    nullary main_c_2 (constantI S_ 32 10000#32),
    unary main_c_2 main_v9 (broadcastInDim S20000 ![] bcast_S_S20000 : (⟨S_, .i32⟩ : BufTy).Contents (Elt F) → (⟨S20000, .i32⟩ : BufTy).Contents (Elt F)),
    binary main_arg1 main_v9 main_v10 (addi : (⟨S20000, .i32⟩ : BufTy).Contents (Elt F) → (⟨S20000, .i32⟩ : BufTy).Contents (Elt F) → (⟨S20000, .i32⟩ : BufTy).Contents (Elt F)),
    ternary main_v8 main_v10 main_arg1 main_v11 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v11 main_v12 (broadcastInDim S20000x1 ![0] bcast_S20000_S20000x1_0 : (⟨S20000, .i32⟩ : BufTy).Contents (Elt F) → (⟨S20000x1, .i32⟩ : BufTy).Contents (Elt F)),
    binary main_arg5 main_v12 main_v13 ((fun x i => Host.gather gather_S10000x128_S20000x1_S20000x128_1_0_n_n_0_1_1128 x i) : (⟨S10000x128, .f32⟩ : BufTy).Contents (Elt F) → (⟨S20000x1, .i32⟩ : BufTy).Contents (Elt F) → (⟨S20000x128, .f32⟩ : BufTy).Contents (Elt F)) ]

/-- Operations 18 to 81 of @main, in order: through main_v64. -/
abbrev rops1 : List (HloOp τ sig (Elt F)) :=
  [ unary main_arg6 main_v14 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v14 main_v15 rfl shapeCasts_S1x128x128_S128x128,
    unary main_arg7 main_v16 ((extractStridedSlice S1x128 ![0, 0] · slices_S2x128_S1x128_0_0) : (⟨S2x128, .f32⟩ : BufTy).Contents (Elt F) → (⟨S1x128, .f32⟩ : BufTy).Contents (Elt F)),
    reshape main_v16 main_v17 rfl shapeCasts_S1x128_S128,
    binary main_v6 main_v15 main_v18 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_v19 (iotaInDim S20000 32 0),
    unary main_arg2 main_v20 ((extractStridedSlice S1x640000 ![0, 0] · slices_S2x640000_S1x640000_0_0) : (⟨S2x640000, .i32⟩ : BufTy).Contents (Elt F) → (⟨S1x640000, .i32⟩ : BufTy).Contents (Elt F)),
    reshape main_v20 main_v21 rfl shapeCasts_S1x640000_S640000,
    binary main_v21 main_v19 main_v22 ((fun a b => concatenate S660000 0 [⟨S640000, a⟩, ⟨S20000, b⟩] concatenates_S640000_S20000_S660000_d0) : (⟨S640000, .i32⟩ : BufTy).Contents (Elt F) → (⟨S20000, .i32⟩ : BufTy).Contents (Elt F) → (⟨S660000, .i32⟩ : BufTy).Contents (Elt F)),
    unary main_arg2 main_v23 ((extractStridedSlice S1x640000 ![1, 0] · slices_S2x640000_S1x640000_1_0) : (⟨S2x640000, .i32⟩ : BufTy).Contents (Elt F) → (⟨S1x640000, .i32⟩ : BufTy).Contents (Elt F)),
    reshape main_v23 main_v24 rfl shapeCasts_S1x640000_S640000,
    binary main_v24 main_v19 main_v25 ((fun a b => concatenate S660000 0 [⟨S640000, a⟩, ⟨S20000, b⟩] concatenates_S640000_S20000_S660000_d0) : (⟨S640000, .i32⟩ : BufTy).Contents (Elt F) → (⟨S20000, .i32⟩ : BufTy).Contents (Elt F) → (⟨S660000, .i32⟩ : BufTy).Contents (Elt F)),
    nullary main_cst (constant S_ .f32 0x3F800000#32),
    unary main_cst main_v26 (broadcastInDim S660000 ![] bcast_S_S660000 : (⟨S_, .f32⟩ : BufTy).Contents (Elt F) → (⟨S660000, .f32⟩ : BufTy).Contents (Elt F)),
    nullary main_cst_3 (constant S_ .f32 0x00000000#32),
    unary main_cst_3 main_v27 (broadcastInDim S20000 ![] bcast_S_S20000 : (⟨S_, .f32⟩ : BufTy).Contents (Elt F) → (⟨S20000, .f32⟩ : BufTy).Contents (Elt F)),
    unary main_v25 main_v28 (broadcastInDim S660000x1 ![0] bcast_S660000_S660000x1_0 : (⟨S660000, .i32⟩ : BufTy).Contents (Elt F) → (⟨S660000x1, .i32⟩ : BufTy).Contents (Elt F)),
    ternary main_v27 main_v28 main_v26 main_v29 ((fun x i u => Host.scatterAdd scatter_S20000_S660000x1_S660000_n_0_0_1 x i u) : (⟨S20000, .f32⟩ : BufTy).Contents (Elt F) → (⟨S660000x1, .i32⟩ : BufTy).Contents (Elt F) → (⟨S660000, .f32⟩ : BufTy).Contents (Elt F) → (⟨S20000, .f32⟩ : BufTy).Contents (Elt F)),
    nullary main_cst_4 (constant S_ .f32 0x00000000#32),
    unary main_cst_4 main_v30 (broadcastInDim S20000 ![] bcast_S_S20000 : (⟨S_, .f32⟩ : BufTy).Contents (Elt F) → (⟨S20000, .f32⟩ : BufTy).Contents (Elt F)),
    binary main_v29 main_v30 main_v31 (cmpf .ogt : (⟨S20000, .f32⟩ : BufTy).Contents (Elt F) → (⟨S20000, .f32⟩ : BufTy).Contents (Elt F) → (⟨S20000, .i1⟩ : BufTy).Contents (Elt F)),
    unary main_v29 main_v32 (Host.rsqrt : (⟨S20000, .f32⟩ : BufTy).Contents (Elt F) → (⟨S20000, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S20000, .f32⟩) main_call0_v1) (broadcastInDim S20000 ![] bcast_S_S20000),
    TRef.ternary (TRef.of (T := ⟨S20000, .i1⟩) main_v31) (TRef.of (T := ⟨S20000, .f32⟩) main_v32) (TRef.of (T := ⟨S20000, .f32⟩) main_call0_v1) (TRef.of (T := ⟨S20000, .f32⟩) main_v33) select,
    nullary main_c_6 (constantI S_ 32 0#32),
    unary main_c_6 main_v34 (broadcastInDim S660000 ![] bcast_S_S660000 : (⟨S_, .i32⟩ : BufTy).Contents (Elt F) → (⟨S660000, .i32⟩ : BufTy).Contents (Elt F)),
    binary main_v22 main_v34 main_v35 (cmpi .slt : (⟨S660000, .i32⟩ : BufTy).Contents (Elt F) → (⟨S660000, .i32⟩ : BufTy).Contents (Elt F) → (⟨S660000, .i1⟩ : BufTy).Contents (Elt F)),
    nullary main_c_7 (constantI S_ 32 20000#32),
    unary main_c_7 main_v36 (broadcastInDim S660000 ![] bcast_S_S660000 : (⟨S_, .i32⟩ : BufTy).Contents (Elt F) → (⟨S660000, .i32⟩ : BufTy).Contents (Elt F)),
    binary main_v22 main_v36 main_v37 (addi : (⟨S660000, .i32⟩ : BufTy).Contents (Elt F) → (⟨S660000, .i32⟩ : BufTy).Contents (Elt F) → (⟨S660000, .i32⟩ : BufTy).Contents (Elt F)),
    ternary main_v35 main_v37 main_v22 main_v38 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v38 main_v39 (broadcastInDim S660000x1 ![0] bcast_S660000_S660000x1_0 : (⟨S660000, .i32⟩ : BufTy).Contents (Elt F) → (⟨S660000x1, .i32⟩ : BufTy).Contents (Elt F)),
    binary main_v33 main_v39 main_v40 ((fun x i => Host.gather gather_S20000_S660000x1_S660000_n_0_n_n_0_1_1 x i) : (⟨S20000, .f32⟩ : BufTy).Contents (Elt F) → (⟨S660000x1, .i32⟩ : BufTy).Contents (Elt F) → (⟨S660000, .f32⟩ : BufTy).Contents (Elt F)),
    nullary main_c_8 (constantI S_ 32 0#32),
    unary main_c_8 main_v41 (broadcastInDim S660000 ![] bcast_S_S660000 : (⟨S_, .i32⟩ : BufTy).Contents (Elt F) → (⟨S660000, .i32⟩ : BufTy).Contents (Elt F)),
    binary main_v25 main_v41 main_v42 (cmpi .slt : (⟨S660000, .i32⟩ : BufTy).Contents (Elt F) → (⟨S660000, .i32⟩ : BufTy).Contents (Elt F) → (⟨S660000, .i1⟩ : BufTy).Contents (Elt F)),
    nullary main_c_9 (constantI S_ 32 20000#32),
    unary main_c_9 main_v43 (broadcastInDim S660000 ![] bcast_S_S660000 : (⟨S_, .i32⟩ : BufTy).Contents (Elt F) → (⟨S660000, .i32⟩ : BufTy).Contents (Elt F)),
    binary main_v25 main_v43 main_v44 (addi : (⟨S660000, .i32⟩ : BufTy).Contents (Elt F) → (⟨S660000, .i32⟩ : BufTy).Contents (Elt F) → (⟨S660000, .i32⟩ : BufTy).Contents (Elt F)),
    ternary main_v42 main_v44 main_v25 main_v45 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v45 main_v46 (broadcastInDim S660000x1 ![0] bcast_S660000_S660000x1_0 : (⟨S660000, .i32⟩ : BufTy).Contents (Elt F) → (⟨S660000x1, .i32⟩ : BufTy).Contents (Elt F)),
    binary main_v33 main_v46 main_v47 ((fun x i => Host.gather gather_S20000_S660000x1_S660000_n_0_n_n_0_1_1 x i) : (⟨S20000, .f32⟩ : BufTy).Contents (Elt F) → (⟨S660000x1, .i32⟩ : BufTy).Contents (Elt F) → (⟨S660000, .f32⟩ : BufTy).Contents (Elt F)),
    binary main_v40 main_v47 main_v48 (mulf : (⟨S660000, .f32⟩ : BufTy).Contents (Elt F) → (⟨S660000, .f32⟩ : BufTy).Contents (Elt F) → (⟨S660000, .f32⟩ : BufTy).Contents (Elt F)),
    unary main_v48 main_v49 (broadcastInDim S660000x1 ![0] bcast_S660000_S660000x1_0 : (⟨S660000, .f32⟩ : BufTy).Contents (Elt F) → (⟨S660000x1, .f32⟩ : BufTy).Contents (Elt F)),
    nullary main_c_10 (constantI S_ 32 0#32),
    unary main_c_10 main_v50 (broadcastInDim S660000 ![] bcast_S_S660000 : (⟨S_, .i32⟩ : BufTy).Contents (Elt F) → (⟨S660000, .i32⟩ : BufTy).Contents (Elt F)),
    binary main_v22 main_v50 main_v51 (cmpi .slt : (⟨S660000, .i32⟩ : BufTy).Contents (Elt F) → (⟨S660000, .i32⟩ : BufTy).Contents (Elt F) → (⟨S660000, .i1⟩ : BufTy).Contents (Elt F)),
    nullary main_c_11 (constantI S_ 32 20000#32),
    unary main_c_11 main_v52 (broadcastInDim S660000 ![] bcast_S_S660000 : (⟨S_, .i32⟩ : BufTy).Contents (Elt F) → (⟨S660000, .i32⟩ : BufTy).Contents (Elt F)),
    binary main_v22 main_v52 main_v53 (addi : (⟨S660000, .i32⟩ : BufTy).Contents (Elt F) → (⟨S660000, .i32⟩ : BufTy).Contents (Elt F) → (⟨S660000, .i32⟩ : BufTy).Contents (Elt F)),
    ternary main_v51 main_v53 main_v22 main_v54 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v54 main_v55 (broadcastInDim S660000x1 ![0] bcast_S660000_S660000x1_0 : (⟨S660000, .i32⟩ : BufTy).Contents (Elt F) → (⟨S660000x1, .i32⟩ : BufTy).Contents (Elt F)),
    binary main_v18 main_v55 main_v56 ((fun x i => Host.gather gather_S20000x128_S660000x1_S660000x128_1_0_n_n_0_1_1128 x i) : (⟨S20000x128, .f32⟩ : BufTy).Contents (Elt F) → (⟨S660000x1, .i32⟩ : BufTy).Contents (Elt F) → (⟨S660000x128, .f32⟩ : BufTy).Contents (Elt F)),
    unary main_v49 main_v57 (broadcastInDim S660000x128 ![0, 1] bcast_S660000x1_S660000x128_0_1 : (⟨S660000x1, .f32⟩ : BufTy).Contents (Elt F) → (⟨S660000x128, .f32⟩ : BufTy).Contents (Elt F)),
    binary main_v57 main_v56 main_v58 (mulf : (⟨S660000x128, .f32⟩ : BufTy).Contents (Elt F) → (⟨S660000x128, .f32⟩ : BufTy).Contents (Elt F) → (⟨S660000x128, .f32⟩ : BufTy).Contents (Elt F)),
    nullary main_cst_12 (constant S_ .f32 0x00000000#32),
    unary main_cst_12 main_v59 (broadcastInDim S20000x128 ![] bcast_S_S20000x128 : (⟨S_, .f32⟩ : BufTy).Contents (Elt F) → (⟨S20000x128, .f32⟩ : BufTy).Contents (Elt F)),
    unary main_v25 main_v60 (broadcastInDim S660000x1 ![0] bcast_S660000_S660000x1_0 : (⟨S660000, .i32⟩ : BufTy).Contents (Elt F) → (⟨S660000x1, .i32⟩ : BufTy).Contents (Elt F)),
    ternary main_v59 main_v60 main_v58 main_v61 ((fun x i u => Host.scatterAdd scatter_S20000x128_S660000x1_S660000x128_1_0_0_1 x i u) : (⟨S20000x128, .f32⟩ : BufTy).Contents (Elt F) → (⟨S660000x1, .i32⟩ : BufTy).Contents (Elt F) → (⟨S660000x128, .f32⟩ : BufTy).Contents (Elt F) → (⟨S20000x128, .f32⟩ : BufTy).Contents (Elt F)),
    unary main_v17 main_v62 (broadcastInDim S1x128 ![1] bcast_S128_S1x128_1 : (⟨S128, .f32⟩ : BufTy).Contents (Elt F) → (⟨S1x128, .f32⟩ : BufTy).Contents (Elt F)),
    unary main_v62 main_v63 (broadcastInDim S20000x128 ![0, 1] bcast_S1x128_S20000x128_0_1 : (⟨S1x128, .f32⟩ : BufTy).Contents (Elt F) → (⟨S20000x128, .f32⟩ : BufTy).Contents (Elt F)),
    binary main_v61 main_v63 main_v64 (addf : (⟨S20000x128, .f32⟩ : BufTy).Contents (Elt F) → (⟨S20000x128, .f32⟩ : BufTy).Contents (Elt F) → (⟨S20000x128, .f32⟩ : BufTy).Contents (Elt F)) ]

/-- Operations 82 to 145 of @main, in order: through main_v115. -/
abbrev rops2 : List (HloOp τ sig (Elt F)) :=
  [ unary main_arg8 main_v65 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v65 main_v66 rfl shapeCasts_S1x128x128_S128x128,
    unary main_arg9 main_v67 ((extractStridedSlice S1x128 ![0, 0] · slices_S2x128_S1x128_0_0) : (⟨S2x128, .f32⟩ : BufTy).Contents (Elt F) → (⟨S1x128, .f32⟩ : BufTy).Contents (Elt F)),
    reshape main_v67 main_v68 rfl shapeCasts_S1x128_S128,
    binary main_v13 main_v66 main_v69 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_v70 (iotaInDim S20000 32 0),
    unary main_arg3 main_v71 ((extractStridedSlice S1x640000 ![0, 0] · slices_S2x640000_S1x640000_0_0) : (⟨S2x640000, .i32⟩ : BufTy).Contents (Elt F) → (⟨S1x640000, .i32⟩ : BufTy).Contents (Elt F)),
    reshape main_v71 main_v72 rfl shapeCasts_S1x640000_S640000,
    binary main_v72 main_v70 main_v73 ((fun a b => concatenate S660000 0 [⟨S640000, a⟩, ⟨S20000, b⟩] concatenates_S640000_S20000_S660000_d0) : (⟨S640000, .i32⟩ : BufTy).Contents (Elt F) → (⟨S20000, .i32⟩ : BufTy).Contents (Elt F) → (⟨S660000, .i32⟩ : BufTy).Contents (Elt F)),
    unary main_arg3 main_v74 ((extractStridedSlice S1x640000 ![1, 0] · slices_S2x640000_S1x640000_1_0) : (⟨S2x640000, .i32⟩ : BufTy).Contents (Elt F) → (⟨S1x640000, .i32⟩ : BufTy).Contents (Elt F)),
    reshape main_v74 main_v75 rfl shapeCasts_S1x640000_S640000,
    binary main_v75 main_v70 main_v76 ((fun a b => concatenate S660000 0 [⟨S640000, a⟩, ⟨S20000, b⟩] concatenates_S640000_S20000_S660000_d0) : (⟨S640000, .i32⟩ : BufTy).Contents (Elt F) → (⟨S20000, .i32⟩ : BufTy).Contents (Elt F) → (⟨S660000, .i32⟩ : BufTy).Contents (Elt F)),
    nullary main_cst_13 (constant S_ .f32 0x3F800000#32),
    unary main_cst_13 main_v77 (broadcastInDim S660000 ![] bcast_S_S660000 : (⟨S_, .f32⟩ : BufTy).Contents (Elt F) → (⟨S660000, .f32⟩ : BufTy).Contents (Elt F)),
    nullary main_cst_14 (constant S_ .f32 0x00000000#32),
    unary main_cst_14 main_v78 (broadcastInDim S20000 ![] bcast_S_S20000 : (⟨S_, .f32⟩ : BufTy).Contents (Elt F) → (⟨S20000, .f32⟩ : BufTy).Contents (Elt F)),
    unary main_v76 main_v79 (broadcastInDim S660000x1 ![0] bcast_S660000_S660000x1_0 : (⟨S660000, .i32⟩ : BufTy).Contents (Elt F) → (⟨S660000x1, .i32⟩ : BufTy).Contents (Elt F)),
    ternary main_v78 main_v79 main_v77 main_v80 ((fun x i u => Host.scatterAdd scatter_S20000_S660000x1_S660000_n_0_0_1 x i u) : (⟨S20000, .f32⟩ : BufTy).Contents (Elt F) → (⟨S660000x1, .i32⟩ : BufTy).Contents (Elt F) → (⟨S660000, .f32⟩ : BufTy).Contents (Elt F) → (⟨S20000, .f32⟩ : BufTy).Contents (Elt F)),
    nullary main_cst_15 (constant S_ .f32 0x00000000#32),
    unary main_cst_15 main_v81 (broadcastInDim S20000 ![] bcast_S_S20000 : (⟨S_, .f32⟩ : BufTy).Contents (Elt F) → (⟨S20000, .f32⟩ : BufTy).Contents (Elt F)),
    binary main_v80 main_v81 main_v82 (cmpf .ogt : (⟨S20000, .f32⟩ : BufTy).Contents (Elt F) → (⟨S20000, .f32⟩ : BufTy).Contents (Elt F) → (⟨S20000, .i1⟩ : BufTy).Contents (Elt F)),
    unary main_v80 main_v83 (Host.rsqrt : (⟨S20000, .f32⟩ : BufTy).Contents (Elt F) → (⟨S20000, .f32⟩ : BufTy).Contents (Elt F)),
    nullary main_cst_16 (constant S_ .f32 0x00000000#32),
    TRef.unary (TRef.of (T := ⟨S_, .f32⟩) main_cst_16) (TRef.of (T := ⟨S_, .f32⟩) main_call1_v0) id,
    TRef.unary (TRef.of (T := ⟨S_, .f32⟩) main_call1_v0) (TRef.of (T := ⟨S20000, .f32⟩) main_call1_v1) (broadcastInDim S20000 ![] bcast_S_S20000),
    TRef.ternary (TRef.of (T := ⟨S20000, .i1⟩) main_v82) (TRef.of (T := ⟨S20000, .f32⟩) main_v83) (TRef.of (T := ⟨S20000, .f32⟩) main_call1_v1) (TRef.of (T := ⟨S20000, .f32⟩) main_v84) select,
    nullary main_c_17 (constantI S_ 32 0#32),
    unary main_c_17 main_v85 (broadcastInDim S660000 ![] bcast_S_S660000 : (⟨S_, .i32⟩ : BufTy).Contents (Elt F) → (⟨S660000, .i32⟩ : BufTy).Contents (Elt F)),
    binary main_v73 main_v85 main_v86 (cmpi .slt : (⟨S660000, .i32⟩ : BufTy).Contents (Elt F) → (⟨S660000, .i32⟩ : BufTy).Contents (Elt F) → (⟨S660000, .i1⟩ : BufTy).Contents (Elt F)),
    nullary main_c_18 (constantI S_ 32 20000#32),
    unary main_c_18 main_v87 (broadcastInDim S660000 ![] bcast_S_S660000 : (⟨S_, .i32⟩ : BufTy).Contents (Elt F) → (⟨S660000, .i32⟩ : BufTy).Contents (Elt F)),
    binary main_v73 main_v87 main_v88 (addi : (⟨S660000, .i32⟩ : BufTy).Contents (Elt F) → (⟨S660000, .i32⟩ : BufTy).Contents (Elt F) → (⟨S660000, .i32⟩ : BufTy).Contents (Elt F)),
    ternary main_v86 main_v88 main_v73 main_v89 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v89 main_v90 (broadcastInDim S660000x1 ![0] bcast_S660000_S660000x1_0 : (⟨S660000, .i32⟩ : BufTy).Contents (Elt F) → (⟨S660000x1, .i32⟩ : BufTy).Contents (Elt F)),
    binary main_v84 main_v90 main_v91 ((fun x i => Host.gather gather_S20000_S660000x1_S660000_n_0_n_n_0_1_1 x i) : (⟨S20000, .f32⟩ : BufTy).Contents (Elt F) → (⟨S660000x1, .i32⟩ : BufTy).Contents (Elt F) → (⟨S660000, .f32⟩ : BufTy).Contents (Elt F)),
    nullary main_c_19 (constantI S_ 32 0#32),
    unary main_c_19 main_v92 (broadcastInDim S660000 ![] bcast_S_S660000 : (⟨S_, .i32⟩ : BufTy).Contents (Elt F) → (⟨S660000, .i32⟩ : BufTy).Contents (Elt F)),
    binary main_v76 main_v92 main_v93 (cmpi .slt : (⟨S660000, .i32⟩ : BufTy).Contents (Elt F) → (⟨S660000, .i32⟩ : BufTy).Contents (Elt F) → (⟨S660000, .i1⟩ : BufTy).Contents (Elt F)),
    nullary main_c_20 (constantI S_ 32 20000#32),
    unary main_c_20 main_v94 (broadcastInDim S660000 ![] bcast_S_S660000 : (⟨S_, .i32⟩ : BufTy).Contents (Elt F) → (⟨S660000, .i32⟩ : BufTy).Contents (Elt F)),
    binary main_v76 main_v94 main_v95 (addi : (⟨S660000, .i32⟩ : BufTy).Contents (Elt F) → (⟨S660000, .i32⟩ : BufTy).Contents (Elt F) → (⟨S660000, .i32⟩ : BufTy).Contents (Elt F)),
    ternary main_v93 main_v95 main_v76 main_v96 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v96 main_v97 (broadcastInDim S660000x1 ![0] bcast_S660000_S660000x1_0 : (⟨S660000, .i32⟩ : BufTy).Contents (Elt F) → (⟨S660000x1, .i32⟩ : BufTy).Contents (Elt F)),
    binary main_v84 main_v97 main_v98 ((fun x i => Host.gather gather_S20000_S660000x1_S660000_n_0_n_n_0_1_1 x i) : (⟨S20000, .f32⟩ : BufTy).Contents (Elt F) → (⟨S660000x1, .i32⟩ : BufTy).Contents (Elt F) → (⟨S660000, .f32⟩ : BufTy).Contents (Elt F)),
    binary main_v91 main_v98 main_v99 (mulf : (⟨S660000, .f32⟩ : BufTy).Contents (Elt F) → (⟨S660000, .f32⟩ : BufTy).Contents (Elt F) → (⟨S660000, .f32⟩ : BufTy).Contents (Elt F)),
    unary main_v99 main_v100 (broadcastInDim S660000x1 ![0] bcast_S660000_S660000x1_0 : (⟨S660000, .f32⟩ : BufTy).Contents (Elt F) → (⟨S660000x1, .f32⟩ : BufTy).Contents (Elt F)),
    nullary main_c_21 (constantI S_ 32 0#32),
    unary main_c_21 main_v101 (broadcastInDim S660000 ![] bcast_S_S660000 : (⟨S_, .i32⟩ : BufTy).Contents (Elt F) → (⟨S660000, .i32⟩ : BufTy).Contents (Elt F)),
    binary main_v73 main_v101 main_v102 (cmpi .slt : (⟨S660000, .i32⟩ : BufTy).Contents (Elt F) → (⟨S660000, .i32⟩ : BufTy).Contents (Elt F) → (⟨S660000, .i1⟩ : BufTy).Contents (Elt F)),
    nullary main_c_22 (constantI S_ 32 20000#32),
    unary main_c_22 main_v103 (broadcastInDim S660000 ![] bcast_S_S660000 : (⟨S_, .i32⟩ : BufTy).Contents (Elt F) → (⟨S660000, .i32⟩ : BufTy).Contents (Elt F)),
    binary main_v73 main_v103 main_v104 (addi : (⟨S660000, .i32⟩ : BufTy).Contents (Elt F) → (⟨S660000, .i32⟩ : BufTy).Contents (Elt F) → (⟨S660000, .i32⟩ : BufTy).Contents (Elt F)),
    ternary main_v102 main_v104 main_v73 main_v105 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v105 main_v106 (broadcastInDim S660000x1 ![0] bcast_S660000_S660000x1_0 : (⟨S660000, .i32⟩ : BufTy).Contents (Elt F) → (⟨S660000x1, .i32⟩ : BufTy).Contents (Elt F)),
    binary main_v69 main_v106 main_v107 ((fun x i => Host.gather gather_S20000x128_S660000x1_S660000x128_1_0_n_n_0_1_1128 x i) : (⟨S20000x128, .f32⟩ : BufTy).Contents (Elt F) → (⟨S660000x1, .i32⟩ : BufTy).Contents (Elt F) → (⟨S660000x128, .f32⟩ : BufTy).Contents (Elt F)),
    unary main_v100 main_v108 (broadcastInDim S660000x128 ![0, 1] bcast_S660000x1_S660000x128_0_1 : (⟨S660000x1, .f32⟩ : BufTy).Contents (Elt F) → (⟨S660000x128, .f32⟩ : BufTy).Contents (Elt F)),
    binary main_v108 main_v107 main_v109 (mulf : (⟨S660000x128, .f32⟩ : BufTy).Contents (Elt F) → (⟨S660000x128, .f32⟩ : BufTy).Contents (Elt F) → (⟨S660000x128, .f32⟩ : BufTy).Contents (Elt F)),
    nullary main_cst_23 (constant S_ .f32 0x00000000#32),
    unary main_cst_23 main_v110 (broadcastInDim S20000x128 ![] bcast_S_S20000x128 : (⟨S_, .f32⟩ : BufTy).Contents (Elt F) → (⟨S20000x128, .f32⟩ : BufTy).Contents (Elt F)),
    unary main_v76 main_v111 (broadcastInDim S660000x1 ![0] bcast_S660000_S660000x1_0 : (⟨S660000, .i32⟩ : BufTy).Contents (Elt F) → (⟨S660000x1, .i32⟩ : BufTy).Contents (Elt F)),
    ternary main_v110 main_v111 main_v109 main_v112 ((fun x i u => Host.scatterAdd scatter_S20000x128_S660000x1_S660000x128_1_0_0_1 x i u) : (⟨S20000x128, .f32⟩ : BufTy).Contents (Elt F) → (⟨S660000x1, .i32⟩ : BufTy).Contents (Elt F) → (⟨S660000x128, .f32⟩ : BufTy).Contents (Elt F) → (⟨S20000x128, .f32⟩ : BufTy).Contents (Elt F)),
    unary main_v68 main_v113 (broadcastInDim S1x128 ![1] bcast_S128_S1x128_1 : (⟨S128, .f32⟩ : BufTy).Contents (Elt F) → (⟨S1x128, .f32⟩ : BufTy).Contents (Elt F)),
    unary main_v113 main_v114 (broadcastInDim S20000x128 ![0, 1] bcast_S1x128_S20000x128_0_1 : (⟨S1x128, .f32⟩ : BufTy).Contents (Elt F) → (⟨S20000x128, .f32⟩ : BufTy).Contents (Elt F)),
    binary main_v112 main_v114 main_v115 (addf : (⟨S20000x128, .f32⟩ : BufTy).Contents (Elt F) → (⟨S20000x128, .f32⟩ : BufTy).Contents (Elt F) → (⟨S20000x128, .f32⟩ : BufTy).Contents (Elt F)) ]

/-- Operations 146 to 209 of @main, in order: through main_v166. -/
abbrev rops3 : List (HloOp τ sig (Elt F)) :=
  [ unary main_arg6 main_v116 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v116 main_v117 rfl shapeCasts_S1x128x128_S128x128,
    unary main_arg7 main_v118 ((extractStridedSlice S1x128 ![1, 0] · slices_S2x128_S1x128_1_0) : (⟨S2x128, .f32⟩ : BufTy).Contents (Elt F) → (⟨S1x128, .f32⟩ : BufTy).Contents (Elt F)),
    reshape main_v118 main_v119 rfl shapeCasts_S1x128_S128,
    binary main_v64 main_v117 main_v120 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_v121 (iotaInDim S20000 32 0),
    unary main_arg2 main_v122 ((extractStridedSlice S1x640000 ![0, 0] · slices_S2x640000_S1x640000_0_0) : (⟨S2x640000, .i32⟩ : BufTy).Contents (Elt F) → (⟨S1x640000, .i32⟩ : BufTy).Contents (Elt F)),
    reshape main_v122 main_v123 rfl shapeCasts_S1x640000_S640000,
    binary main_v123 main_v121 main_v124 ((fun a b => concatenate S660000 0 [⟨S640000, a⟩, ⟨S20000, b⟩] concatenates_S640000_S20000_S660000_d0) : (⟨S640000, .i32⟩ : BufTy).Contents (Elt F) → (⟨S20000, .i32⟩ : BufTy).Contents (Elt F) → (⟨S660000, .i32⟩ : BufTy).Contents (Elt F)),
    unary main_arg2 main_v125 ((extractStridedSlice S1x640000 ![1, 0] · slices_S2x640000_S1x640000_1_0) : (⟨S2x640000, .i32⟩ : BufTy).Contents (Elt F) → (⟨S1x640000, .i32⟩ : BufTy).Contents (Elt F)),
    reshape main_v125 main_v126 rfl shapeCasts_S1x640000_S640000,
    binary main_v126 main_v121 main_v127 ((fun a b => concatenate S660000 0 [⟨S640000, a⟩, ⟨S20000, b⟩] concatenates_S640000_S20000_S660000_d0) : (⟨S640000, .i32⟩ : BufTy).Contents (Elt F) → (⟨S20000, .i32⟩ : BufTy).Contents (Elt F) → (⟨S660000, .i32⟩ : BufTy).Contents (Elt F)),
    nullary main_cst_24 (constant S_ .f32 0x3F800000#32),
    unary main_cst_24 main_v128 (broadcastInDim S660000 ![] bcast_S_S660000 : (⟨S_, .f32⟩ : BufTy).Contents (Elt F) → (⟨S660000, .f32⟩ : BufTy).Contents (Elt F)),
    nullary main_cst_25 (constant S_ .f32 0x00000000#32),
    unary main_cst_25 main_v129 (broadcastInDim S20000 ![] bcast_S_S20000 : (⟨S_, .f32⟩ : BufTy).Contents (Elt F) → (⟨S20000, .f32⟩ : BufTy).Contents (Elt F)),
    unary main_v127 main_v130 (broadcastInDim S660000x1 ![0] bcast_S660000_S660000x1_0 : (⟨S660000, .i32⟩ : BufTy).Contents (Elt F) → (⟨S660000x1, .i32⟩ : BufTy).Contents (Elt F)),
    ternary main_v129 main_v130 main_v128 main_v131 ((fun x i u => Host.scatterAdd scatter_S20000_S660000x1_S660000_n_0_0_1 x i u) : (⟨S20000, .f32⟩ : BufTy).Contents (Elt F) → (⟨S660000x1, .i32⟩ : BufTy).Contents (Elt F) → (⟨S660000, .f32⟩ : BufTy).Contents (Elt F) → (⟨S20000, .f32⟩ : BufTy).Contents (Elt F)),
    nullary main_cst_26 (constant S_ .f32 0x00000000#32),
    unary main_cst_26 main_v132 (broadcastInDim S20000 ![] bcast_S_S20000 : (⟨S_, .f32⟩ : BufTy).Contents (Elt F) → (⟨S20000, .f32⟩ : BufTy).Contents (Elt F)),
    binary main_v131 main_v132 main_v133 (cmpf .ogt : (⟨S20000, .f32⟩ : BufTy).Contents (Elt F) → (⟨S20000, .f32⟩ : BufTy).Contents (Elt F) → (⟨S20000, .i1⟩ : BufTy).Contents (Elt F)),
    unary main_v131 main_v134 (Host.rsqrt : (⟨S20000, .f32⟩ : BufTy).Contents (Elt F) → (⟨S20000, .f32⟩ : BufTy).Contents (Elt F)),
    nullary main_cst_27 (constant S_ .f32 0x00000000#32),
    TRef.unary (TRef.of (T := ⟨S_, .f32⟩) main_cst_27) (TRef.of (T := ⟨S_, .f32⟩) main_call2_v0) id,
    TRef.unary (TRef.of (T := ⟨S_, .f32⟩) main_call2_v0) (TRef.of (T := ⟨S20000, .f32⟩) main_call2_v1) (broadcastInDim S20000 ![] bcast_S_S20000),
    TRef.ternary (TRef.of (T := ⟨S20000, .i1⟩) main_v133) (TRef.of (T := ⟨S20000, .f32⟩) main_v134) (TRef.of (T := ⟨S20000, .f32⟩) main_call2_v1) (TRef.of (T := ⟨S20000, .f32⟩) main_v135) select,
    nullary main_c_28 (constantI S_ 32 0#32),
    unary main_c_28 main_v136 (broadcastInDim S660000 ![] bcast_S_S660000 : (⟨S_, .i32⟩ : BufTy).Contents (Elt F) → (⟨S660000, .i32⟩ : BufTy).Contents (Elt F)),
    binary main_v124 main_v136 main_v137 (cmpi .slt : (⟨S660000, .i32⟩ : BufTy).Contents (Elt F) → (⟨S660000, .i32⟩ : BufTy).Contents (Elt F) → (⟨S660000, .i1⟩ : BufTy).Contents (Elt F)),
    nullary main_c_29 (constantI S_ 32 20000#32),
    unary main_c_29 main_v138 (broadcastInDim S660000 ![] bcast_S_S660000 : (⟨S_, .i32⟩ : BufTy).Contents (Elt F) → (⟨S660000, .i32⟩ : BufTy).Contents (Elt F)),
    binary main_v124 main_v138 main_v139 (addi : (⟨S660000, .i32⟩ : BufTy).Contents (Elt F) → (⟨S660000, .i32⟩ : BufTy).Contents (Elt F) → (⟨S660000, .i32⟩ : BufTy).Contents (Elt F)),
    ternary main_v137 main_v139 main_v124 main_v140 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v140 main_v141 (broadcastInDim S660000x1 ![0] bcast_S660000_S660000x1_0 : (⟨S660000, .i32⟩ : BufTy).Contents (Elt F) → (⟨S660000x1, .i32⟩ : BufTy).Contents (Elt F)),
    binary main_v135 main_v141 main_v142 ((fun x i => Host.gather gather_S20000_S660000x1_S660000_n_0_n_n_0_1_1 x i) : (⟨S20000, .f32⟩ : BufTy).Contents (Elt F) → (⟨S660000x1, .i32⟩ : BufTy).Contents (Elt F) → (⟨S660000, .f32⟩ : BufTy).Contents (Elt F)),
    nullary main_c_30 (constantI S_ 32 0#32),
    unary main_c_30 main_v143 (broadcastInDim S660000 ![] bcast_S_S660000 : (⟨S_, .i32⟩ : BufTy).Contents (Elt F) → (⟨S660000, .i32⟩ : BufTy).Contents (Elt F)),
    binary main_v127 main_v143 main_v144 (cmpi .slt : (⟨S660000, .i32⟩ : BufTy).Contents (Elt F) → (⟨S660000, .i32⟩ : BufTy).Contents (Elt F) → (⟨S660000, .i1⟩ : BufTy).Contents (Elt F)),
    nullary main_c_31 (constantI S_ 32 20000#32),
    unary main_c_31 main_v145 (broadcastInDim S660000 ![] bcast_S_S660000 : (⟨S_, .i32⟩ : BufTy).Contents (Elt F) → (⟨S660000, .i32⟩ : BufTy).Contents (Elt F)),
    binary main_v127 main_v145 main_v146 (addi : (⟨S660000, .i32⟩ : BufTy).Contents (Elt F) → (⟨S660000, .i32⟩ : BufTy).Contents (Elt F) → (⟨S660000, .i32⟩ : BufTy).Contents (Elt F)),
    ternary main_v144 main_v146 main_v127 main_v147 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v147 main_v148 (broadcastInDim S660000x1 ![0] bcast_S660000_S660000x1_0 : (⟨S660000, .i32⟩ : BufTy).Contents (Elt F) → (⟨S660000x1, .i32⟩ : BufTy).Contents (Elt F)),
    binary main_v135 main_v148 main_v149 ((fun x i => Host.gather gather_S20000_S660000x1_S660000_n_0_n_n_0_1_1 x i) : (⟨S20000, .f32⟩ : BufTy).Contents (Elt F) → (⟨S660000x1, .i32⟩ : BufTy).Contents (Elt F) → (⟨S660000, .f32⟩ : BufTy).Contents (Elt F)),
    binary main_v142 main_v149 main_v150 (mulf : (⟨S660000, .f32⟩ : BufTy).Contents (Elt F) → (⟨S660000, .f32⟩ : BufTy).Contents (Elt F) → (⟨S660000, .f32⟩ : BufTy).Contents (Elt F)),
    unary main_v150 main_v151 (broadcastInDim S660000x1 ![0] bcast_S660000_S660000x1_0 : (⟨S660000, .f32⟩ : BufTy).Contents (Elt F) → (⟨S660000x1, .f32⟩ : BufTy).Contents (Elt F)),
    nullary main_c_32 (constantI S_ 32 0#32),
    unary main_c_32 main_v152 (broadcastInDim S660000 ![] bcast_S_S660000 : (⟨S_, .i32⟩ : BufTy).Contents (Elt F) → (⟨S660000, .i32⟩ : BufTy).Contents (Elt F)),
    binary main_v124 main_v152 main_v153 (cmpi .slt : (⟨S660000, .i32⟩ : BufTy).Contents (Elt F) → (⟨S660000, .i32⟩ : BufTy).Contents (Elt F) → (⟨S660000, .i1⟩ : BufTy).Contents (Elt F)),
    nullary main_c_33 (constantI S_ 32 20000#32),
    unary main_c_33 main_v154 (broadcastInDim S660000 ![] bcast_S_S660000 : (⟨S_, .i32⟩ : BufTy).Contents (Elt F) → (⟨S660000, .i32⟩ : BufTy).Contents (Elt F)),
    binary main_v124 main_v154 main_v155 (addi : (⟨S660000, .i32⟩ : BufTy).Contents (Elt F) → (⟨S660000, .i32⟩ : BufTy).Contents (Elt F) → (⟨S660000, .i32⟩ : BufTy).Contents (Elt F)),
    ternary main_v153 main_v155 main_v124 main_v156 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v156 main_v157 (broadcastInDim S660000x1 ![0] bcast_S660000_S660000x1_0 : (⟨S660000, .i32⟩ : BufTy).Contents (Elt F) → (⟨S660000x1, .i32⟩ : BufTy).Contents (Elt F)),
    binary main_v120 main_v157 main_v158 ((fun x i => Host.gather gather_S20000x128_S660000x1_S660000x128_1_0_n_n_0_1_1128 x i) : (⟨S20000x128, .f32⟩ : BufTy).Contents (Elt F) → (⟨S660000x1, .i32⟩ : BufTy).Contents (Elt F) → (⟨S660000x128, .f32⟩ : BufTy).Contents (Elt F)),
    unary main_v151 main_v159 (broadcastInDim S660000x128 ![0, 1] bcast_S660000x1_S660000x128_0_1 : (⟨S660000x1, .f32⟩ : BufTy).Contents (Elt F) → (⟨S660000x128, .f32⟩ : BufTy).Contents (Elt F)),
    binary main_v159 main_v158 main_v160 (mulf : (⟨S660000x128, .f32⟩ : BufTy).Contents (Elt F) → (⟨S660000x128, .f32⟩ : BufTy).Contents (Elt F) → (⟨S660000x128, .f32⟩ : BufTy).Contents (Elt F)),
    nullary main_cst_34 (constant S_ .f32 0x00000000#32),
    unary main_cst_34 main_v161 (broadcastInDim S20000x128 ![] bcast_S_S20000x128 : (⟨S_, .f32⟩ : BufTy).Contents (Elt F) → (⟨S20000x128, .f32⟩ : BufTy).Contents (Elt F)),
    unary main_v127 main_v162 (broadcastInDim S660000x1 ![0] bcast_S660000_S660000x1_0 : (⟨S660000, .i32⟩ : BufTy).Contents (Elt F) → (⟨S660000x1, .i32⟩ : BufTy).Contents (Elt F)),
    ternary main_v161 main_v162 main_v160 main_v163 ((fun x i u => Host.scatterAdd scatter_S20000x128_S660000x1_S660000x128_1_0_0_1 x i u) : (⟨S20000x128, .f32⟩ : BufTy).Contents (Elt F) → (⟨S660000x1, .i32⟩ : BufTy).Contents (Elt F) → (⟨S660000x128, .f32⟩ : BufTy).Contents (Elt F) → (⟨S20000x128, .f32⟩ : BufTy).Contents (Elt F)),
    unary main_v119 main_v164 (broadcastInDim S1x128 ![1] bcast_S128_S1x128_1 : (⟨S128, .f32⟩ : BufTy).Contents (Elt F) → (⟨S1x128, .f32⟩ : BufTy).Contents (Elt F)),
    unary main_v164 main_v165 (broadcastInDim S20000x128 ![0, 1] bcast_S1x128_S20000x128_0_1 : (⟨S1x128, .f32⟩ : BufTy).Contents (Elt F) → (⟨S20000x128, .f32⟩ : BufTy).Contents (Elt F)),
    binary main_v163 main_v165 main_v166 (addf : (⟨S20000x128, .f32⟩ : BufTy).Contents (Elt F) → (⟨S20000x128, .f32⟩ : BufTy).Contents (Elt F) → (⟨S20000x128, .f32⟩ : BufTy).Contents (Elt F)) ]

/-- Operations 210 to 273 of @main, in order: through main_v217. -/
abbrev rops4 : List (HloOp τ sig (Elt F)) :=
  [ unary main_arg8 main_v167 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v167 main_v168 rfl shapeCasts_S1x128x128_S128x128,
    unary main_arg9 main_v169 ((extractStridedSlice S1x128 ![1, 0] · slices_S2x128_S1x128_1_0) : (⟨S2x128, .f32⟩ : BufTy).Contents (Elt F) → (⟨S1x128, .f32⟩ : BufTy).Contents (Elt F)),
    reshape main_v169 main_v170 rfl shapeCasts_S1x128_S128,
    binary main_v115 main_v168 main_v171 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    nullary main_v172 (iotaInDim S20000 32 0),
    unary main_arg3 main_v173 ((extractStridedSlice S1x640000 ![0, 0] · slices_S2x640000_S1x640000_0_0) : (⟨S2x640000, .i32⟩ : BufTy).Contents (Elt F) → (⟨S1x640000, .i32⟩ : BufTy).Contents (Elt F)),
    reshape main_v173 main_v174 rfl shapeCasts_S1x640000_S640000,
    binary main_v174 main_v172 main_v175 ((fun a b => concatenate S660000 0 [⟨S640000, a⟩, ⟨S20000, b⟩] concatenates_S640000_S20000_S660000_d0) : (⟨S640000, .i32⟩ : BufTy).Contents (Elt F) → (⟨S20000, .i32⟩ : BufTy).Contents (Elt F) → (⟨S660000, .i32⟩ : BufTy).Contents (Elt F)),
    unary main_arg3 main_v176 ((extractStridedSlice S1x640000 ![1, 0] · slices_S2x640000_S1x640000_1_0) : (⟨S2x640000, .i32⟩ : BufTy).Contents (Elt F) → (⟨S1x640000, .i32⟩ : BufTy).Contents (Elt F)),
    reshape main_v176 main_v177 rfl shapeCasts_S1x640000_S640000,
    binary main_v177 main_v172 main_v178 ((fun a b => concatenate S660000 0 [⟨S640000, a⟩, ⟨S20000, b⟩] concatenates_S640000_S20000_S660000_d0) : (⟨S640000, .i32⟩ : BufTy).Contents (Elt F) → (⟨S20000, .i32⟩ : BufTy).Contents (Elt F) → (⟨S660000, .i32⟩ : BufTy).Contents (Elt F)),
    nullary main_cst_35 (constant S_ .f32 0x3F800000#32),
    unary main_cst_35 main_v179 (broadcastInDim S660000 ![] bcast_S_S660000 : (⟨S_, .f32⟩ : BufTy).Contents (Elt F) → (⟨S660000, .f32⟩ : BufTy).Contents (Elt F)),
    nullary main_cst_36 (constant S_ .f32 0x00000000#32),
    unary main_cst_36 main_v180 (broadcastInDim S20000 ![] bcast_S_S20000 : (⟨S_, .f32⟩ : BufTy).Contents (Elt F) → (⟨S20000, .f32⟩ : BufTy).Contents (Elt F)),
    unary main_v178 main_v181 (broadcastInDim S660000x1 ![0] bcast_S660000_S660000x1_0 : (⟨S660000, .i32⟩ : BufTy).Contents (Elt F) → (⟨S660000x1, .i32⟩ : BufTy).Contents (Elt F)),
    ternary main_v180 main_v181 main_v179 main_v182 ((fun x i u => Host.scatterAdd scatter_S20000_S660000x1_S660000_n_0_0_1 x i u) : (⟨S20000, .f32⟩ : BufTy).Contents (Elt F) → (⟨S660000x1, .i32⟩ : BufTy).Contents (Elt F) → (⟨S660000, .f32⟩ : BufTy).Contents (Elt F) → (⟨S20000, .f32⟩ : BufTy).Contents (Elt F)),
    nullary main_cst_37 (constant S_ .f32 0x00000000#32),
    unary main_cst_37 main_v183 (broadcastInDim S20000 ![] bcast_S_S20000 : (⟨S_, .f32⟩ : BufTy).Contents (Elt F) → (⟨S20000, .f32⟩ : BufTy).Contents (Elt F)),
    binary main_v182 main_v183 main_v184 (cmpf .ogt : (⟨S20000, .f32⟩ : BufTy).Contents (Elt F) → (⟨S20000, .f32⟩ : BufTy).Contents (Elt F) → (⟨S20000, .i1⟩ : BufTy).Contents (Elt F)),
    unary main_v182 main_v185 (Host.rsqrt : (⟨S20000, .f32⟩ : BufTy).Contents (Elt F) → (⟨S20000, .f32⟩ : BufTy).Contents (Elt F)),
    nullary main_cst_38 (constant S_ .f32 0x00000000#32),
    TRef.unary (TRef.of (T := ⟨S_, .f32⟩) main_cst_38) (TRef.of (T := ⟨S_, .f32⟩) main_call3_v0) id,
    TRef.unary (TRef.of (T := ⟨S_, .f32⟩) main_call3_v0) (TRef.of (T := ⟨S20000, .f32⟩) main_call3_v1) (broadcastInDim S20000 ![] bcast_S_S20000),
    TRef.ternary (TRef.of (T := ⟨S20000, .i1⟩) main_v184) (TRef.of (T := ⟨S20000, .f32⟩) main_v185) (TRef.of (T := ⟨S20000, .f32⟩) main_call3_v1) (TRef.of (T := ⟨S20000, .f32⟩) main_v186) select,
    nullary main_c_39 (constantI S_ 32 0#32),
    unary main_c_39 main_v187 (broadcastInDim S660000 ![] bcast_S_S660000 : (⟨S_, .i32⟩ : BufTy).Contents (Elt F) → (⟨S660000, .i32⟩ : BufTy).Contents (Elt F)),
    binary main_v175 main_v187 main_v188 (cmpi .slt : (⟨S660000, .i32⟩ : BufTy).Contents (Elt F) → (⟨S660000, .i32⟩ : BufTy).Contents (Elt F) → (⟨S660000, .i1⟩ : BufTy).Contents (Elt F)),
    nullary main_c_40 (constantI S_ 32 20000#32),
    unary main_c_40 main_v189 (broadcastInDim S660000 ![] bcast_S_S660000 : (⟨S_, .i32⟩ : BufTy).Contents (Elt F) → (⟨S660000, .i32⟩ : BufTy).Contents (Elt F)),
    binary main_v175 main_v189 main_v190 (addi : (⟨S660000, .i32⟩ : BufTy).Contents (Elt F) → (⟨S660000, .i32⟩ : BufTy).Contents (Elt F) → (⟨S660000, .i32⟩ : BufTy).Contents (Elt F)),
    ternary main_v188 main_v190 main_v175 main_v191 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v191 main_v192 (broadcastInDim S660000x1 ![0] bcast_S660000_S660000x1_0 : (⟨S660000, .i32⟩ : BufTy).Contents (Elt F) → (⟨S660000x1, .i32⟩ : BufTy).Contents (Elt F)),
    binary main_v186 main_v192 main_v193 ((fun x i => Host.gather gather_S20000_S660000x1_S660000_n_0_n_n_0_1_1 x i) : (⟨S20000, .f32⟩ : BufTy).Contents (Elt F) → (⟨S660000x1, .i32⟩ : BufTy).Contents (Elt F) → (⟨S660000, .f32⟩ : BufTy).Contents (Elt F)),
    nullary main_c_41 (constantI S_ 32 0#32),
    unary main_c_41 main_v194 (broadcastInDim S660000 ![] bcast_S_S660000 : (⟨S_, .i32⟩ : BufTy).Contents (Elt F) → (⟨S660000, .i32⟩ : BufTy).Contents (Elt F)),
    binary main_v178 main_v194 main_v195 (cmpi .slt : (⟨S660000, .i32⟩ : BufTy).Contents (Elt F) → (⟨S660000, .i32⟩ : BufTy).Contents (Elt F) → (⟨S660000, .i1⟩ : BufTy).Contents (Elt F)),
    nullary main_c_42 (constantI S_ 32 20000#32),
    unary main_c_42 main_v196 (broadcastInDim S660000 ![] bcast_S_S660000 : (⟨S_, .i32⟩ : BufTy).Contents (Elt F) → (⟨S660000, .i32⟩ : BufTy).Contents (Elt F)),
    binary main_v178 main_v196 main_v197 (addi : (⟨S660000, .i32⟩ : BufTy).Contents (Elt F) → (⟨S660000, .i32⟩ : BufTy).Contents (Elt F) → (⟨S660000, .i32⟩ : BufTy).Contents (Elt F)),
    ternary main_v195 main_v197 main_v178 main_v198 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v198 main_v199 (broadcastInDim S660000x1 ![0] bcast_S660000_S660000x1_0 : (⟨S660000, .i32⟩ : BufTy).Contents (Elt F) → (⟨S660000x1, .i32⟩ : BufTy).Contents (Elt F)),
    binary main_v186 main_v199 main_v200 ((fun x i => Host.gather gather_S20000_S660000x1_S660000_n_0_n_n_0_1_1 x i) : (⟨S20000, .f32⟩ : BufTy).Contents (Elt F) → (⟨S660000x1, .i32⟩ : BufTy).Contents (Elt F) → (⟨S660000, .f32⟩ : BufTy).Contents (Elt F)),
    binary main_v193 main_v200 main_v201 (mulf : (⟨S660000, .f32⟩ : BufTy).Contents (Elt F) → (⟨S660000, .f32⟩ : BufTy).Contents (Elt F) → (⟨S660000, .f32⟩ : BufTy).Contents (Elt F)),
    unary main_v201 main_v202 (broadcastInDim S660000x1 ![0] bcast_S660000_S660000x1_0 : (⟨S660000, .f32⟩ : BufTy).Contents (Elt F) → (⟨S660000x1, .f32⟩ : BufTy).Contents (Elt F)),
    nullary main_c_43 (constantI S_ 32 0#32),
    unary main_c_43 main_v203 (broadcastInDim S660000 ![] bcast_S_S660000 : (⟨S_, .i32⟩ : BufTy).Contents (Elt F) → (⟨S660000, .i32⟩ : BufTy).Contents (Elt F)),
    binary main_v175 main_v203 main_v204 (cmpi .slt : (⟨S660000, .i32⟩ : BufTy).Contents (Elt F) → (⟨S660000, .i32⟩ : BufTy).Contents (Elt F) → (⟨S660000, .i1⟩ : BufTy).Contents (Elt F)),
    nullary main_c_44 (constantI S_ 32 20000#32),
    unary main_c_44 main_v205 (broadcastInDim S660000 ![] bcast_S_S660000 : (⟨S_, .i32⟩ : BufTy).Contents (Elt F) → (⟨S660000, .i32⟩ : BufTy).Contents (Elt F)),
    binary main_v175 main_v205 main_v206 (addi : (⟨S660000, .i32⟩ : BufTy).Contents (Elt F) → (⟨S660000, .i32⟩ : BufTy).Contents (Elt F) → (⟨S660000, .i32⟩ : BufTy).Contents (Elt F)),
    ternary main_v204 main_v206 main_v175 main_v207 (select : (⟨S660000, .i1⟩ : BufTy).Contents (Elt F) → (⟨S660000, .i32⟩ : BufTy).Contents (Elt F) → (⟨S660000, .i32⟩ : BufTy).Contents (Elt F) → (⟨S660000, .i32⟩ : BufTy).Contents (Elt F)),
    unary main_v207 main_v208 (broadcastInDim S660000x1 ![0] bcast_S660000_S660000x1_0 : (⟨S660000, .i32⟩ : BufTy).Contents (Elt F) → (⟨S660000x1, .i32⟩ : BufTy).Contents (Elt F)),
    binary main_v171 main_v208 main_v209 ((fun x i => Host.gather gather_S20000x128_S660000x1_S660000x128_1_0_n_n_0_1_1128 x i) : (⟨S20000x128, .f32⟩ : BufTy).Contents (Elt F) → (⟨S660000x1, .i32⟩ : BufTy).Contents (Elt F) → (⟨S660000x128, .f32⟩ : BufTy).Contents (Elt F)),
    unary main_v202 main_v210 (broadcastInDim S660000x128 ![0, 1] bcast_S660000x1_S660000x128_0_1 : (⟨S660000x1, .f32⟩ : BufTy).Contents (Elt F) → (⟨S660000x128, .f32⟩ : BufTy).Contents (Elt F)),
    binary main_v210 main_v209 main_v211 (mulf : (⟨S660000x128, .f32⟩ : BufTy).Contents (Elt F) → (⟨S660000x128, .f32⟩ : BufTy).Contents (Elt F) → (⟨S660000x128, .f32⟩ : BufTy).Contents (Elt F)),
    nullary main_cst_45 (constant S_ .f32 0x00000000#32),
    unary main_cst_45 main_v212 (broadcastInDim S20000x128 ![] bcast_S_S20000x128 : (⟨S_, .f32⟩ : BufTy).Contents (Elt F) → (⟨S20000x128, .f32⟩ : BufTy).Contents (Elt F)),
    unary main_v178 main_v213 (broadcastInDim S660000x1 ![0] bcast_S660000_S660000x1_0 : (⟨S660000, .i32⟩ : BufTy).Contents (Elt F) → (⟨S660000x1, .i32⟩ : BufTy).Contents (Elt F)),
    ternary main_v212 main_v213 main_v211 main_v214 ((fun x i u => Host.scatterAdd scatter_S20000x128_S660000x1_S660000x128_1_0_0_1 x i u) : (⟨S20000x128, .f32⟩ : BufTy).Contents (Elt F) → (⟨S660000x1, .i32⟩ : BufTy).Contents (Elt F) → (⟨S660000x128, .f32⟩ : BufTy).Contents (Elt F) → (⟨S20000x128, .f32⟩ : BufTy).Contents (Elt F)),
    unary main_v170 main_v215 (broadcastInDim S1x128 ![1] bcast_S128_S1x128_1 : (⟨S128, .f32⟩ : BufTy).Contents (Elt F) → (⟨S1x128, .f32⟩ : BufTy).Contents (Elt F)),
    unary main_v215 main_v216 (broadcastInDim S20000x128 ![0, 1] bcast_S1x128_S20000x128_0_1 : (⟨S1x128, .f32⟩ : BufTy).Contents (Elt F) → (⟨S20000x128, .f32⟩ : BufTy).Contents (Elt F)),
    binary main_v214 main_v216 main_v217 (addf : (⟨S20000x128, .f32⟩ : BufTy).Contents (Elt F) → (⟨S20000x128, .f32⟩ : BufTy).Contents (Elt F) → (⟨S20000x128, .f32⟩ : BufTy).Contents (Elt F)) ]

/-- Operations 274 to 292 of @main, in order: through main_v233. -/
abbrev rops5 : List (HloOp τ sig (Elt F)) :=
  [ binary main_v166 main_v217 main_v218 ((fun a b => concatenate S20000x256 1 [⟨S20000x128, a⟩, ⟨S20000x128, b⟩] concatenates_S20000x128_S20000x128_S20000x256_d1) : (⟨S20000x128, .f32⟩ : BufTy).Contents (Elt F) → (⟨S20000x128, .f32⟩ : BufTy).Contents (Elt F) → (⟨S20000x256, .f32⟩ : BufTy).Contents (Elt F)),
    binary main_v218 main_arg10 main_v219 ((fun l r => Host.dotGeneral dot_S20000x256_S256x10000_S20000x10000_1_0_0_1_n_n none l r) : (⟨S20000x256, .f32⟩ : BufTy).Contents (Elt F) → (⟨S256x10000, .f32⟩ : BufTy).Contents (Elt F) → (⟨S20000x10000, .f32⟩ : BufTy).Contents (Elt F)),
    unary main_arg11 main_v220 (broadcastInDim S1x10000 ![1] bcast_S10000_S1x10000_1 : (⟨S10000, .f32⟩ : BufTy).Contents (Elt F) → (⟨S1x10000, .f32⟩ : BufTy).Contents (Elt F)),
    unary main_v220 main_v221 (broadcastInDim S20000x10000 ![0, 1] bcast_S1x10000_S20000x10000_0_1 : (⟨S1x10000, .f32⟩ : BufTy).Contents (Elt F) → (⟨S20000x10000, .f32⟩ : BufTy).Contents (Elt F)),
    binary main_v219 main_v221 main_v222 (addf : (⟨S20000x10000, .f32⟩ : BufTy).Contents (Elt F) → (⟨S20000x10000, .f32⟩ : BufTy).Contents (Elt F) → (⟨S20000x10000, .f32⟩ : BufTy).Contents (Elt F)),
    nullary main_cst_46 (constant S_ .f32 0xFF800000#32),
    binary main_v222 main_cst_46 main_v223 ((fun x v => Host.reduce FloatOps.maximumf x v reducesTo_S20000x10000_S20000_d1 h_S_) : (⟨S20000x10000, .f32⟩ : BufTy).Contents (Elt F) → (⟨S_, .f32⟩ : BufTy).Contents (Elt F) → (⟨S20000, .f32⟩ : BufTy).Contents (Elt F)),
    nullary main_cst_47 (constant S_ .f32 0xFF800000#32),
    unary main_cst_47 main_v224 (broadcastInDim S20000 ![] bcast_S_S20000 : (⟨S_, .f32⟩ : BufTy).Contents (Elt F) → (⟨S20000, .f32⟩ : BufTy).Contents (Elt F)),
    binary main_v224 main_v223 main_v225 (maximumf : (⟨S20000, .f32⟩ : BufTy).Contents (Elt F) → (⟨S20000, .f32⟩ : BufTy).Contents (Elt F) → (⟨S20000, .f32⟩ : BufTy).Contents (Elt F)),
    unary main_v225 main_v226 (broadcastInDim S20000x1 ![0] bcast_S20000_S20000x1_0 : (⟨S20000, .f32⟩ : BufTy).Contents (Elt F) → (⟨S20000x1, .f32⟩ : BufTy).Contents (Elt F)),
    unary main_v226 main_v227 (broadcastInDim S20000x10000 ![0, 1] bcast_S20000x1_S20000x10000_0_1 : (⟨S20000x1, .f32⟩ : BufTy).Contents (Elt F) → (⟨S20000x10000, .f32⟩ : BufTy).Contents (Elt F)),
    binary main_v222 main_v227 main_v228 (subf : (⟨S20000x10000, .f32⟩ : BufTy).Contents (Elt F) → (⟨S20000x10000, .f32⟩ : BufTy).Contents (Elt F) → (⟨S20000x10000, .f32⟩ : BufTy).Contents (Elt F)),
    unary main_v228 main_v229 (Host.exp : (⟨S20000x10000, .f32⟩ : BufTy).Contents (Elt F) → (⟨S20000x10000, .f32⟩ : BufTy).Contents (Elt F)),
    nullary main_cst_48 (constant S_ .f32 0x00000000#32),
    binary main_v229 main_cst_48 main_v230 ((fun x v => Host.reduceAdd x v reducesTo_S20000x10000_S20000_d1 h_S_) : (⟨S20000x10000, .f32⟩ : BufTy).Contents (Elt F) → (⟨S_, .f32⟩ : BufTy).Contents (Elt F) → (⟨S20000, .f32⟩ : BufTy).Contents (Elt F)),
    unary main_v230 main_v231 (broadcastInDim S20000x1 ![0] bcast_S20000_S20000x1_0 : (⟨S20000, .f32⟩ : BufTy).Contents (Elt F) → (⟨S20000x1, .f32⟩ : BufTy).Contents (Elt F)),
    unary main_v231 main_v232 (broadcastInDim S20000x10000 ![0, 1] bcast_S20000x1_S20000x10000_0_1 : (⟨S20000x1, .f32⟩ : BufTy).Contents (Elt F) → (⟨S20000x10000, .f32⟩ : BufTy).Contents (Elt F)),
    binary main_v229 main_v232 main_v233 (Host.divf : (⟨S20000x10000, .f32⟩ : BufTy).Contents (Elt F) → (⟨S20000x10000, .f32⟩ : BufTy).Contents (Elt F) → (⟨S20000x10000, .f32⟩ : BufTy).Contents (Elt F)) ]

end Cert.ReferenceIdeal.RRun

end
-- ==== Proof.RWritten.lean ====
import proofs.«402708_j47854525612559_3_alg».proof.Proof.Gen.ReferenceIdeal

namespace Cert.ReferenceIdeal.RRun

open Idealize.ShloMosaic Cert.ReferenceIdeal

/-- The buffers piece 0 of the reference's operations writes, in order (18 operations, through `main_v13`). -/
abbrev written0 : List (Ref sig .tc) := [main_c, main_v0, main_v1, main_c_0, main_v2, main_v3, main_v4, main_v5, main_v6, main_c_1, main_v7, main_v8, main_c_2, main_v9, main_v10, main_v11, main_v12, main_v13]

/-- The buffers piece 1 of the reference's operations writes, in order (64 operations, through `main_v64`). -/
abbrev written1 : List (Ref sig .tc) := [main_v14, main_v15, main_v16, main_v17, main_v18, main_v19, main_v20, main_v21, main_v22, main_v23, main_v24, main_v25, main_cst, main_v26, main_cst_3, main_v27, main_v28, main_v29, main_cst_4, main_v30, main_v31, main_v32, main_cst_5, main_call0_v0, main_call0_v1, main_v33, main_c_6, main_v34, main_v35, main_c_7, main_v36, main_v37, main_v38, main_v39, main_v40, main_c_8, main_v41, main_v42, main_c_9, main_v43, main_v44, main_v45, main_v46, main_v47, main_v48, main_v49, main_c_10, main_v50, main_v51, main_c_11, main_v52, main_v53, main_v54, main_v55, main_v56, main_v57, main_v58, main_cst_12, main_v59, main_v60, main_v61, main_v62, main_v63, main_v64]

/-- The buffers piece 2 of the reference's operations writes, in order (64 operations, through `main_v115`). -/
abbrev written2 : List (Ref sig .tc) := [main_v65, main_v66, main_v67, main_v68, main_v69, main_v70, main_v71, main_v72, main_v73, main_v74, main_v75, main_v76, main_cst_13, main_v77, main_cst_14, main_v78, main_v79, main_v80, main_cst_15, main_v81, main_v82, main_v83, main_cst_16, main_call1_v0, main_call1_v1, main_v84, main_c_17, main_v85, main_v86, main_c_18, main_v87, main_v88, main_v89, main_v90, main_v91, main_c_19, main_v92, main_v93, main_c_20, main_v94, main_v95, main_v96, main_v97, main_v98, main_v99, main_v100, main_c_21, main_v101, main_v102, main_c_22, main_v103, main_v104, main_v105, main_v106, main_v107, main_v108, main_v109, main_cst_23, main_v110, main_v111, main_v112, main_v113, main_v114, main_v115]

/-- The buffers piece 3 of the reference's operations writes, in order (64 operations, through `main_v166`). -/
abbrev written3 : List (Ref sig .tc) := [main_v116, main_v117, main_v118, main_v119, main_v120, main_v121, main_v122, main_v123, main_v124, main_v125, main_v126, main_v127, main_cst_24, main_v128, main_cst_25, main_v129, main_v130, main_v131, main_cst_26, main_v132, main_v133, main_v134, main_cst_27, main_call2_v0, main_call2_v1, main_v135, main_c_28, main_v136, main_v137, main_c_29, main_v138, main_v139, main_v140, main_v141, main_v142, main_c_30, main_v143, main_v144, main_c_31, main_v145, main_v146, main_v147, main_v148, main_v149, main_v150, main_v151, main_c_32, main_v152, main_v153, main_c_33, main_v154, main_v155, main_v156, main_v157, main_v158, main_v159, main_v160, main_cst_34, main_v161, main_v162, main_v163, main_v164, main_v165, main_v166]

/-- The buffers piece 4 of the reference's operations writes, in order (64 operations, through `main_v217`). -/
abbrev written4 : List (Ref sig .tc) := [main_v167, main_v168, main_v169, main_v170, main_v171, main_v172, main_v173, main_v174, main_v175, main_v176, main_v177, main_v178, main_cst_35, main_v179, main_cst_36, main_v180, main_v181, main_v182, main_cst_37, main_v183, main_v184, main_v185, main_cst_38, main_call3_v0, main_call3_v1, main_v186, main_c_39, main_v187, main_v188, main_c_40, main_v189, main_v190, main_v191, main_v192, main_v193, main_c_41, main_v194, main_v195, main_c_42, main_v196, main_v197, main_v198, main_v199, main_v200, main_v201, main_v202, main_c_43, main_v203, main_v204, main_c_44, main_v205, main_v206, main_v207, main_v208, main_v209, main_v210, main_v211, main_cst_45, main_v212, main_v213, main_v214, main_v215, main_v216, main_v217]

/-- The buffers piece 5 of the reference's operations writes, in order (19 operations, through `main_v233`). -/
abbrev written5 : List (Ref sig .tc) := [main_v218, main_v219, main_v220, main_v221, main_v222, main_cst_46, main_v223, main_cst_47, main_v224, main_v225, main_v226, main_v227, main_v228, main_v229, main_cst_48, main_v230, main_v231, main_v232, main_v233]

end Cert.ReferenceIdeal.RRun
-- ==== Proof.RChunks.lean ====
/-
  The reference program's operations, read piece by piece. Its list of host operations is cut in six at the stage
  boundaries: the two embedding lookups; each tower's two graph-convolution layers (the weight slice, the host product, the
  edge lists with the self-loops appended, the degrees, the normalisation factor, the two factor gathers, the message
  product, the sum at the destinations, the bias); and the last stage (the two towers' features side by side against the
  whole projection matrix, the bias, the row softmax). From ANY buffer contents `V` at a piece's entry, the buffer the later
  pieces read holds the piece's named function of the entry contents (`c0_u0` … `c5_out`); a piece writes only its own
  results, so every other buffer holds after it what it held before (`c0_keep` … `c5_keep`).
-/
import proofs.«402708_j47854525612559_3_alg».proof.Proof.ROps
import proofs.«402708_j47854525612559_3_alg».proof.Proof.RDefs
import proofs.«402708_j47854525612559_3_alg».proof.Proof.RWritten

set_option maxRecDepth 16384

noncomputable section

namespace Cert.ReferenceIdeal.RRun

open Cert.ReferenceIdeal Cert.ReferenceIdeal.Gen Cert.ReferenceIdeal.RVal
open Idealize.ShloMosaic Idealize.ShloMosaic.TcCoe Idealize.SL.Sem Idealize.ShloMosaic.StableHlo

/-- What one pass over a stretch of host operations leaves unread inside the operand list of a concatenation: read
    there, one operation at a time. -/
macro "after_rest" : tactic =>
  `(tactic| (repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide))))

variable {F : FTy → Type} [FloatOps F]

/-! ## The two embedding lookups -/

theorem c0_u0 (V : Valuation τ sig (Elt F)) :
    StableHlo.after rops0 V (Proc.devRef .tc main_v6) = rEmbU (F := F) (V (Proc.devRef .tc main_arg0)) (V (Proc.devRef .tc main_arg4)) := by
  dsimp only [rops0]; after_results_simp; after_rest; try simp only [TRef.ofBuf, TRef.toBuf, cast_eq]
  rfl

theorem c0_p0 (V : Valuation τ sig (Elt F)) :
    StableHlo.after rops0 V (Proc.devRef .tc main_v13) = rEmbP (F := F) (V (Proc.devRef .tc main_arg1)) (V (Proc.devRef .tc main_arg5)) := by
  dsimp only [rops0]; after_results_simp; after_rest; try simp only [TRef.ofBuf, TRef.toBuf, cast_eq]
  rfl

/-! ## The user tower's first layer -/

set_option maxHeartbeats 1000000 in
theorem c1_u1 (V : Valuation τ sig (Elt F)) :
    StableHlo.after rops1 V (Proc.devRef .tc main_v64) = rLayer0 (F := F) (rDinv (V (Proc.devRef .tc main_arg2))) (rMM (V (Proc.devRef .tc main_v6)) (rW0 (V (Proc.devRef .tc main_arg6)))) (rSrc (V (Proc.devRef .tc main_arg2))) (rDst (V (Proc.devRef .tc main_arg2))) (V (Proc.devRef .tc main_arg7)) := by
  dsimp only [rops1]; after_results_simp; after_rest; try simp only [TRef.ofBuf, TRef.toBuf, cast_eq]
  rfl

/-! ## The product tower's first layer -/

set_option maxHeartbeats 1000000 in
theorem c2_p1 (V : Valuation τ sig (Elt F)) :
    StableHlo.after rops2 V (Proc.devRef .tc main_v115) = rLayer0 (F := F) (rDinv (V (Proc.devRef .tc main_arg3))) (rMM (V (Proc.devRef .tc main_v13)) (rW0 (V (Proc.devRef .tc main_arg8)))) (rSrc (V (Proc.devRef .tc main_arg3))) (rDst (V (Proc.devRef .tc main_arg3))) (V (Proc.devRef .tc main_arg9)) := by
  dsimp only [rops2]; after_results_simp; after_rest; try simp only [TRef.ofBuf, TRef.toBuf, cast_eq]
  rfl

/-! ## The user tower's second layer -/

set_option maxHeartbeats 1000000 in
theorem c3_u2 (V : Valuation τ sig (Elt F)) :
    StableHlo.after rops3 V (Proc.devRef .tc main_v166) = rLayer1 (F := F) (rDinv (V (Proc.devRef .tc main_arg2))) (rMM (V (Proc.devRef .tc main_v64)) (rW1 (V (Proc.devRef .tc main_arg6)))) (rSrc (V (Proc.devRef .tc main_arg2))) (rDst (V (Proc.devRef .tc main_arg2))) (V (Proc.devRef .tc main_arg7)) := by
  dsimp only [rops3]; after_results_simp; after_rest; try simp only [TRef.ofBuf, TRef.toBuf, cast_eq]
  rfl

/-! ## The product tower's second layer -/

set_option maxHeartbeats 1000000 in
theorem c4_p2 (V : Valuation τ sig (Elt F)) :
    StableHlo.after rops4 V (Proc.devRef .tc main_v217) = rLayer1 (F := F) (rDinv (V (Proc.devRef .tc main_arg3))) (rMM (V (Proc.devRef .tc main_v115)) (rW1 (V (Proc.devRef .tc main_arg8)))) (rSrc (V (Proc.devRef .tc main_arg3))) (rDst (V (Proc.devRef .tc main_arg3))) (V (Proc.devRef .tc main_arg9)) := by
  dsimp only [rops4]; after_results_simp; after_rest; try simp only [TRef.ofBuf, TRef.toBuf, cast_eq]
  rfl

/-! ## The last stage: the projection and the row softmax -/

theorem c5_out (V : Valuation τ sig (Elt F)) :
    StableHlo.after rops5 V (Proc.devRef .tc main_v233) = rTail (F := F) (V (Proc.devRef .tc main_v166)) (V (Proc.devRef .tc main_v217)) (V (Proc.devRef .tc main_arg10)) (V (Proc.devRef .tc main_arg11)) := by
  dsimp only [rops5]; after_results_simp; after_rest; try simp only [TRef.ofBuf, TRef.toBuf, cast_eq]
  rfl

/-! ## What a piece leaves alone -/

/-- Every operation of piece 0 writes a buffer of its list. -/
theorem rops0_writes : (rops0 : List (HloOp τ sig (Elt F))).Forall fun op => op.writes ⊆ ((written0).map (Proc.devRef (τ := τ) .tc)).toFinset := by
  simp only [rops0, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer piece 0 does not write holds after it what it held before. -/
theorem c0_keep (V : Valuation τ sig (Elt F)) (r : Ref sig .tc) (hr : r ∉ written0) :
    StableHlo.after rops0 V (Proc.devRef .tc r) = V (Proc.devRef .tc r) :=
  StableHlo.after_of_writes_sub rops0 _ rops0_writes hr

/-- Every operation of piece 1 writes a buffer of its list. -/
theorem rops1_writes : (rops1 : List (HloOp τ sig (Elt F))).Forall fun op => op.writes ⊆ ((written1).map (Proc.devRef (τ := τ) .tc)).toFinset := by
  simp only [rops1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer piece 1 does not write holds after it what it held before. -/
theorem c1_keep (V : Valuation τ sig (Elt F)) (r : Ref sig .tc) (hr : r ∉ written1) :
    StableHlo.after rops1 V (Proc.devRef .tc r) = V (Proc.devRef .tc r) :=
  StableHlo.after_of_writes_sub rops1 _ rops1_writes hr

/-- Every operation of piece 2 writes a buffer of its list. -/
theorem rops2_writes : (rops2 : List (HloOp τ sig (Elt F))).Forall fun op => op.writes ⊆ ((written2).map (Proc.devRef (τ := τ) .tc)).toFinset := by
  simp only [rops2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer piece 2 does not write holds after it what it held before. -/
theorem c2_keep (V : Valuation τ sig (Elt F)) (r : Ref sig .tc) (hr : r ∉ written2) :
    StableHlo.after rops2 V (Proc.devRef .tc r) = V (Proc.devRef .tc r) :=
  StableHlo.after_of_writes_sub rops2 _ rops2_writes hr

/-- Every operation of piece 3 writes a buffer of its list. -/
theorem rops3_writes : (rops3 : List (HloOp τ sig (Elt F))).Forall fun op => op.writes ⊆ ((written3).map (Proc.devRef (τ := τ) .tc)).toFinset := by
  simp only [rops3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer piece 3 does not write holds after it what it held before. -/
theorem c3_keep (V : Valuation τ sig (Elt F)) (r : Ref sig .tc) (hr : r ∉ written3) :
    StableHlo.after rops3 V (Proc.devRef .tc r) = V (Proc.devRef .tc r) :=
  StableHlo.after_of_writes_sub rops3 _ rops3_writes hr

/-- Every operation of piece 4 writes a buffer of its list. -/
theorem rops4_writes : (rops4 : List (HloOp τ sig (Elt F))).Forall fun op => op.writes ⊆ ((written4).map (Proc.devRef (τ := τ) .tc)).toFinset := by
  simp only [rops4, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer piece 4 does not write holds after it what it held before. -/
theorem c4_keep (V : Valuation τ sig (Elt F)) (r : Ref sig .tc) (hr : r ∉ written4) :
    StableHlo.after rops4 V (Proc.devRef .tc r) = V (Proc.devRef .tc r) :=
  StableHlo.after_of_writes_sub rops4 _ rops4_writes hr

/-- Every operation of piece 5 writes a buffer of its list. -/
theorem rops5_writes : (rops5 : List (HloOp τ sig (Elt F))).Forall fun op => op.writes ⊆ ((written5).map (Proc.devRef (τ := τ) .tc)).toFinset := by
  simp only [rops5, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer piece 5 does not write holds after it what it held before. -/
theorem c5_keep (V : Valuation τ sig (Elt F)) (r : Ref sig .tc) (hr : r ∉ written5) :
    StableHlo.after rops5 V (Proc.devRef .tc r) = V (Proc.devRef .tc r) :=
  StableHlo.after_of_writes_sub rops5 _ rops5_writes hr

end Cert.ReferenceIdeal.RRun

end
-- ==== Proof.RRun.lean ====
/-
  The reference program's run, read through its six pieces.

  The reference's @main is a straight line of host operations. Cut in six consecutive pieces, each piece is read on its own:
  the two embedding lookups; each tower's first layer; each tower's second layer; the projection and the row softmax. A
  buffer a piece does not write keeps its contents through it, so the pieces compose: the result buffer ends at the last
  stage of the two towers' second-layer features, each tower's features built from its own arguments alone, and every
  argument ends as launched.
-/
import proofs.«402708_j47854525612559_3_alg».proof.Proof.ROps
import proofs.«402708_j47854525612559_3_alg».proof.Proof.RDefs
import proofs.«402708_j47854525612559_3_alg».proof.Proof.RChunks
import Idealize.ShloMosaic.Lib.Pipeline.Frame

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.ReferenceIdeal.RVal

variable {F : FTy → Type} [FloatOps F]

/-- A TensorCore reference as a device buffer. -/
local notation "D " b:max => Proc.devRef (Proc.tc) b

/-! ## The program is its operations, in order -/

/-- The six pieces, in order: the reference's whole line of operations. -/
abbrev ropsAll : List (HloOp τ sig (Elt F)) := rops0 ++ (rops1 ++ (rops2 ++ (rops3 ++ (rops4 ++ rops5))))

set_option maxRecDepth 8192 in
set_option maxHeartbeats 4000000 in
/-- @main is the line of its operations. -/
theorem main_eq (c : Dev nD) : main (F := F) c = seq (ropsAll (F := F)) := rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, piece by piece. -/

theorem rops0_sub : (rops0 : List (HloOp τ sig (Elt F))).Forall fun op => op.bufs ⊆ tcRefs τ sig := by
  simp only [rops0, List.Forall, nullary_bufs_sub, unary_bufs_sub, binary_bufs_sub, ternary_bufs_sub, reshape_bufs_sub, and_self]
theorem rops1_sub : (rops1 : List (HloOp τ sig (Elt F))).Forall fun op => op.bufs ⊆ tcRefs τ sig := by
  simp only [rops1, List.Forall, nullary_bufs_sub, unary_bufs_sub, binary_bufs_sub, ternary_bufs_sub, reshape_bufs_sub, and_self]
theorem rops2_sub : (rops2 : List (HloOp τ sig (Elt F))).Forall fun op => op.bufs ⊆ tcRefs τ sig := by
  simp only [rops2, List.Forall, nullary_bufs_sub, unary_bufs_sub, binary_bufs_sub, ternary_bufs_sub, reshape_bufs_sub, and_self]
theorem rops3_sub : (rops3 : List (HloOp τ sig (Elt F))).Forall fun op => op.bufs ⊆ tcRefs τ sig := by
  simp only [rops3, List.Forall, nullary_bufs_sub, unary_bufs_sub, binary_bufs_sub, ternary_bufs_sub, reshape_bufs_sub, and_self]
theorem rops4_sub : (rops4 : List (HloOp τ sig (Elt F))).Forall fun op => op.bufs ⊆ tcRefs τ sig := by
  simp only [rops4, List.Forall, nullary_bufs_sub, unary_bufs_sub, binary_bufs_sub, ternary_bufs_sub, reshape_bufs_sub, and_self]
theorem rops5_sub : (rops5 : List (HloOp τ sig (Elt F))).Forall fun op => op.bufs ⊆ tcRefs τ sig := by
  simp only [rops5, List.Forall, nullary_bufs_sub, unary_bufs_sub, binary_bufs_sub, ternary_bufs_sub, reshape_bufs_sub, and_self]

theorem ropsAll_sub : (ropsAll : List (HloOp τ sig (Elt F))).Forall fun op => op.bufs ⊆ tcRefs τ sig := by
  simp only [ropsAll, List.forall_append]
  exact ⟨rops0_sub, rops1_sub, rops2_sub, rops3_sub, rops4_sub, rops5_sub⟩

/-! No operation allocates a buffer, piece by piece. -/

theorem rops0_fresh : (rops0 : List (HloOp τ sig (Elt F))).Forall fun op => op.fresh = ∅ := by
  simp only [List.Forall]; repeat' constructor
theorem rops1_fresh : (rops1 : List (HloOp τ sig (Elt F))).Forall fun op => op.fresh = ∅ := by
  simp only [List.Forall]; repeat' constructor
theorem rops2_fresh : (rops2 : List (HloOp τ sig (Elt F))).Forall fun op => op.fresh = ∅ := by
  simp only [List.Forall]; repeat' constructor
theorem rops3_fresh : (rops3 : List (HloOp τ sig (Elt F))).Forall fun op => op.fresh = ∅ := by
  simp only [List.Forall]; repeat' constructor
theorem rops4_fresh : (rops4 : List (HloOp τ sig (Elt F))).Forall fun op => op.fresh = ∅ := by
  simp only [List.Forall]; repeat' constructor
theorem rops5_fresh : (rops5 : List (HloOp τ sig (Elt F))).Forall fun op => op.fresh = ∅ := by
  simp only [List.Forall]; repeat' constructor

theorem ropsAll_fresh : (ropsAll : List (HloOp τ sig (Elt F))).Forall fun op => op.fresh = ∅ := by
  simp only [ropsAll, List.forall_append]
  exact ⟨rops0_fresh, rops1_fresh, rops2_fresh, rops3_fresh, rops4_fresh, rops5_fresh⟩

/-- THE RUN, UNREAD: every weakly fair execution of @main terminates with each TensorCore buffer at the fold of the
    operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ropsAll (F := F)) (launchContents m d) (D b) :=
  run_seq scopedRefs_eq scopedSems_eq defs main (fun _ => ropsAll) main_eq (fun _ => ropsAll_sub) m ρ
    (fun _ op h => (List.forall_iff_forall_mem.mp ropsAll_fresh) op h)

/-! ## The pieces compose -/

section Compose
variable (V : Valuation τ sig (Elt F))

/-- The line of six pieces is the six lines run one after the other. -/
theorem after_all : after (ropsAll (F := F)) V
    = after rops5 (after rops4 (after rops3 (after rops2 (after rops1 (after rops0 V))))) := by
  simp only [ropsAll, StableHlo.after_append]

/-- A buffer the first two pieces do not write keeps its contents through them. -/
theorem keep2 (r : Ref sig .tc) (h0 : r ∉ written0) (h1 : r ∉ written1) :
    after rops1 (after rops0 V) (D r) = V (D r) :=
  (c1_keep _ r h1).trans (c0_keep V r h0)
/-- … the first three. -/
theorem keep3 (r : Ref sig .tc) (h0 : r ∉ written0) (h1 : r ∉ written1) (h2 : r ∉ written2) :
    after rops2 (after rops1 (after rops0 V)) (D r) = V (D r) :=
  (c2_keep _ r h2).trans (keep2 V r h0 h1)
/-- … the first four. -/
theorem keep4 (r : Ref sig .tc) (h0 : r ∉ written0) (h1 : r ∉ written1) (h2 : r ∉ written2) (h3 : r ∉ written3) :
    after rops3 (after rops2 (after rops1 (after rops0 V))) (D r) = V (D r) :=
  (c3_keep _ r h3).trans (keep3 V r h0 h1 h2)
/-- … the first five. -/
theorem keep5 (r : Ref sig .tc) (h0 : r ∉ written0) (h1 : r ∉ written1) (h2 : r ∉ written2) (h3 : r ∉ written3)
    (h4 : r ∉ written4) :
    after rops4 (after rops3 (after rops2 (after rops1 (after rops0 V)))) (D r) = V (D r) :=
  (c4_keep _ r h4).trans (keep4 V r h0 h1 h2 h3)
/-- … all six. -/
theorem keep6 (r : Ref sig .tc) (h0 : r ∉ written0) (h1 : r ∉ written1) (h2 : r ∉ written2) (h3 : r ∉ written3)
    (h4 : r ∉ written4) (h5 : r ∉ written5) :
    after (ropsAll (F := F)) V (D r) = V (D r) := by
  rw [after_all]
  exact (c5_keep _ r h5).trans (keep5 V r h0 h1 h2 h3 h4)

/-- After the second piece the user tower's first-layer buffer holds the first layer of the looked-up user rows. -/
theorem u1_at : after rops1 (after rops0 V) (D main_v64)
    = rU1 (V (D main_arg0)) (V (D main_arg2)) (V (D main_arg4)) (V (D main_arg6)) (V (D main_arg7)) := by
  rw [c1_u1, c0_u0, c0_keep V main_arg2 (by decide), c0_keep V main_arg6 (by decide), c0_keep V main_arg7 (by decide)]
  rfl

/-- After the third piece the product tower's first-layer buffer holds the first layer of the looked-up product rows. -/
theorem p1_at : after rops2 (after rops1 (after rops0 V)) (D main_v115)
    = rP1 (V (D main_arg1)) (V (D main_arg3)) (V (D main_arg5)) (V (D main_arg8)) (V (D main_arg9)) := by
  rw [c2_p1, c1_keep _ main_v13 (by decide), c0_p0, keep2 V main_arg3 (by decide) (by decide),
    keep2 V main_arg8 (by decide) (by decide), keep2 V main_arg9 (by decide) (by decide)]
  rfl

/-- After the fourth piece the user tower's second-layer buffer holds its second layer. -/
theorem u2_at : after rops3 (after rops2 (after rops1 (after rops0 V))) (D main_v166)
    = rU2 (V (D main_arg0)) (V (D main_arg2)) (V (D main_arg4)) (V (D main_arg6)) (V (D main_arg7)) := by
  rw [c3_u2, c2_keep _ main_v64 (by decide), u1_at, keep3 V main_arg2 (by decide) (by decide) (by decide),
    keep3 V main_arg6 (by decide) (by decide) (by decide), keep3 V main_arg7 (by decide) (by decide) (by decide)]
  rfl

/-- After the fifth piece the product tower's second-layer buffer holds its second layer. -/
theorem p2_at : after rops4 (after rops3 (after rops2 (after rops1 (after rops0 V)))) (D main_v217)
    = rP2 (V (D main_arg1)) (V (D main_arg3)) (V (D main_arg5)) (V (D main_arg8)) (V (D main_arg9)) := by
  rw [c4_p2, c3_keep _ main_v115 (by decide), p1_at, keep4 V main_arg3 (by decide) (by decide) (by decide) (by decide),
    keep4 V main_arg8 (by decide) (by decide) (by decide) (by decide),
    keep4 V main_arg9 (by decide) (by decide) (by decide) (by decide)]
  rfl

/-- THE RESULT: after the whole line the result buffer holds the last stage of the two towers' second-layer features. -/
theorem value : after (ropsAll (F := F)) V (D main_v233)
    = rTail (F := F) (rU2 (V (D main_arg0)) (V (D main_arg2)) (V (D main_arg4)) (V (D main_arg6)) (V (D main_arg7)))
        (rP2 (V (D main_arg1)) (V (D main_arg3)) (V (D main_arg5)) (V (D main_arg8)) (V (D main_arg9)))
        (V (D main_arg10)) (V (D main_arg11)) := by
  rw [after_all, c5_out, c4_keep _ main_v166 (by decide), u2_at, p2_at,
    keep5 V main_arg10 (by decide) (by decide) (by decide) (by decide) (by decide),
    keep5 V main_arg11 (by decide) (by decide) (by decide) (by decide) (by decide)]

/-- Every argument ends as it started: no piece writes it. -/
theorem kept_arg0 : after (ropsAll (F := F)) V (D main_arg0) = V (D main_arg0) :=
  keep6 V main_arg0 (by decide) (by decide) (by decide) (by decide) (by decide) (by decide)
theorem kept_arg1 : after (ropsAll (F := F)) V (D main_arg1) = V (D main_arg1) :=
  keep6 V main_arg1 (by decide) (by decide) (by decide) (by decide) (by decide) (by decide)
theorem kept_arg2 : after (ropsAll (F := F)) V (D main_arg2) = V (D main_arg2) :=
  keep6 V main_arg2 (by decide) (by decide) (by decide) (by decide) (by decide) (by decide)
theorem kept_arg3 : after (ropsAll (F := F)) V (D main_arg3) = V (D main_arg3) :=
  keep6 V main_arg3 (by decide) (by decide) (by decide) (by decide) (by decide) (by decide)
theorem kept_arg4 : after (ropsAll (F := F)) V (D main_arg4) = V (D main_arg4) :=
  keep6 V main_arg4 (by decide) (by decide) (by decide) (by decide) (by decide) (by decide)
theorem kept_arg5 : after (ropsAll (F := F)) V (D main_arg5) = V (D main_arg5) :=
  keep6 V main_arg5 (by decide) (by decide) (by decide) (by decide) (by decide) (by decide)
theorem kept_arg6 : after (ropsAll (F := F)) V (D main_arg6) = V (D main_arg6) :=
  keep6 V main_arg6 (by decide) (by decide) (by decide) (by decide) (by decide) (by decide)
theorem kept_arg7 : after (ropsAll (F := F)) V (D main_arg7) = V (D main_arg7) :=
  keep6 V main_arg7 (by decide) (by decide) (by decide) (by decide) (by decide) (by decide)
theorem kept_arg8 : after (ropsAll (F := F)) V (D main_arg8) = V (D main_arg8) :=
  keep6 V main_arg8 (by decide) (by decide) (by decide) (by decide) (by decide) (by decide)
theorem kept_arg9 : after (ropsAll (F := F)) V (D main_arg9) = V (D main_arg9) :=
  keep6 V main_arg9 (by decide) (by decide) (by decide) (by decide) (by decide) (by decide)
theorem kept_arg10 : after (ropsAll (F := F)) V (D main_arg10) = V (D main_arg10) :=
  keep6 V main_arg10 (by decide) (by decide) (by decide) (by decide) (by decide) (by decide)
theorem kept_arg11 : after (ropsAll (F := F)) V (D main_arg11) = V (D main_arg11) :=
  keep6 V main_arg11 (by decide) (by decide) (by decide) (by decide) (by decide) (by decide)

end Compose

/-! ## The run, read -/

/-- On every device, for any float values, from any memory with zero counters: every weakly fair execution of the
    reference's @main terminates with the result buffer at the last stage of the two towers' second-layer features —
    each a function of its own arguments' launch contents — and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v233)
          = rTail (F := F)
              (rU2 (m ((c.tc : Thread nD τ).loc main_arg0)) (m ((c.tc : Thread nD τ).loc main_arg2))
                (m ((c.tc : Thread nD τ).loc main_arg4)) (m ((c.tc : Thread nD τ).loc main_arg6))
                (m ((c.tc : Thread nD τ).loc main_arg7)))
              (rP2 (m ((c.tc : Thread nD τ).loc main_arg1)) (m ((c.tc : Thread nD τ).loc main_arg3))
                (m ((c.tc : Thread nD τ).loc main_arg5)) (m ((c.tc : Thread nD τ).loc main_arg8))
                (m ((c.tc : Thread nD τ).loc main_arg9)))
              (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v233).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c))⟩)
    (run_raw m ρ)

end Cert.ReferenceIdeal.RRun

end
-- ==== Proof.lean ====
/-
  The kernel (a two-tower graph-convolution network: embedding lookups, two layers per tower of "weight product, then
  normalised aggregation along the edges", a dense projection and a row softmax) against its jnp reference.

  Frames: the two kernel programs' by their launch proofs; the reference's by its run, one stage after another.
  The idealized kernel is the kernel's own text read at the ideal instance (no rewrite), so `preserves` asks nothing.
  Equal results over the extended reals: the kernel's program scales rows by `dinv = 1/√deg` before and after each segment
  sum where the reference scales each message by `dinv[src] · dinv[dst]`; `dinv` is a nonnegative real whatever the degree,
  and a nonnegative real distributes over any sum of extended reals, so every layer agrees for all inputs. The last stage
  contracts the two towers' features against the two halves of the projection matrix where the reference contracts them side
  by side against the whole: a 256-term sum is the sum of its halves. The row softmax is the same formula on both sides.
-/
import proofs.«402708_j47854525612559_3_alg».proof.Defs
import proofs.«402708_j47854525612559_3_alg».proof.Proof.Gen.Kernel
import proofs.«402708_j47854525612559_3_alg».proof.Proof.Gen.Kernel.Frame
import proofs.«402708_j47854525612559_3_alg».proof.Proof.Gen.KernelIdeal
import proofs.«402708_j47854525612559_3_alg».proof.Proof.Gen.KernelIdeal.Frame
import proofs.«402708_j47854525612559_3_alg».proof.Proof.Gen.ReferenceIdeal
import proofs.«402708_j47854525612559_3_alg».proof.Proof.Gen.Pre_finite_inputs
import proofs.«402708_j47854525612559_3_alg».proof.Proof.KernelRun
import proofs.«402708_j47854525612559_3_alg».proof.Proof.KValue
import proofs.«402708_j47854525612559_3_alg».proof.Proof.Bridge
import proofs.«402708_j47854525612559_3_alg».proof.Proof.RRun
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference: its run, the result dropped. -/
theorem frame_ri : Cert.frame_ReferenceIdeal := fun m ρ _ =>
  (θ_run Cert.ReferenceIdeal.defs _ _).mono (fun _ h c => (h c).2) (Cert.ReferenceIdeal.RRun.run (F := Ideal) m ρ)

/-- At the ideal instance both programs end at the row softmax of the same logits of the same two towers' features. -/
theorem algebraic : Cert.algebraic_KernelIdeal_ReferenceIdeal := by
  intro m ρ m' ρ' _ hagree
  refine ⟨fun c => Cert.Gcn.Soft
      (Cert.KernelIdeal.KVal.kU2 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (Cert.KernelIdeal.KVal.kP2 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (Cert.KernelIdeal.KVal.kWu (F := Ideal) (m ((c.tc : Thread Cert.KernelIdeal.nD Cert.KernelIdeal.τ).loc Cert.KernelIdeal.main_arg10))) (Cert.KernelIdeal.KVal.kWp (F := Ideal) (m ((c.tc : Thread Cert.KernelIdeal.nD Cert.KernelIdeal.τ).loc Cert.KernelIdeal.main_arg10))) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.KVal.result m ρ c), (h c).2⟩)
      (Cert.KernelIdeal.Gen.run_val m ρ)
  · refine (θ_run Cert.ReferenceIdeal.defs _ _).mono (fun r h c => ⟨(h c).1.trans ?_, (h c).2⟩) (Cert.ReferenceIdeal.RRun.run (F := Ideal) m' ρ')
    obtain ⟨e0, e1, e2, e3, e4, e5, e6, e7, e8, e9, e10, e11⟩ := hagree c
    rw [e0, e1, e2, e3, e4, e5, e6, e7, e8, e9, e10, e11]
    exact (Cert.Bridge.out_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
